-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v26_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S16x512x512 : Shape := ⟨3, ![16, 512, 512]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel

variable [Facts]

def fn {F : FTy → Type} [FloatOps F] (main_arg0 : FVec F S16x256x128x128 .f32) (main_arg1 : IVec S16x512x512 32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  main_v3
-- ==== Kernel.lean ====
abbrev S16x256x128x128 : Shape := ⟨4, ![16, 256, 128, 128]⟩
abbrev S16x512x512 : Shape := ⟨3, ![16, 512, 512]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S128x128x1 : Shape := ⟨3, ![128, 128, 1]⟩
abbrev S128x128x2 : Shape := ⟨3, ![128, 128, 2]⟩
abbrev S16x128x128 : Shape := ⟨3, ![16, 128, 128]⟩
abbrev S256x21 : Shape := ⟨2, ![256, 21]⟩
abbrev S21 : Shape := ⟨1, ![21]⟩
abbrev S1x256x64x128 : Shape := ⟨4, ![1, 256, 64, 128]⟩
abbrev S1x64x128 : Shape := ⟨3, ![1, 64, 128]⟩
abbrev S256x64x128 : Shape := ⟨3, ![256, 64, 128]⟩
abbrev S64x128 : Shape := ⟨2, ![64, 128]⟩
abbrev S64x128x21 : Shape := ⟨3, ![64, 128, 21]⟩
abbrev S64x128x1 : Shape := ⟨3, ![64, 128, 1]⟩
abbrev S256x8192 : Shape := ⟨2, ![256, 8192]⟩
abbrev S8192x21 : Shape := ⟨2, ![8192, 21]⟩
abbrev S21x256 : Shape := ⟨2, ![21, 256]⟩
abbrev S21x1 : Shape := ⟨2, ![21, 1]⟩

abbrev nBuf : Space → Nat
  | .hbm => 85
  | .vmem => 8
  | .smem => 0
  | _ => 0

abbrev bufTy : (tb : Table) → Fin (tcTables nBuf tb) → BufTy
  | .hbm, ⟨0, _⟩ => ⟨S16x256x128x128, .f32⟩
  | .hbm, ⟨1, _⟩ => ⟨S16x512x512, .i32⟩
  | .hbm, ⟨2, _⟩ => ⟨S128, .i32⟩
  | .hbm, ⟨3, _⟩ => ⟨S_, .i32⟩
  | .hbm, ⟨4, _⟩ => ⟨S128, .i32⟩
  | .hbm, ⟨5, _⟩ => ⟨S128, .i32⟩
  | .hbm, ⟨6, _⟩ => ⟨S_, .i32⟩
  | .hbm, ⟨7, _⟩ => ⟨S_, .i32⟩
  | .hbm, ⟨8, _⟩ => ⟨S128, .i32⟩
  | .hbm, ⟨9, _⟩ => ⟨S128, .i32⟩
  | .hbm, ⟨10, _⟩ => ⟨S128, .i32⟩
  | .hbm, ⟨11, _⟩ => ⟨S_, .i32⟩
  | .hbm, ⟨12, _⟩ => ⟨S128, .i32⟩
  | .hbm, ⟨13, _⟩ => ⟨S128, .i1⟩
  | .hbm, ⟨14, _⟩ => ⟨S128, .i32⟩
  | .hbm, ⟨15, _⟩ => ⟨S128, .i32⟩
  | .hbm, ⟨16, _⟩ => ⟨S_, .i32⟩
  | .hbm, ⟨17, _⟩ => ⟨S128, .i32⟩
  | .hbm, ⟨18, _⟩ => ⟨S128, .i1⟩
  | .hbm, ⟨19, _⟩ => ⟨S128, .i1⟩
  | .hbm, ⟨20, _⟩ => ⟨S_, .i32⟩
  | .hbm, ⟨21, _⟩ => ⟨S128, .i32⟩
  | .hbm, ⟨22, _⟩ => ⟨S128, .i32⟩
  | .hbm, ⟨23, _⟩ => ⟨S128, .i32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S_, .i32⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i32⟩
  | .hbm, ⟨45, _⟩ => ⟨S128, .i32⟩
  | .hbm, ⟨46, _⟩ => ⟨S128x1, .i32⟩
  | .hbm, ⟨47, _⟩ => ⟨S1x128, .i32⟩
  | .hbm, ⟨48, _⟩ => ⟨S_, .i32⟩
  | .hbm, ⟨49, _⟩ => ⟨S128x1, .i32⟩
  | .hbm, ⟨50, _⟩ => ⟨S128x1, .i1⟩
  | .hbm, ⟨51, _⟩ => ⟨S_, .i32⟩
  | .hbm, ⟨52, _⟩ => ⟨S128x1, .i32⟩
  | .hbm, ⟨53, _⟩ => ⟨S128x1, .i32⟩
  | .hbm, ⟨54, _⟩ => ⟨S128x1, .i32⟩
  | .hbm, ⟨55, _⟩ => ⟨S_, .i32⟩
  | .hbm, ⟨56, _⟩ => ⟨S1x128, .i32⟩
  | .hbm, ⟨57, _⟩ => ⟨S1x128, .i1⟩
  | .hbm, ⟨58, _⟩ => ⟨S_, .i32⟩
  | .hbm, ⟨59, _⟩ => ⟨S1x128, .i32⟩
  | .hbm, ⟨60, _⟩ => ⟨S1x128, .i32⟩
  | .hbm, ⟨61, _⟩ => ⟨S1x128, .i32⟩
  | .hbm, ⟨62, _⟩ => ⟨S128x128, .i32⟩
  | .hbm, ⟨63, _⟩ => ⟨S128x128, .i32⟩
  | .hbm, ⟨64, _⟩ => ⟨S128x128x1, .i32⟩
  | .hbm, ⟨65, _⟩ => ⟨S128x128x1, .i32⟩
  | .hbm, ⟨66, _⟩ => ⟨S128x128x2, .i32⟩
  | .hbm, ⟨67, _⟩ => ⟨S16x128x128, .i32⟩
  | .hbm, ⟨68, _⟩ => ⟨S256x21, .f32⟩
  | .hbm, ⟨69, _⟩ => ⟨S21, .f32⟩
  | .hbm, ⟨70, _⟩ => ⟨S21x256, .f32⟩
  | .hbm, ⟨71, _⟩ => ⟨S_, .f32⟩
  | .hbm, ⟨72, _⟩ => ⟨S21, .f32⟩
  | .hbm, ⟨73, _⟩ => ⟨S21, .f32⟩
  | .hbm, ⟨74, _⟩ => ⟨S21x1, .f32⟩
  | .hbm, ⟨75, _⟩ => ⟨S21x256, .f32⟩
  | .hbm, ⟨76, _⟩ => ⟨S21x256, .f32⟩
  | .hbm, ⟨77, _⟩ => ⟨S21x1, .f32⟩
  | .hbm, ⟨78, _⟩ => ⟨S_, .f32⟩
  | .hbm, ⟨79, _⟩ => ⟨S21x1, .f32⟩
  | .hbm, ⟨80, _⟩ => ⟨S21x1, .i1⟩
  | .hbm, ⟨81, _⟩ => ⟨S_, .f32⟩
  | .hbm, ⟨82, _⟩ => ⟨S21x256, .f32⟩
  | .hbm, ⟨83, _⟩ => ⟨S21x256, .i1⟩
  | .hbm, ⟨84, _⟩ => ⟨S21x256, .f32⟩
  | .local _ .vmem, ⟨0, _⟩ => ⟨S1x256x64x128, .f32⟩
  | .local _ .vmem, ⟨1, _⟩ => ⟨S1x256x64x128, .f32⟩
  | .local _ .vmem, ⟨2, _⟩ => ⟨S1x64x128, .i32⟩
  | .local _ .vmem, ⟨3, _⟩ => ⟨S1x64x128, .i32⟩
  | .local _ .vmem, ⟨4, _⟩ => ⟨S256x21, .f32⟩
  | .local _ .vmem, ⟨5, _⟩ => ⟨S21, .f32⟩
  | .local _ .vmem, ⟨6, _⟩ => ⟨S256x21, .f32⟩
  | .local _ .vmem, ⟨7, _⟩ => ⟨S21, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v3 : Ref sig .tc := ⟨.hbm, 23, rfl⟩
abbrev main_v4 : Ref sig .tc := ⟨.hbm, 24, rfl⟩
abbrev main_c_1 : Ref sig .tc := ⟨.hbm, 25, rfl⟩
abbrev main_v5 : Ref sig .tc := ⟨.hbm, 26, rfl⟩
abbrev main_v6 : Ref sig .tc := ⟨.hbm, 27, rfl⟩
abbrev main_c_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_c_3 : Ref sig .tc := ⟨.hbm, 48, rfl⟩
abbrev main_v10 : Ref sig .tc := ⟨.hbm, 49, rfl⟩
abbrev main_v11 : Ref sig .tc := ⟨.hbm, 50, rfl⟩
abbrev main_c_4 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_c_5 : Ref sig .tc := ⟨.hbm, 55, rfl⟩
abbrev main_v15 : Ref sig .tc := ⟨.hbm, 56, rfl⟩
abbrev main_v16 : Ref sig .tc := ⟨.hbm, 57, rfl⟩
abbrev main_c_6 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26_0 : Ref sig .tc := ⟨.hbm, 68, rfl⟩
abbrev main_v26_1 : Ref sig .tc := ⟨.hbm, 69, rfl⟩
abbrev main_v27 : Ref sig .tc := ⟨.hbm, 70, rfl⟩
abbrev main_cst : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_cst_7 : Ref sig .tc := ⟨.hbm, 78, rfl⟩
abbrev main_v34 : Ref sig .tc := ⟨.hbm, 79, rfl⟩
abbrev main_v35 : Ref sig .tc := ⟨.hbm, 80, rfl⟩
abbrev main_cst_8 : Ref sig .tc := ⟨.hbm, 81, rfl⟩
abbrev main_v36 : Ref sig .tc := ⟨.hbm, 82, rfl⟩
abbrev main_call2_v0 : Ref sig .tc := ⟨.hbm, 83, rfl⟩
abbrev main_v37 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg0 : BitVec 32 := BitVec.ofNat 32 (i 0).val
  let c15_i32 : BitVec 32 := 15#32
  let v31 : BitVec 1 := Scalar.cmpi .eq arg0 c15_i32
  let arg1 : BitVec 32 := BitVec.ofNat 32 (i 1).val
  let c1_i32 : BitVec 32 := 1#32
  let v32 : BitVec 1 := Scalar.cmpi .eq arg1 c1_i32
  let v33 : BitVec 1 := Scalar.andi v31 v32
  let v34 : BitVec 32 := Scalar.extui v33
  let c0_i32_15 : BitVec 32 := 0#32
  let v35 : BitVec 1 := Scalar.cmpi .ne v34 c0_i32_15
  v35

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 2 → Memref sig .tc .vmem S1x256x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x21 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S21 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  bcast_S_S128 : S_.BroadcastsInDim S128 (![] : Fin 0 → Fin S128.rank)
  bcast_S128_S128x1_0 : S128.BroadcastsInDim S128x1 (![0] : Fin 1 → Fin S128x1.rank)
  bcast_S128_S1x128_1 : S128.BroadcastsInDim S1x128 (![1] : Fin 1 → Fin S1x128.rank)
  bcast_S_S128x1 : S_.BroadcastsInDim S128x1 (![] : Fin 0 → Fin S128x1.rank)
  bcast_S_S1x128 : S_.BroadcastsInDim S1x128 (![] : Fin 0 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S128x128_S128x128x1_0_1 : S128x128.BroadcastsInDim S128x128x1 (![0, 1] : Fin 2 → Fin S128x128x1.rank)
  concatenates_S128x128x1_S128x128x1_S128x128x2_d2 : Shape.Concatenates [S128x128x1, S128x128x1] S128x128x2 2
  inb_S256x21_S256x21_0_0 : ∀ a, (![0, 0] : Fin 2 → Nat) a + S256x21.size a ≤ S256x21.size a
  h_S256x21 : 0 < S256x21.numel
  shapeCasts_S256x21_S256x21 : S256x21.ShapeCasts S256x21
  inb_S21_S21_0 : ∀ a, (![0] : Fin 1 → Nat) a + S21.size a ≤ S21.size a
  h_S21 : 0 < S21.numel
  shapeCasts_S21_S21 : S21.ShapeCasts S21
  inb_S1x256x64x128_S1x256x64x128_0_0_0_0 : ∀ a, (![0, 0, 0, 0] : Fin 4 → Nat) a + S1x256x64x128.size a ≤ S1x256x64x128.size a
  h_S1x256x64x128 : 0 < S1x256x64x128.numel
  shapeCasts_S1x256x64x128_S256x64x128 : S1x256x64x128.ShapeCasts S256x64x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  iota_S64x128x21_d2_w32 : S64x128x21.Iotas .tc 32 [2]
  shapeCasts_S64x128_S64x128x1 : S64x128.ShapeCasts S64x128x1
  broadcasts_S64x128x1_S64x128x21 : S64x128x1.Broadcasts S64x128x21
  natLt_1_32 : 1 < 32
  reduces_S64x128x21_S21 : S64x128x21.Reduces [0, 1] S21
  shapeCasts_S256x64x128_S256x8192 : S256x64x128.ShapeCasts S256x8192
  bitsLt_bf16_f32 : FTy.bits .bf16 < FTy.bits .f32
  shapeCasts_S64x128x21_S8192x21 : S64x128x21.ShapeCasts S8192x21
  transposes_S256x21_S21x256_1_0 : S256x21.Transposes [1, 0] S21x256
  bcast_S_S21 : S_.BroadcastsInDim S21 (![] : Fin 0 → Fin S21.rank)
  bcast_S21_S21x1_0 : S21.BroadcastsInDim S21x1 (![0] : Fin 1 → Fin S21x1.rank)
  bcast_S21x1_S21x256_0_1 : S21x1.BroadcastsInDim S21x256 (![0, 1] : Fin 2 → Fin S21x256.rank)
  bcast_S_S21x1 : S_.BroadcastsInDim S21x1 (![] : Fin 0 → Fin S21x1.rank)
  bcast_S_S21x256 : S_.BroadcastsInDim S21x256 (![] : Fin 0 → Fin S21x256.rank)
  gather_S16x512x512_S128x128x2_S16x128x128_0_12_n_n_12_2_1611_wf : GatherDims.WF S16x512x512 S128x128x2 S16x128x128 [0] [1, 2] [] [1, 2] [] 2 ![16, 1, 1]
  dot_S256x8192_S8192x21_S256x21_1_0_0_1_n_n_wf : DotDims.WF S256x8192 S8192x21 S256x21 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64x128.size a ≤ S16x256x128x128.size a
  hwx0_0 : ∀ i : grid0.Coords, EltTy.bits .f32 = 32 ∨ (Rect.block (s := S16x256x128x128) S1x256x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128.size a ≤ S16x128x128.size a
  hwx0_1 : ∀ i : grid0.Coords, EltTy.bits .i32 = 32 ∨ (Rect.block (s := S16x128x128) S1x64x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x21.size a ≤ S256x21.size a
  hwx0_2 : ∀ i : grid0.Coords, EltTy.bits .f32 = 32 ∨ (Rect.block (s := S256x21) S256x21.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S21.size a ≤ S21.size a
  hwx0_3 : ∀ i : grid0.Coords, EltTy.bits .f32 = 32 ∨ (Rect.block (s := S21) S21.size (cc0_transform_3 i) (hinb0_3 i)).WholeWords (EltTy.packing .f32)

variable [Facts₀]

def gather_S16x512x512_S128x128x2_S16x128x128_0_12_n_n_12_2_1611 : GatherDims S16x512x512 S128x128x2 S16x128x128 where
  offsetDims := [0]
  collapsedSliceDims := [1, 2]
  operandBatchingDims := []
  startIndicesBatchingDims := []
  startIndexMap := [1, 2]
  indexVectorDim := 2
  sliceSizes := ![16, 1, 1]
  wf := gather_S16x512x512_S128x128x2_S16x128x128_0_12_n_n_12_2_1611_wf
def dot_S256x8192_S8192x21_S256x21_1_0_0_1_n_n : DotDims S256x8192 S8192x21 S256x21 where
  lhsContracting := [1]
  rhsContracting := [0]
  lhsNonContracting := [0]
  rhsNonContracting := [1]
  lhsBatch := []
  rhsBatch := []
  wf := dot_S256x8192_S8192x21_S256x21_1_0_0_1_n_n_wf

abbrev win0_0 : Pipeline.Window sig grid0 :=
  Pipeline.Window.ofSpec (Memref.whole main_arg0) S1x256x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S1x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26_0) S256x21.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26_1) S21.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x256x128x128 : Shape := ⟨4, ![16, 256, 128, 128]⟩
abbrev S16x512x512 : Shape := ⟨3, ![16, 512, 512]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S128x128x1 : Shape := ⟨3, ![128, 128, 1]⟩
abbrev S128x128x2 : Shape := ⟨3, ![128, 128, 2]⟩
abbrev S16x128x128 : Shape := ⟨3, ![16, 128, 128]⟩
abbrev S262144 : Shape := ⟨1, ![262144]⟩
abbrev S16x128x128x256 : Shape := ⟨4, ![16, 128, 128, 256]⟩
abbrev S262144x256 : Shape := ⟨2, ![262144, 256]⟩
abbrev S21x256 : Shape := ⟨2, ![21, 256]⟩
abbrev S262144x1 : Shape := ⟨2, ![262144, 1]⟩
abbrev S21 : Shape := ⟨1, ![21]⟩
abbrev S21x1 : Shape := ⟨2, ![21, 1]⟩

abbrev nBuf : Space → Nat
  | .hbm => 95
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S16x512x512, .i32⟩
  | .hbm, ⟨2, _⟩ => ⟨S128, .i32⟩
  | .hbm, ⟨3, _⟩ => ⟨S_, .i32⟩
  | .hbm, ⟨4, _⟩ => ⟨S128, .i32⟩
  | .hbm, ⟨5, _⟩ => ⟨S128, .i32⟩
  | .hbm, ⟨6, _⟩ => ⟨S_, .i32⟩
  | .hbm, ⟨7, _⟩ => ⟨S_, .i32⟩
  | .hbm, ⟨8, _⟩ => ⟨S128, .i32⟩
  | .hbm, ⟨9, _⟩ => ⟨S128, .i32⟩
  | .hbm, ⟨10, _⟩ => ⟨S128, .i32⟩
  | .hbm, ⟨11, _⟩ => ⟨S_, .i32⟩
  | .hbm, ⟨12, _⟩ => ⟨S128, .i32⟩
  | .hbm, ⟨13, _⟩ => ⟨S128, .i1⟩
  | .hbm, ⟨14, _⟩ => ⟨S128, .i32⟩
  | .hbm, ⟨15, _⟩ => ⟨S128, .i32⟩
  | .hbm, ⟨16, _⟩ => ⟨S_, .i32⟩
  | .hbm, ⟨17, _⟩ => ⟨S128, .i32⟩
  | .hbm, ⟨18, _⟩ => ⟨S128, .i1⟩
  | .hbm, ⟨19, _⟩ => ⟨S128, .i1⟩
  | .hbm, ⟨20, _⟩ => ⟨S_, .i32⟩
  | .hbm, ⟨21, _⟩ => ⟨S128, .i32⟩
  | .hbm, ⟨22, _⟩ => ⟨S128, .i32⟩
  | .hbm, ⟨23, _⟩ => ⟨S128, .i32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S_, .i32⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i32⟩
  | .hbm, ⟨45, _⟩ => ⟨S128, .i32⟩
  | .hbm, ⟨46, _⟩ => ⟨S128x1, .i32⟩
  | .hbm, ⟨47, _⟩ => ⟨S1x128, .i32⟩
  | .hbm, ⟨48, _⟩ => ⟨S_, .i32⟩
  | .hbm, ⟨49, _⟩ => ⟨S128x1, .i32⟩
  | .hbm, ⟨50, _⟩ => ⟨S128x1, .i1⟩
  | .hbm, ⟨51, _⟩ => ⟨S_, .i32⟩
  | .hbm, ⟨52, _⟩ => ⟨S128x1, .i32⟩
  | .hbm, ⟨53, _⟩ => ⟨S128x1, .i32⟩
  | .hbm, ⟨54, _⟩ => ⟨S128x1, .i32⟩
  | .hbm, ⟨55, _⟩ => ⟨S_, .i32⟩
  | .hbm, ⟨56, _⟩ => ⟨S1x128, .i32⟩
  | .hbm, ⟨57, _⟩ => ⟨S1x128, .i1⟩
  | .hbm, ⟨58, _⟩ => ⟨S_, .i32⟩
  | .hbm, ⟨59, _⟩ => ⟨S1x128, .i32⟩
  | .hbm, ⟨60, _⟩ => ⟨S1x128, .i32⟩
  | .hbm, ⟨61, _⟩ => ⟨S1x128, .i32⟩
  | .hbm, ⟨62, _⟩ => ⟨S128x128, .i32⟩
  | .hbm, ⟨63, _⟩ => ⟨S128x128, .i32⟩
  | .hbm, ⟨64, _⟩ => ⟨S128x128x1, .i32⟩
  | .hbm, ⟨65, _⟩ => ⟨S128x128x1, .i32⟩
  | .hbm, ⟨66, _⟩ => ⟨S128x128x2, .i32⟩
  | .hbm, ⟨67, _⟩ => ⟨S16x128x128, .i32⟩
  | .hbm, ⟨68, _⟩ => ⟨S262144, .i32⟩
  | .hbm, ⟨69, _⟩ => ⟨S16x128x128x256, .f32⟩
  | .hbm, ⟨70, _⟩ => ⟨S262144x256, .f32⟩
  | .hbm, ⟨71, _⟩ => ⟨S_, .f32⟩
  | .hbm, ⟨72, _⟩ => ⟨S21x256, .f32⟩
  | .hbm, ⟨73, _⟩ => ⟨S262144x1, .i32⟩
  | .hbm, ⟨74, _⟩ => ⟨S21x256, .f32⟩
  | .hbm, ⟨75, _⟩ => ⟨S_, .f32⟩
  | .hbm, ⟨76, _⟩ => ⟨S262144, .f32⟩
  | .hbm, ⟨77, _⟩ => ⟨S_, .f32⟩
  | .hbm, ⟨78, _⟩ => ⟨S21, .f32⟩
  | .hbm, ⟨79, _⟩ => ⟨S262144x1, .i32⟩
  | .hbm, ⟨80, _⟩ => ⟨S21, .f32⟩
  | .hbm, ⟨81, _⟩ => ⟨S_, .f32⟩
  | .hbm, ⟨82, _⟩ => ⟨S21, .f32⟩
  | .hbm, ⟨83, _⟩ => ⟨S21, .f32⟩
  | .hbm, ⟨84, _⟩ => ⟨S21x1, .f32⟩
  | .hbm, ⟨85, _⟩ => ⟨S21x256, .f32⟩
  | .hbm, ⟨86, _⟩ => ⟨S21x256, .f32⟩
  | .hbm, ⟨87, _⟩ => ⟨S21x1, .f32⟩
  | .hbm, ⟨88, _⟩ => ⟨S_, .f32⟩
  | .hbm, ⟨89, _⟩ => ⟨S21x1, .f32⟩
  | .hbm, ⟨90, _⟩ => ⟨S21x1, .i1⟩
  | .hbm, ⟨91, _⟩ => ⟨S_, .f32⟩
  | .hbm, ⟨92, _⟩ => ⟨S21x256, .f32⟩
  | .hbm, ⟨93, _⟩ => ⟨S21x256, .i1⟩
  | .hbm, ⟨94, _⟩ => ⟨S21x256, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v3 : Ref sig .tc := ⟨.hbm, 23, rfl⟩
abbrev main_v4 : Ref sig .tc := ⟨.hbm, 24, rfl⟩
abbrev main_c_1 : Ref sig .tc := ⟨.hbm, 25, rfl⟩
abbrev main_v5 : Ref sig .tc := ⟨.hbm, 26, rfl⟩
abbrev main_v6 : Ref sig .tc := ⟨.hbm, 27, rfl⟩
abbrev main_c_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_c_3 : Ref sig .tc := ⟨.hbm, 48, rfl⟩
abbrev main_v10 : Ref sig .tc := ⟨.hbm, 49, rfl⟩
abbrev main_v11 : Ref sig .tc := ⟨.hbm, 50, rfl⟩
abbrev main_c_4 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_c_5 : Ref sig .tc := ⟨.hbm, 55, rfl⟩
abbrev main_v15 : Ref sig .tc := ⟨.hbm, 56, rfl⟩
abbrev main_v16 : Ref sig .tc := ⟨.hbm, 57, rfl⟩
abbrev main_c_6 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_cst : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_cst_7 : Ref sig .tc := ⟨.hbm, 75, rfl⟩
abbrev main_v32 : Ref sig .tc := ⟨.hbm, 76, rfl⟩
abbrev main_cst_8 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_cst_9 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_cst_10 : Ref sig .tc := ⟨.hbm, 88, rfl⟩
abbrev main_v42 : Ref sig .tc := ⟨.hbm, 89, rfl⟩
abbrev main_v43 : Ref sig .tc := ⟨.hbm, 90, rfl⟩
abbrev main_cst_11 : Ref sig .tc := ⟨.hbm, 91, rfl⟩
abbrev main_v44 : Ref sig .tc := ⟨.hbm, 92, rfl⟩
abbrev main_call2_v0 : Ref sig .tc := ⟨.hbm, 93, rfl⟩
abbrev main_v45 : Ref sig .tc := ⟨.hbm, 94, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S128x1_0 : S128.BroadcastsInDim S128x1 (![0] : Fin 1 → Fin S128x1.rank)
  bcast_S128_S1x128_1 : S128.BroadcastsInDim S1x128 (![1] : Fin 1 → Fin S1x128.rank)
  bcast_S_S128x1 : S_.BroadcastsInDim S128x1 (![] : Fin 0 → Fin S128x1.rank)
  bcast_S_S1x128 : S_.BroadcastsInDim S1x128 (![] : Fin 0 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S128x128_S128x128x1_0_1 : S128x128.BroadcastsInDim S128x128x1 (![0, 1] : Fin 2 → Fin S128x128x1.rank)
  concatenates_S128x128x1_S128x128x1_S128x128x2_d2 : Shape.Concatenates [S128x128x1, S128x128x1] S128x128x2 2
  shapeCasts_S16x128x128_S262144 : S16x128x128.ShapeCasts S262144
  transposes_S16x256x128x128_S16x128x128x256_0_2_3_1 : S16x256x128x128.Transposes [0, 2, 3, 1] S16x128x128x256
  shapeCasts_S16x128x128x256_S262144x256 : S16x128x128x256.ShapeCasts S262144x256
  bcast_S_S21x256 : S_.BroadcastsInDim S21x256 (![] : Fin 0 → Fin S21x256.rank)
  bcast_S262144_S262144x1_0 : S262144.BroadcastsInDim S262144x1 (![0] : Fin 1 → Fin S262144x1.rank)
  bcast_S_S262144 : S_.BroadcastsInDim S262144 (![] : Fin 0 → Fin S262144.rank)
  bcast_S_S21 : S_.BroadcastsInDim S21 (![] : Fin 0 → Fin S21.rank)
  bcast_S21_S21x1_0 : S21.BroadcastsInDim S21x1 (![0] : Fin 1 → Fin S21x1.rank)
  bcast_S21x1_S21x256_0_1 : S21x1.BroadcastsInDim S21x256 (![0, 1] : Fin 2 → Fin S21x256.rank)
  bcast_S_S21x1 : S_.BroadcastsInDim S21x1 (![] : Fin 0 → Fin S21x1.rank)
  gather_S16x512x512_S128x128x2_S16x128x128_0_12_n_n_12_2_1611_wf : GatherDims.WF S16x512x512 S128x128x2 S16x128x128 [0] [1, 2] [] [1, 2] [] 2 ![16, 1, 1]
  scatter_S21x256_S262144x1_S262144x256_1_0_0_1_wf : ScatterDims.WF S21x256 S262144x1 S262144x256 [1] [0] [0] 1
  scatter_S21_S262144x1_S262144_n_0_0_1_wf : ScatterDims.WF S21 S262144x1 S262144 [] [0] [0] 1

variable [Facts₀]

def gather_S16x512x512_S128x128x2_S16x128x128_0_12_n_n_12_2_1611 : GatherDims S16x512x512 S128x128x2 S16x128x128 where
  offsetDims := [0]
  collapsedSliceDims := [1, 2]
  operandBatchingDims := []
  startIndicesBatchingDims := []
  startIndexMap := [1, 2]
  indexVectorDim := 2
  sliceSizes := ![16, 1, 1]
  wf := gather_S16x512x512_S128x128x2_S16x128x128_0_12_n_n_12_2_1611_wf
def scatter_S21x256_S262144x1_S262144x256_1_0_0_1 : ScatterDims S21x256 S262144x1 S262144x256 where
  updateWindowDims := [1]
  insertedWindowDims := [0]
  scatterDimsToOperandDims := [0]
  indexVectorDim := 1
  wf := scatter_S21x256_S262144x1_S262144x256_1_0_0_1_wf
def scatter_S21_S262144x1_S262144_n_0_0_1 : ScatterDims S21 S262144x1 S262144 where
  updateWindowDims := []
  insertedWindowDims := [0]
  scatterDimsToOperandDims := [0]
  indexVectorDim := 1
  wf := scatter_S21_S262144x1_S262144_n_0_0_1_wf

class Facts : Prop extends Facts₀ where

variable [Facts]
-- ==== Proof.KernelPieces.lean ====
/-
  What one run of the kernel's body leaves in its two accumulators and, at the last grid point, in its two
  output blocks, as values of the body's named arithmetic.

  The body adds to the [256, 21] accumulator the product of the tile's features by the tile's one-hot class
  matrix, and to the [21] accumulator the one-hot matrix's column sums. At the first grid point it first
  stores zeros into both, so there the additions start from zero; at every other point they start from what
  the point before left. At the last point the two accumulators, just updated, are copied to the outputs.
-/
import proofs.«426115_j19292993093657_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem
open Cert.KernelIdeal Cert.KernelIdeal.Gen

variable {F : FTy → Type} [FloatOps F]

/-- The all-zero offsets of a rank-1, rank-2, rank-3 and rank-4 whole-block access. -/
private theorem hz1 : (![0] : Fin 1 → Nat) = fun _ => 0 := funext fun a => by fin_cases a <;> rfl
private theorem hz2 : (![0, 0] : Fin 2 → Nat) = fun _ => 0 := funext fun a => by fin_cases a <;> rfl
private theorem hz3 : (![0, 0, 0] : Fin 3 → Nat) = fun _ => 0 := funext fun a => by fin_cases a <;> rfl
private theorem hz4 : (![0, 0, 0, 0] : Fin 4 → Nat) = fun _ => 0 := funext fun a => by fin_cases a <;> rfl

/-- First point, the [256, 21] accumulator: zeros plus the tile's product. -/
theorem acc_first (c : Dev nD) (i : grid0.Coords) (arg2 : Memref sig .tc .vmem S1x256x64x128 .f32) (harg2 : arg2.IsWhole) (arg3 : Memref sig .tc .vmem S1x64x128 .i32) (harg3 : arg3.IsWhole) (arg4 : Memref sig .tc .vmem S256x21 .f32) (harg4 : arg4.IsWhole) (arg5 : Memref sig .tc .vmem S21 .f32) (harg5 : arg5.IsWhole) (arg6 : Memref sig .tc .vmem S256x21 .f32) (harg6 : arg6.IsWhole) (arg7 : Memref sig .tc .vmem S21 .f32) (harg7 : arg7.IsWhole) (hc0 : cond0_0 i) (hc1 : ¬cond0_1 i)
    (x0 : Vec F S1x256x64x128 .f32) (x1 : Vec F S1x64x128 .i32) :
    sout0_A_0 c i arg2 harg2 arg3 harg3 arg4 harg4 arg5 harg5 arg6 harg6 arg7 harg7 hc0 hc1 x0 x1 = k0_pay4 x0 x1 (k0_pay1 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S256x21) hz2, View.readCov_unit_zero (S := S256x21) _ hz2]
  simp only [View.readAt_eq_ld, harg2.read_unread, harg3.read_unread, harg6.read_unread, harg7.read_unread, View.ld_unit_zero (S := S1x256x64x128) hz4, View.ld_unit_zero (S := S1x64x128) hz3, View.ld_unit_zero (S := S256x21) hz2, View.ld_unit_zero (S := S21) hz1]

/-- First point, the [21] accumulator: zeros plus the tile's column sums. -/
theorem cnt_first (c : Dev nD) (i : grid0.Coords) (arg2 : Memref sig .tc .vmem S1x256x64x128 .f32) (harg2 : arg2.IsWhole) (arg3 : Memref sig .tc .vmem S1x64x128 .i32) (harg3 : arg3.IsWhole) (arg4 : Memref sig .tc .vmem S256x21 .f32) (harg4 : arg4.IsWhole) (arg5 : Memref sig .tc .vmem S21 .f32) (harg5 : arg5.IsWhole) (arg6 : Memref sig .tc .vmem S256x21 .f32) (harg6 : arg6.IsWhole) (arg7 : Memref sig .tc .vmem S21 .f32) (harg7 : arg7.IsWhole) (hc0 : cond0_0 i) (hc1 : ¬cond0_1 i)
    (x0 : Vec F S1x256x64x128 .f32) (x1 : Vec F S1x64x128 .i32) :
    sout0_A_1 c i arg2 harg2 arg3 harg3 arg4 harg4 arg5 harg5 arg6 harg6 arg7 harg7 hc0 hc1 x0 x1 = k0_pay5 x1 (k0_pay2 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S21) hz1, View.readCov_unit_zero (S := S21) _ hz1]
  simp only [View.readAt_eq_ld, harg2.read_unread, harg3.read_unread, harg6.read_unread, harg7.read_unread, View.ld_unit_zero (S := S1x256x64x128) hz4, View.ld_unit_zero (S := S1x64x128) hz3, View.ld_unit_zero (S := S256x21) hz2, View.ld_unit_zero (S := S21) hz1]

/-- A middle point, the [256, 21] accumulator: what was there plus the tile's product. -/
theorem acc_mid (c : Dev nD) (i : grid0.Coords) (arg2 : Memref sig .tc .vmem S1x256x64x128 .f32) (harg2 : arg2.IsWhole) (arg3 : Memref sig .tc .vmem S1x64x128 .i32) (harg3 : arg3.IsWhole) (arg4 : Memref sig .tc .vmem S256x21 .f32) (harg4 : arg4.IsWhole) (arg5 : Memref sig .tc .vmem S21 .f32) (harg5 : arg5.IsWhole) (arg6 : Memref sig .tc .vmem S256x21 .f32) (harg6 : arg6.IsWhole) (arg7 : Memref sig .tc .vmem S21 .f32) (harg7 : arg7.IsWhole) (hc0 : ¬cond0_0 i) (hc1 : ¬cond0_1 i)
    (x0 : Vec F S1x256x64x128 .f32) (x1 : Vec F S1x64x128 .i32) (xs0 : Vec F S256x21 .f32) (xs1 : Vec F S21 .f32) :
    sout0_B_0 c i arg2 harg2 arg3 harg3 arg4 harg4 arg5 harg5 arg6 harg6 arg7 harg7 hc0 hc1 x0 x1 xs0 xs1 = k0_pay4 x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  rw [View.canon_unit_zero hz2]
  simp only [View.readAt_eq_ld, harg2.read_unread, harg3.read_unread, harg6.read_unread, harg7.read_unread, View.ld_unit_zero (S := S1x256x64x128) hz4, View.ld_unit_zero (S := S1x64x128) hz3, View.ld_unit_zero (S := S256x21) hz2, View.ld_unit_zero (S := S21) hz1]

/-- A middle point, the [21] accumulator. -/
theorem cnt_mid (c : Dev nD) (i : grid0.Coords) (arg2 : Memref sig .tc .vmem S1x256x64x128 .f32) (harg2 : arg2.IsWhole) (arg3 : Memref sig .tc .vmem S1x64x128 .i32) (harg3 : arg3.IsWhole) (arg4 : Memref sig .tc .vmem S256x21 .f32) (harg4 : arg4.IsWhole) (arg5 : Memref sig .tc .vmem S21 .f32) (harg5 : arg5.IsWhole) (arg6 : Memref sig .tc .vmem S256x21 .f32) (harg6 : arg6.IsWhole) (arg7 : Memref sig .tc .vmem S21 .f32) (harg7 : arg7.IsWhole) (hc0 : ¬cond0_0 i) (hc1 : ¬cond0_1 i)
    (x0 : Vec F S1x256x64x128 .f32) (x1 : Vec F S1x64x128 .i32) (xs0 : Vec F S256x21 .f32) (xs1 : Vec F S21 .f32) :
    sout0_B_1 c i arg2 harg2 arg3 harg3 arg4 harg4 arg5 harg5 arg6 harg6 arg7 harg7 hc0 hc1 x0 x1 xs0 xs1 = k0_pay5 x1 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  rw [View.canon_unit_zero hz1]
  simp only [View.readAt_eq_ld, harg2.read_unread, harg3.read_unread, harg6.read_unread, harg7.read_unread, View.ld_unit_zero (S := S1x256x64x128) hz4, View.ld_unit_zero (S := S1x64x128) hz3, View.ld_unit_zero (S := S256x21) hz2, View.ld_unit_zero (S := S21) hz1]

/-- The last point, the [256, 21] accumulator. -/
theorem acc_last (c : Dev nD) (i : grid0.Coords) (arg2 : Memref sig .tc .vmem S1x256x64x128 .f32) (harg2 : arg2.IsWhole) (arg3 : Memref sig .tc .vmem S1x64x128 .i32) (harg3 : arg3.IsWhole) (arg4 : Memref sig .tc .vmem S256x21 .f32) (harg4 : arg4.IsWhole) (arg5 : Memref sig .tc .vmem S21 .f32) (harg5 : arg5.IsWhole) (arg6 : Memref sig .tc .vmem S256x21 .f32) (harg6 : arg6.IsWhole) (arg7 : Memref sig .tc .vmem S21 .f32) (harg7 : arg7.IsWhole) (hc0 : ¬cond0_0 i) (hc1 : cond0_1 i)
    (x0 : Vec F S1x256x64x128 .f32) (x1 : Vec F S1x64x128 .i32) (xs0 : Vec F S256x21 .f32) (xs1 : Vec F S21 .f32) :
    sout0_C_0 c i arg2 harg2 arg3 harg3 arg4 harg4 arg5 harg5 arg6 harg6 arg7 harg7 hc0 hc1 x0 x1 xs0 xs1 = k0_pay4 x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero (S := S256x21) hz2]
  simp only [View.readAt_eq_ld, harg2.read_unread, harg3.read_unread, harg6.read_unread, harg7.read_unread, View.ld_unit_zero (S := S1x256x64x128) hz4, View.ld_unit_zero (S := S1x64x128) hz3, View.ld_unit_zero (S := S256x21) hz2, View.ld_unit_zero (S := S21) hz1]

/-- The last point, the [21] accumulator. -/
theorem cnt_last (c : Dev nD) (i : grid0.Coords) (arg2 : Memref sig .tc .vmem S1x256x64x128 .f32) (harg2 : arg2.IsWhole) (arg3 : Memref sig .tc .vmem S1x64x128 .i32) (harg3 : arg3.IsWhole) (arg4 : Memref sig .tc .vmem S256x21 .f32) (harg4 : arg4.IsWhole) (arg5 : Memref sig .tc .vmem S21 .f32) (harg5 : arg5.IsWhole) (arg6 : Memref sig .tc .vmem S256x21 .f32) (harg6 : arg6.IsWhole) (arg7 : Memref sig .tc .vmem S21 .f32) (harg7 : arg7.IsWhole) (hc0 : ¬cond0_0 i) (hc1 : cond0_1 i)
    (x0 : Vec F S1x256x64x128 .f32) (x1 : Vec F S1x64x128 .i32) (xs0 : Vec F S256x21 .f32) (xs1 : Vec F S21 .f32) :
    sout0_C_1 c i arg2 harg2 arg3 harg3 arg4 harg4 arg5 harg5 arg6 harg6 arg7 harg7 hc0 hc1 x0 x1 xs0 xs1 = k0_pay5 x1 xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero (S := S21) hz1]
  simp only [View.readAt_eq_ld, harg2.read_unread, harg3.read_unread, harg6.read_unread, harg7.read_unread, View.ld_unit_zero (S := S1x256x64x128) hz4, View.ld_unit_zero (S := S1x64x128) hz3, View.ld_unit_zero (S := S256x21) hz2, View.ld_unit_zero (S := S21) hz1]

/-- The last point, the [256, 21] output block: the accumulator as just updated. -/
theorem out_sums_last (c : Dev nD) (i : grid0.Coords) (arg2 : Memref sig .tc .vmem S1x256x64x128 .f32) (harg2 : arg2.IsWhole) (arg3 : Memref sig .tc .vmem S1x64x128 .i32) (harg3 : arg3.IsWhole) (arg4 : Memref sig .tc .vmem S256x21 .f32) (harg4 : arg4.IsWhole) (arg5 : Memref sig .tc .vmem S21 .f32) (harg5 : arg5.IsWhole) (arg6 : Memref sig .tc .vmem S256x21 .f32) (harg6 : arg6.IsWhole) (arg7 : Memref sig .tc .vmem S21 .f32) (harg7 : arg7.IsWhole) (hc0 : ¬cond0_0 i) (hc1 : cond0_1 i)
    (x0 : Vec F S1x256x64x128 .f32) (x1 : Vec F S1x64x128 .i32) (xs0 : Vec F S256x21 .f32) (xs1 : Vec F S21 .f32) :
    out0_C_2 c i arg2 harg2 arg3 harg3 arg4 harg4 arg5 harg5 arg6 harg6 arg7 harg7 hc0 hc1 x0 x1 xs0 xs1 = k0_pay4 x0 x1 xs0 := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero (S := S256x21) hz2, View.readCov_unit_zero (S := S256x21) _ hz2]
  simp only [View.readAt_eq_ld, harg2.read_unread, harg3.read_unread, harg6.read_unread, harg7.read_unread, View.ld_unit_zero (S := S1x256x64x128) hz4, View.ld_unit_zero (S := S1x64x128) hz3, View.ld_unit_zero (S := S256x21) hz2, View.ld_unit_zero (S := S21) hz1]

/-- The last point, the [21] output block. -/
theorem out_counts_last (c : Dev nD) (i : grid0.Coords) (arg2 : Memref sig .tc .vmem S1x256x64x128 .f32) (harg2 : arg2.IsWhole) (arg3 : Memref sig .tc .vmem S1x64x128 .i32) (harg3 : arg3.IsWhole) (arg4 : Memref sig .tc .vmem S256x21 .f32) (harg4 : arg4.IsWhole) (arg5 : Memref sig .tc .vmem S21 .f32) (harg5 : arg5.IsWhole) (arg6 : Memref sig .tc .vmem S256x21 .f32) (harg6 : arg6.IsWhole) (arg7 : Memref sig .tc .vmem S21 .f32) (harg7 : arg7.IsWhole) (hc0 : ¬cond0_0 i) (hc1 : cond0_1 i)
    (x0 : Vec F S1x256x64x128 .f32) (x1 : Vec F S1x64x128 .i32) (xs0 : Vec F S256x21 .f32) (xs1 : Vec F S21 .f32) :
    out0_C_3 c i arg2 harg2 arg3 harg3 arg4 harg4 arg5 harg5 arg6 harg6 arg7 harg7 hc0 hc1 x0 x1 xs0 xs1 = k0_pay5 x1 xs1 := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero (S := S21) hz1, View.readCov_unit_zero (S := S21) _ hz1]
  simp only [View.readAt_eq_ld, harg2.read_unread, harg3.read_unread, harg6.read_unread, harg7.read_unread, View.ld_unit_zero (S := S1x256x64x128) hz4, View.ld_unit_zero (S := S1x64x128) hz3, View.ld_unit_zero (S := S256x21) hz2, View.ld_unit_zero (S := S21) hz1]

end Cert.KernelIdeal.Pieces

end
-- ==== Proof.LibPlainDot.lean ====
/-
  A plain product of an m×k array by a k×n array, accumulated into the zero array and read at one entry. Over the
  extended reals it is the sum, over the contracted coordinate, of the products of the two arrays' entries — the same
  sum the host's product of the same two arrays is at that entry.
-/
import Idealize.ShloMosaic.Lib.StackMember
import Idealize.ShloMosaic.PureOps.Ideal.Laws

noncomputable section

namespace Cert.Lib.PlainDot

open Idealize.ShloMosaic Idealize.ShloMosaic.ValueIdx

/-- `A · B` into the zero accumulator, at entry `(a, b)`: `∑ c, A[a, c] * B[c, b]`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  refine Eq.trans ?_ (StackMember.dotGeneral_plain_apply prec A B a b)
  show FloatOps.matmul _ prec A B _ (ix2 a b) = FloatOps.dotGeneral _ prec _ A B (ix2 a b)
  rw [Ideal.matmul_constant_zero_apply, Ideal.dotGeneral_apply]

end Cert.Lib.PlainDot

end
-- ==== Proof.KernelPayload.lean ====
/-
  The body's arithmetic read entry by entry over the extended reals.

  The one-hot entry of tile pixel (r, w) for class k is 1 when the pixel's label word equals k and 0 otherwise, so
  the product of the tile's [256, 8192] features by the [8192, 21] one-hot matrix is, at (c, k), the sum of channel
  c over the tile's pixels of class k, and the one-hot matrix's column sum at k is the number of those pixels.
-/
import proofs.«426115_j19292993093657_1_alg».proof.Proof.Gen.KernelIdeal.Skeleton
import proofs.«426115_j19292993093657_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Payload

open Idealize.ShloMosaic Idealize.ShloMosaic.ValueIdx
open Cert.KernelIdeal Cert.KernelIdeal.Gen

/-- A 32-bit word is the word of a class number exactly when, read signed, it is that number. -/
private theorem word_eq_class_iff (x : BitVec 32) (k : Fin 21) :
    x = BitVec.ofNat 32 k.val ↔ x.toInt = (k.val : Int) := by
  have hk := k.isLt
  have hnat : (BitVec.ofNat 32 k.val).toNat = k.val := by rw [BitVec.toNat_ofNat]; omega
  have hval : (BitVec.ofNat 32 k.val).toInt = (k.val : Int) := by
    rw [BitVec.toInt_eq_toNat_of_lt (by rw [hnat]; omega), hnat]
  constructor
  · rintro rfl; exact hval
  · intro h; exact BitVec.eq_of_toInt_eq (h.trans hval.symm)

/-- The one-hot entry of tile pixel (r, w) for class k: 1 when the pixel's label word, read signed, is k, else 0. -/
theorem onehot_apply (x1 : Vec Ideal S1x64x128 .i32) (r : Fin 64) (w : Fin 128) (k : Fin 21) :
    k0_pay3 (F := Ideal) x1 (ix3 r w k)
      = if ((x1 (ix3 (0 : Fin 1) r w) : BitVec 32)).toInt = (k.val : Int) then (1 : EReal) else 0 := by
  unfold k0_pay3
  dsimp only
  rw [sitofp_apply, extui_apply]
  have hA : broadcastTo S64x128x21
      (shapeCast S64x128x1 (shapeCast S64x128 x1 shapeCasts_S1x64x128_S64x128) shapeCasts_S64x128_S64x128x1)
      broadcasts_S64x128x1_S64x128x21 (ix3 r w k) = x1 (ix3 (0 : Fin 1) r w) := by
    rw [broadcastTo_apply _ _ _ (ix3 r w (0 : Fin 1))
      (fun a => match a with | ⟨0, _⟩ => rfl | ⟨1, _⟩ => rfl | ⟨2, _⟩ => rfl)]
    rw [shapeCast_apply _ _ _ (ix2 r w) (by
      rw [Shape.rowMajor_val_two, Shape.rowMajor_val_three]
      show r.val * 128 + w.val = (r.val * 128 + w.val) * 1 + 0
      omega)]
    exact shapeCast_1ab_ab_apply x1 _ r w
  have hB : iota .tc S64x128x21 32 [2] iota_S64x128x21_d2_w32 (ix3 r w k) = BitVec.ofNat 32 k.val := by
    show BitVec.ofNat 32 (0 * 21 + k.val) = _
    rw [Nat.zero_mul, Nat.zero_add]
  show FloatOps.sitofp .f32 (BitVec.setWidth 32 (IntOp.cmpi .eq (_ : BitVec 32) _)) = _
  rw [hA, hB]
  by_cases h : x1 (ix3 (0 : Fin 1) r w) = BitVec.ofNat 32 k.val
  · rw [if_pos ((word_eq_class_iff _ k).mp h)]
    have hc : IntOp.cmpi .eq (x1 (ix3 (0 : Fin 1) r w)) (BitVec.ofNat 32 k.val) = 1#1 := by
      simp only [IntOp.cmpi, h, beq_self_eq_true, BitVec.ofBool_true]; rfl
    rw [hc]
    show (((BitVec.setWidth 32 1#1).toInt : ℝ) : EReal) = 1
    rw [show (BitVec.setWidth 32 1#1).toInt = 1 by decide]
    simp
  · rw [if_neg (fun hh => h ((word_eq_class_iff _ k).mpr hh))]
    have hc : IntOp.cmpi .eq (x1 (ix3 (0 : Fin 1) r w)) (BitVec.ofNat 32 k.val) = 0#1 := by
      simp only [IntOp.cmpi, beq_eq_false_iff_ne.mpr h, BitVec.ofBool_false]; rfl
    rw [hc]
    show (((BitVec.setWidth 32 0#1).toInt : ℝ) : EReal) = 0
    rw [show (BitVec.setWidth 32 0#1).toInt = 0 by decide]
    simp

/-- The tile's pixels in row-major order are the pairs (row, column). -/
private def tileEquiv : Fin 64 × Fin 128 ≃ Fin 8192 where
  toFun p := ⟨128 * p.1.val + p.2.val, by have := p.1.isLt; have := p.2.isLt; omega⟩
  invFun n := (⟨n.val / 128, by have := n.isLt; omega⟩, ⟨n.val % 128, by omega⟩)
  left_inv := by
    rintro ⟨r, w⟩
    have := r.isLt; have := w.isLt
    refine Prod.ext (Fin.ext ?_) (Fin.ext ?_)
    · show (128 * r.val + w.val) / 128 = r.val; omega
    · show (128 * r.val + w.val) % 128 = w.val; omega
  right_inv := by
    intro n
    refine Fin.ext ?_
    show 128 * (n.val / 128) + n.val % 128 = n.val
    omega

/-- A sum over the tile's 8192 pixels, row by row. -/
private theorem sum_tile {M : Type*} [AddCommMonoid M] (f : Fin 8192 → M) :
    ∑ n : Fin 8192, f n = ∑ r : Fin 64, ∑ w : Fin 128, f (tileEquiv (r, w)) := by
  rw [← Equiv.sum_comp tileEquiv f, Fintype.sum_prod_type]

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- An index (r, w, k') of the one-hot block drops, on the two pixel axes, to the class index k exactly when k' = k. -/
private theorem drop_eq_iff (r : Fin 64) (w : Fin 128) (k' k : Fin 21) :
    reduces_S64x128x21_S21.drop (ix3 r w k') = ix1 k ↔ k' = k := by
  constructor
  · intro h
    have h0 := congrArg (fun j : S21.Idx => (j 0).val) h
    exact Fin.ext ((reduces_S64x128x21_S21.drop_apply_val_of_eq (ix3 r w k') 0 2).symm.trans h0)
  · rintro rfl
    funext b
    match b with
    | ⟨0, _⟩ => exact Fin.ext (reduces_S64x128x21_S21.drop_apply_val_of_eq (ix3 r w k') 0 2)

/-- The zero block the first point stores into the [256, 21] accumulator. -/
theorem zeros_acc (j : S256x21.Idx) : k0_pay1 (F := Ideal) j = 0 := by
  unfold k0_pay1
  rw [shapeCast_self, broadcast_apply]
  exact Ideal.ofBits_zero_f32

/-- The zero block the first point stores into the [21] accumulator. -/
theorem zeros_cnt (j : S21.Idx) : k0_pay2 (F := Ideal) j = 0 := by
  unfold k0_pay2
  rw [shapeCast_self, broadcast_apply]
  exact Ideal.ofBits_zero_f32

/-- The updated [256, 21] accumulator at (c, k): what was there plus channel c summed over the tile's pixels whose
    label word, read signed, is k. -/
theorem acc_apply (x0 : Vec Ideal S1x256x64x128 .f32) (x1 : Vec Ideal S1x64x128 .i32) (acc : Vec Ideal S256x21 .f32)
    (c : Fin 256) (k : Fin 21) :
    k0_pay4 (F := Ideal) x0 x1 acc (ix2 c k)
      = acc (ix2 c k) + ∑ r : Fin 64, ∑ w : Fin 128,
          if ((x1 (ix3 (0 : Fin 1) r w) : BitVec 32)).toInt = (k.val : Int) then (x0 (ix4 (0 : Fin 1) c r w) : EReal) else 0 := by
  unfold k0_pay4
  rw [shapeCast_self, addf_apply]
  congr 1
  show matmul (DotDims.plain 256 8192 21) none _ _ (constant (F := Ideal) ⟨2, ![256, 21]⟩ .f32 0x00000000#32) (ix2 c k) = _
  rw [Cert.Lib.PlainDot.matmul_plain_zero_apply, sum_tile]
  refine Finset.sum_congr rfl fun r _ => Finset.sum_congr rfl fun w _ => ?_
  rw [truncf_apply, truncf_apply]
  have hL : shapeCast S256x8192 (shapeCast S256x64x128 x0 shapeCasts_S1x256x64x128_S256x64x128)
      shapeCasts_S256x64x128_S256x8192 (ix2 c (tileEquiv (r, w))) = x0 (ix4 (0 : Fin 1) c r w) := by
    rw [shapeCast_apply _ _ _ (ix3 c r w) (by
      rw [Shape.rowMajor_val_three, Shape.rowMajor_val_two]
      show (c.val * 64 + r.val) * 128 + w.val = c.val * 8192 + (128 * r.val + w.val)
      omega)]
    exact shapeCast_1abc_abc_apply x0 _ c r w
  have hR : shapeCast S8192x21 (k0_pay3 (F := Ideal) x1) shapeCasts_S64x128x21_S8192x21 (ix2 (tileEquiv (r, w)) k)
      = k0_pay3 (F := Ideal) x1 (ix3 r w k) :=
    shapeCast_apply _ _ _ (ix3 r w k) (by
      rw [Shape.rowMajor_val_three, Shape.rowMajor_val_two]
      show (r.val * 128 + w.val) * 21 + k.val = (128 * r.val + w.val) * 21 + k.val
      omega)
  rw [hL, hR, onehot_apply]
  show (x0 (ix4 (0 : Fin 1) c r w) : EReal) * (if _ then (1 : EReal) else 0) = _
  rw [mul_ite, mul_one, mul_zero]

/-- The updated [21] accumulator at k: what was there plus the number of the tile's pixels whose label word is k. -/
theorem cnt_apply (x1 : Vec Ideal S1x64x128 .i32) (acc : Vec Ideal S21 .f32) (k : Fin 21) :
    k0_pay5 (F := Ideal) x1 acc (ix1 k)
      = acc (ix1 k) + ∑ r : Fin 64, ∑ w : Fin 128,
          if ((x1 (ix3 (0 : Fin 1) r w) : BitVec 32)).toInt = (k.val : Int) then (1 : EReal) else 0 := by
  unfold k0_pay5
  rw [shapeCast_self, addf_apply]
  congr 1
  show Ideal.reduceAdd reduces_S64x128x21_S21 (k0_pay3 (F := Ideal) x1) (ix1 k) = _
  unfold Ideal.reduceAdd
  rw [Finset.sum_filter, sum_idx3]
  refine Finset.sum_congr rfl fun r _ => Finset.sum_congr rfl fun w _ => ?_
  simp only [drop_eq_iff]
  rw [Finset.sum_ite_eq' Finset.univ k, if_pos (Finset.mem_univ k), onehot_apply]

end Cert.KernelIdeal.Payload

end
-- ==== Proof.KernelBlocks.lean ====
/-
  The two input blocks of the kernel at a grid point, read entry by entry off the arrays the region finds.

  Grid point t (of 32, image-major: t = 2·b + half) reads rows 64·half … 64·half + 63 of image b: entry
  (0, ch, r, w) of its feature block is the feature map at (t / 2, ch, 64·(t mod 2) + r, w), and entry (0, r, w) of
  its label block is the resized label map at (t / 2, 64·(t mod 2) + r, w).
-/
import proofs.«426115_j19292993093657_1_alg».proof.Proof.Gen.KernelIdeal.Frame.Runs
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The feature block of grid point `t`. -/
abbrev fblk (c : Dev nD) (t : Fin cfg0.N) : Vec F S1x256x64x128 .f32 := iblk m c 0 t
/-- The label block of grid point `t`. -/
abbrev lblk (c : Dev nD) (t : Fin cfg0.N) : Vec F S1x64x128 .i32 := iblk m c 1 t
/-- The feature map as the region finds it. -/
abbrev farr (c : Dev nD) : Vec F S16x256x128x128 .f32 := V m c main_arg0
/-- The resized label map as the region finds it. -/
abbrev larr (c : Dev nD) : Vec F S16x128x128 .i32 := V m c main_v25

theorem N_eq : cfg0.N = 32 := N_0

/-- The block indices of the two input windows at every grid point: (t / 2, 0, t mod 2, 0) and (t / 2, t mod 2, 0). -/
theorem index_facts : ∀ t : Fin cfg0.N,
    win0_0.index t 0 = t.val / 2 ∧ win0_0.index t 1 = 0 ∧ win0_0.index t 2 = t.val % 2 ∧ win0_0.index t 3 = 0
    ∧ win0_1.index t 0 = t.val / 2 ∧ win0_1.index t 1 = t.val % 2 ∧ win0_1.index t 2 = 0 :=
  (by decide +kernel : ∀ t : Fin grid0.N, _)

/-- An entry of the feature block, in the feature map. -/
theorem fblk_apply (c : Dev nD) (t : Fin cfg0.N) (ch : Fin 256) (r : Fin 64) (w : Fin 128) :
    fblk m c t (ix4 (0 : Fin 1) ch r w)
      = farr m c (ix4 (⟨t.val / 2, by have := t.isLt; have hN : cfg0.N = 32 := N_eq; omega⟩ : Fin 16) ch
          (⟨64 * (t.val % 2) + r.val, by have := r.isLt; omega⟩ : Fin 128) w) := by
  obtain ⟨h0, h1, h2, h3, _⟩ := index_facts t
  unfold fblk iblk
  rw [View.read_apply]
  show V m c main_arg0 _ = V m c main_arg0 _
  congr 1
  funext a
  apply Fin.ext
  match a with
  | ⟨0, _⟩ => show win0_0.index t 0 * 1 + 1 * 0 = t.val / 2; rw [h0]; omega
  | ⟨1, _⟩ => show win0_0.index t 1 * 256 + 1 * ch.val = ch.val; rw [h1]; omega
  | ⟨2, _⟩ => show win0_0.index t 2 * 64 + 1 * r.val = 64 * (t.val % 2) + r.val; rw [h2]; omega
  | ⟨3, _⟩ => show win0_0.index t 3 * 128 + 1 * w.val = w.val; rw [h3]; omega

/-- An entry of the label block, in the resized label map. -/
theorem lblk_apply (c : Dev nD) (t : Fin cfg0.N) (r : Fin 64) (w : Fin 128) :
    lblk m c t (ix3 (0 : Fin 1) r w)
      = larr m c (ix3 (⟨t.val / 2, by have := t.isLt; have hN : cfg0.N = 32 := N_eq; omega⟩ : Fin 16)
          (⟨64 * (t.val % 2) + r.val, by have := r.isLt; omega⟩ : Fin 128) w) := by
  obtain ⟨_, _, _, _, h0, h1, h2⟩ := index_facts t
  unfold lblk iblk
  rw [View.read_apply]
  show V m c main_v25 _ = V m c main_v25 _
  congr 1
  funext a
  apply Fin.ext
  match a with
  | ⟨0, _⟩ => show win0_1.index t 0 * 1 + 1 * 0 = t.val / 2; rw [h0]; omega
  | ⟨1, _⟩ => show win0_1.index t 1 * 64 + 1 * r.val = 64 * (t.val % 2) + r.val; rw [h1]; omega
  | ⟨2, _⟩ => show win0_1.index t 2 * 128 + 1 * w.val = w.val; rw [h2]; omega

end Cert.KernelIdeal.Blocks

end
-- ==== Proof.ClassSums.lean ====
/-
  Per-class sums of a feature map over a label map, and the per-class pixel counts.

  The label map gives each of the 16·128·128 pixels (image b, row h, column w; numbered row-major,
  n = 16384·b + 128·h + w) a 32-bit word. Class k (one of 21) owns the pixels whose word, read signed,
  is k; a word outside 0 … 20 belongs to no class. For channel c the class sum is the sum over the
  class's pixels of the feature map at (b, c, h, w); the class count is the number of those pixels.

  The same sums are also laid out tile by tile: tile t (one of 32) is half an image, rows
  64·(t mod 2) … 64·(t mod 2) + 63 of image t / 2, and its pixel (r, w) is pixel 8192·t + 128·r + w of the
  whole numbering. A sum over all pixels is the sum over the tiles of the sums over each tile's pixels;
  nothing is needed of the addends for that but that addition is commutative and associative, which on the
  extended reals it is.
-/
import Mathlib.Algebra.BigOperators.Fin
import Mathlib.Algebra.BigOperators.Intervals
import Idealize.ShloMosaic.PureOps.Ideal
import Idealize.ShloMosaic.Lib.ValueIdx

noncomputable section

namespace Cert.ClassSums

open Idealize.ShloMosaic Idealize.ShloMosaic.ValueIdx

/-- The feature map's shape: image, channel, row, column. -/
abbrev SFeat : Shape := ⟨4, ![16, 256, 128, 128]⟩
/-- The label map's shape: image, row, column. -/
abbrev SLab : Shape := ⟨3, ![16, 128, 128]⟩

/-- The image of pixel `n`. -/
def pixB (n : Fin 262144) : Fin 16 := ⟨n.val / 16384, by have := n.isLt; omega⟩
/-- The row of pixel `n`. -/
def pixH (n : Fin 262144) : Fin 128 := ⟨n.val / 128 % 128, by omega⟩
/-- The column of pixel `n`. -/
def pixW (n : Fin 262144) : Fin 128 := ⟨n.val % 128, by omega⟩

/-- The label word of pixel `n`. -/
def labelAt (lab : IVec SLab 32) (n : Fin 262144) : BitVec 32 := lab (ix3 (pixB n) (pixH n) (pixW n))
/-- Channel `c` of the feature map at pixel `n`. -/
def featAt (feat : SFeat.Idx → EReal) (c : Fin 256) (n : Fin 262144) : EReal :=
  feat (ix4 (pixB n) c (pixH n) (pixW n))

/-- Pixel `n` belongs to class `k`: its word, read signed, is `k`. -/
abbrev InClass (lab : IVec SLab 32) (k : Fin 21) (n : Fin 262144) : Prop := (labelAt lab n).toInt = (k.val : Int)

/-- The sum of channel `c` over the pixels of class `k`. -/
def classSum (feat : SFeat.Idx → EReal) (lab : IVec SLab 32) (k : Fin 21) (c : Fin 256) : EReal :=
  ∑ n ∈ Finset.univ.filter (fun n : Fin 262144 => InClass lab k n), featAt feat c n

/-- The number of pixels of class `k`. -/
def classCount (lab : IVec SLab 32) (k : Fin 21) : EReal :=
  ∑ _n ∈ Finset.univ.filter (fun n : Fin 262144 => InClass lab k n), (1 : EReal)

/-- The class sums as a [21, 256] array: class by channel. -/
def sumArr (feat : SFeat.Idx → EReal) (lab : IVec SLab 32) : (⟨2, ![21, 256]⟩ : Shape).Idx → EReal :=
  fun j => classSum feat lab ⟨(j 0).val, idx2_lt0 j⟩ ⟨(j 1).val, idx2_lt1 j⟩

/-- The class counts as a [21] array. -/
def countArr (lab : IVec SLab 32) : (⟨1, ![21]⟩ : Shape).Idx → EReal :=
  fun j => classCount lab ⟨(j 0).val, (j 0).isLt⟩

theorem sumArr_ix2 (feat : SFeat.Idx → EReal) (lab : IVec SLab 32) (k : Fin 21) (c : Fin 256) :
    sumArr feat lab (ix2 k c) = classSum feat lab k c := rfl

theorem countArr_ix1 (lab : IVec SLab 32) (k : Fin 21) : countArr lab (ix1 k) = classCount lab k := rfl

/-! ## Tile by tile -/

/-- Pixel (r, w) of tile `t`, in the whole numbering. -/
def tilePix (t : Fin 32) (r : Fin 64) (w : Fin 128) : Fin 262144 :=
  ⟨8192 * t.val + 128 * r.val + w.val, by have := t.isLt; have := r.isLt; have := w.isLt; omega⟩

theorem pixB_tilePix (t : Fin 32) (r : Fin 64) (w : Fin 128) : (pixB (tilePix t r w)).val = t.val / 2 := by
  have := r.isLt; have := w.isLt
  show (8192 * t.val + 128 * r.val + w.val) / 16384 = t.val / 2
  omega

theorem pixH_tilePix (t : Fin 32) (r : Fin 64) (w : Fin 128) :
    (pixH (tilePix t r w)).val = 64 * (t.val % 2) + r.val := by
  have := r.isLt; have := w.isLt
  show (8192 * t.val + 128 * r.val + w.val) / 128 % 128 = 64 * (t.val % 2) + r.val
  omega

theorem pixW_tilePix (t : Fin 32) (r : Fin 64) (w : Fin 128) : (pixW (tilePix t r w)).val = w.val := by
  show (8192 * t.val + 128 * r.val + w.val) % 128 = w.val
  have := w.isLt
  omega

/-- What tile `t` adds to the sum of channel `c` over class `k`. -/
def tileSum (feat : SFeat.Idx → EReal) (lab : IVec SLab 32) (k : Fin 21) (c : Fin 256) (t : Fin 32) : EReal :=
  ∑ r : Fin 64, ∑ w : Fin 128, if InClass lab k (tilePix t r w) then featAt feat c (tilePix t r w) else 0

/-- What tile `t` adds to the count of class `k`. -/
def tileCount (lab : IVec SLab 32) (k : Fin 21) (t : Fin 32) : EReal :=
  ∑ r : Fin 64, ∑ w : Fin 128, if InClass lab k (tilePix t r w) then (1 : EReal) else 0

/-- The pixels are the triples (tile, row in the tile, column). -/
def pixEquiv : Fin 32 × Fin 64 × Fin 128 ≃ Fin 262144 where
  toFun p := tilePix p.1 p.2.1 p.2.2
  invFun n := (⟨n.val / 8192, by have := n.isLt; omega⟩, ⟨n.val / 128 % 64, by omega⟩, ⟨n.val % 128, by omega⟩)
  left_inv := by
    rintro ⟨t, r, w⟩
    have := t.isLt; have := r.isLt; have := w.isLt
    refine Prod.ext (Fin.ext ?_) (Prod.ext (Fin.ext ?_) (Fin.ext ?_))
    · show (8192 * t.val + 128 * r.val + w.val) / 8192 = t.val; omega
    · show (8192 * t.val + 128 * r.val + w.val) / 128 % 64 = r.val; omega
    · show (8192 * t.val + 128 * r.val + w.val) % 128 = w.val; omega
  right_inv := by
    intro n
    have := n.isLt
    refine Fin.ext ?_
    show 8192 * (n.val / 8192) + 128 * (n.val / 128 % 64) + n.val % 128 = n.val
    omega

/-- A sum over all pixels, tile by tile. -/
theorem sum_pixels {M : Type*} [AddCommMonoid M] (f : Fin 262144 → M) :
    ∑ n : Fin 262144, f n = ∑ t : Fin 32, ∑ r : Fin 64, ∑ w : Fin 128, f (tilePix t r w) := by
  rw [← Equiv.sum_comp pixEquiv f, Fintype.sum_prod_type]
  refine Finset.sum_congr rfl fun t _ => ?_
  rw [Fintype.sum_prod_type]
  rfl

theorem classSum_eq_tiles (feat : SFeat.Idx → EReal) (lab : IVec SLab 32) (k : Fin 21) (c : Fin 256) :
    classSum feat lab k c = ∑ t : Fin 32, tileSum feat lab k c t := by
  unfold classSum tileSum
  rw [Finset.sum_filter, sum_pixels]

theorem classCount_eq_tiles (lab : IVec SLab 32) (k : Fin 21) :
    classCount lab k = ∑ t : Fin 32, tileCount lab k t := by
  unfold classCount tileCount
  rw [Finset.sum_filter, sum_pixels]

/-! ## The running sums, in tile order -/

/-- Tile `t`'s addend for a natural number `t`, zero past the last tile. -/
def stepOf (g : Fin 32 → EReal) (t : ℕ) : EReal := if h : t < 32 then g ⟨t, h⟩ else 0

theorem stepOf_lt (g : Fin 32 → EReal) (t : ℕ) (h : t < 32) : stepOf g t = g ⟨t, h⟩ := dif_pos h

/-- The sum over all 32 tiles is the running sum after the last. -/
theorem sum_tiles_eq_range (g : Fin 32 → EReal) : ∑ t : Fin 32, g t = ∑ t ∈ Finset.range 32, stepOf g t := by
  rw [Finset.sum_range]
  exact Finset.sum_congr rfl fun t _ => (stepOf_lt g t.val t.isLt).symm

end Cert.ClassSums

end
-- ==== Proof.KernelAccum.lean ====
/-
  The kernel's two accumulators, grid point by grid point, over the extended reals.

  After grid point n the [256, 21] accumulator holds at (ch, k) the sum, over the tiles 0 … n, of channel ch over
  each tile's pixels of class k, and the [21] accumulator at k the number of those pixels: the first point starts
  both from zero, every later point adds its tile's contribution to what the point before left. At the last point
  the two output blocks receive the same values.
-/
import proofs.«426115_j19292993093657_1_alg».proof.Proof.Gen.KernelIdeal.Frame
import proofs.«426115_j19292993093657_1_alg».proof.Proof.KernelPieces
import proofs.«426115_j19292993093657_1_alg».proof.Proof.KernelPayload
import proofs.«426115_j19292993093657_1_alg».proof.Proof.KernelBlocks
import proofs.«426115_j19292993093657_1_alg».proof.Proof.ClassSums

set_option maxRecDepth 16384

noncomputable section

namespace Cert.KernelIdeal.Accum

open Idealize.ShloMosaic Idealize.ShloMosaic.TcCoe Idealize.SL.Sem Idealize.ShloMosaic.ValueIdx
open Cert.KernelIdeal Cert.KernelIdeal.Gen Cert.KernelIdeal.Blocks Cert.ClassSums

variable (m : (ℓ : Loc nD τ sig) → Buf (Elt Ideal) ℓ)

/-- The feature map the region finds, as a function to the extended reals. -/
abbrev feat (c : Dev nD) : SFeat.Idx → EReal := farr m c
/-- The resized label map the region finds. -/
abbrev lab (c : Dev nD) : IVec SLab 32 := larr m c

/-- The [256, 21] accumulator after grid point `n`. -/
abbrev accAt (c : Dev nD) (n : ℕ) (hn : n < cfg0.N) : Vec Ideal S256x21 .f32 := (outsAt0 m c n hn).2.2.1
/-- The [21] accumulator after grid point `n`. -/
abbrev cntAt (c : Dev nD) (n : ℕ) (hn : n < cfg0.N) : Vec Ideal S21 .f32 := (outsAt0 m c n hn).2.2.2

theorem N32 : cfg0.N = 32 := N_0

/-! ## One point's step -/

theorem acc_zero (c : Dev nD) (h : 0 < cfg0.N) :
    accAt m c 0 h = k0_pay4 (fblk m c ⟨0, h⟩) (lblk m c ⟨0, h⟩) (k0_pay1 (F := Ideal)) := by
  have e := outsAt0_A m c ⟨0, h⟩ rfl (by dsimp only; omega)
  show (outsAt0 m c (⟨0, h⟩ : Fin cfg0.N).val (⟨0, h⟩ : Fin cfg0.N).isLt).2.2.1 = _
  rw [e]
  dsimp only
  exact Pieces.acc_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) _ _ (iblk m c 0 ⟨0, h⟩) (iblk m c 1 ⟨0, h⟩)

theorem cnt_zero (c : Dev nD) (h : 0 < cfg0.N) :
    cntAt m c 0 h = k0_pay5 (lblk m c ⟨0, h⟩) (k0_pay2 (F := Ideal)) := by
  have e := outsAt0_A m c ⟨0, h⟩ rfl (by dsimp only; omega)
  show (outsAt0 m c (⟨0, h⟩ : Fin cfg0.N).val (⟨0, h⟩ : Fin cfg0.N).isLt).2.2.2 = _
  rw [e]
  dsimp only
  exact Pieces.cnt_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) _ _ (iblk m c 0 ⟨0, h⟩) (iblk m c 1 ⟨0, h⟩)

theorem acc_succ (c : Dev nD) (n : ℕ) (h : n + 1 < cfg0.N) :
    accAt m c (n + 1) h
      = k0_pay4 (fblk m c ⟨n + 1, h⟩) (lblk m c ⟨n + 1, h⟩) (accAt m c n (Nat.lt_of_succ_lt h)) := by
  have hN := N32
  have h0 : ¬(⟨n + 1, h⟩ : Fin cfg0.N).val % 32 = 0 := by dsimp only; omega
  show (outsAt0 m c (⟨n + 1, h⟩ : Fin cfg0.N).val (⟨n + 1, h⟩ : Fin cfg0.N).isLt).2.2.1 = _
  by_cases h1 : (⟨n + 1, h⟩ : Fin cfg0.N).val % 32 = 31
  · rw [outsAt0_C m c ⟨n + 1, h⟩ h0 h1]
    dsimp only
    exact Pieces.acc_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) _ _ (iblk m c 0 ⟨n + 1, h⟩) (iblk m c 1 ⟨n + 1, h⟩)
      (outsAt0 m c n _).2.2.1 (outsAt0 m c n _).2.2.2
  · rw [outsAt0_B m c ⟨n + 1, h⟩ h0 h1]
    dsimp only
    exact Pieces.acc_mid (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) _ _ (iblk m c 0 ⟨n + 1, h⟩) (iblk m c 1 ⟨n + 1, h⟩)
      (outsAt0 m c n _).2.2.1 (outsAt0 m c n _).2.2.2

theorem cnt_succ (c : Dev nD) (n : ℕ) (h : n + 1 < cfg0.N) :
    cntAt m c (n + 1) h = k0_pay5 (lblk m c ⟨n + 1, h⟩) (cntAt m c n (Nat.lt_of_succ_lt h)) := by
  have hN := N32
  have h0 : ¬(⟨n + 1, h⟩ : Fin cfg0.N).val % 32 = 0 := by dsimp only; omega
  show (outsAt0 m c (⟨n + 1, h⟩ : Fin cfg0.N).val (⟨n + 1, h⟩ : Fin cfg0.N).isLt).2.2.2 = _
  by_cases h1 : (⟨n + 1, h⟩ : Fin cfg0.N).val % 32 = 31
  · rw [outsAt0_C m c ⟨n + 1, h⟩ h0 h1]
    dsimp only
    exact Pieces.cnt_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) _ _ (iblk m c 0 ⟨n + 1, h⟩) (iblk m c 1 ⟨n + 1, h⟩)
      (outsAt0 m c n _).2.2.1 (outsAt0 m c n _).2.2.2
  · rw [outsAt0_B m c ⟨n + 1, h⟩ h0 h1]
    dsimp only
    exact Pieces.cnt_mid (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) _ _ (iblk m c 0 ⟨n + 1, h⟩) (iblk m c 1 ⟨n + 1, h⟩)
      (outsAt0 m c n _).2.2.1 (outsAt0 m c n _).2.2.2

/-- At the last point the output blocks are the accumulators as just updated. -/
theorem outs_last (c : Dev nD) (t : Fin cfg0.N) (h0 : ¬t.val % 32 = 0) (h1 : t.val % 32 = 31) :
    (outsAt0 m c t.val t.isLt).1 = accAt m c t.val t.isLt ∧ (outsAt0 m c t.val t.isLt).2.1 = cntAt m c t.val t.isLt := by
  show (outsAt0 m c t.val t.isLt).1 = (outsAt0 m c t.val t.isLt).2.2.1
    ∧ (outsAt0 m c t.val t.isLt).2.1 = (outsAt0 m c t.val t.isLt).2.2.2
  rw [outsAt0_C m c t h0 h1]
  dsimp only
  exact ⟨(Pieces.out_sums_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) _ _).trans
      (Pieces.acc_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) _ _).symm,
    (Pieces.out_counts_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) _ _).trans
      (Pieces.cnt_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) _ _).symm⟩

/-! ## A tile's contribution, in the arrays -/

theorem labelAt_tilePix (l : IVec SLab 32) (t : Fin 32) (r : Fin 64) (w : Fin 128) :
    labelAt l (tilePix t r w)
      = l (ix3 (⟨t.val / 2, by have := t.isLt; omega⟩ : Fin 16) (⟨64 * (t.val % 2) + r.val, by have := r.isLt; omega⟩ : Fin 128) w) := by
  unfold labelAt
  have hb : pixB (tilePix t r w) = ⟨t.val / 2, by have := t.isLt; omega⟩ := Fin.ext (pixB_tilePix t r w)
  have hh : pixH (tilePix t r w) = ⟨64 * (t.val % 2) + r.val, by have := r.isLt; omega⟩ := Fin.ext (pixH_tilePix t r w)
  have hw : pixW (tilePix t r w) = w := Fin.ext (pixW_tilePix t r w)
  rw [hb, hh, hw]

theorem featAt_tilePix (f : SFeat.Idx → EReal) (ch : Fin 256) (t : Fin 32) (r : Fin 64) (w : Fin 128) :
    featAt f ch (tilePix t r w)
      = f (ix4 (⟨t.val / 2, by have := t.isLt; omega⟩ : Fin 16) ch (⟨64 * (t.val % 2) + r.val, by have := r.isLt; omega⟩ : Fin 128) w) := by
  unfold featAt
  have hb : pixB (tilePix t r w) = ⟨t.val / 2, by have := t.isLt; omega⟩ := Fin.ext (pixB_tilePix t r w)
  have hh : pixH (tilePix t r w) = ⟨64 * (t.val % 2) + r.val, by have := r.isLt; omega⟩ := Fin.ext (pixH_tilePix t r w)
  have hw : pixW (tilePix t r w) = w := Fin.ext (pixW_tilePix t r w)
  rw [hb, hh, hw]

/-- The sum the kernel's product forms from the blocks of point `t` is tile `t`'s contribution to the class sum. -/
theorem tile_sum_eq (c : Dev nD) (t : ℕ) (ht : t < cfg0.N) (ch : Fin 256) (k : Fin 21) :
    (∑ r : Fin 64, ∑ w : Fin 128,
        if ((lblk m c ⟨t, ht⟩ (ix3 (0 : Fin 1) r w) : BitVec 32)).toInt = (k.val : Int)
          then (fblk m c ⟨t, ht⟩ (ix4 (0 : Fin 1) ch r w) : EReal) else 0)
      = stepOf (tileSum (feat m c) (lab m c) k ch) t := by
  have h32 : t < 32 := by have := N32; omega
  rw [stepOf_lt _ t h32]
  unfold tileSum
  refine Finset.sum_congr rfl fun r _ => Finset.sum_congr rfl fun w _ => ?_
  rw [lblk_apply, fblk_apply]
  unfold InClass
  rw [labelAt_tilePix, featAt_tilePix]

/-- Likewise the one-hot column sum and the class count. -/
theorem tile_count_eq (c : Dev nD) (t : ℕ) (ht : t < cfg0.N) (k : Fin 21) :
    (∑ r : Fin 64, ∑ w : Fin 128,
        if ((lblk m c ⟨t, ht⟩ (ix3 (0 : Fin 1) r w) : BitVec 32)).toInt = (k.val : Int) then (1 : EReal) else 0)
      = stepOf (tileCount (lab m c) k) t := by
  have h32 : t < 32 := by have := N32; omega
  rw [stepOf_lt _ t h32]
  unfold tileCount
  refine Finset.sum_congr rfl fun r _ => Finset.sum_congr rfl fun w _ => ?_
  rw [lblk_apply]
  unfold InClass
  rw [labelAt_tilePix]

/-! ## The running sums -/

theorem acc_running (c : Dev nD) (ch : Fin 256) (k : Fin 21) : ∀ (n : ℕ) (hn : n < cfg0.N),
    accAt m c n hn (ix2 ch k) = ∑ t ∈ Finset.range (n + 1), stepOf (tileSum (feat m c) (lab m c) k ch) t
  | 0, hn => by
    rw [acc_zero, Payload.acc_apply, Payload.zeros_acc, zero_add, tile_sum_eq, Finset.sum_range_one]
  | n + 1, hn => by
    rw [acc_succ, Payload.acc_apply, acc_running c ch k n, tile_sum_eq, Finset.sum_range_succ _ (n + 1)]

theorem cnt_running (c : Dev nD) (k : Fin 21) : ∀ (n : ℕ) (hn : n < cfg0.N),
    cntAt m c n hn (ix1 k) = ∑ t ∈ Finset.range (n + 1), stepOf (tileCount (lab m c) k) t
  | 0, hn => by
    rw [cnt_zero, Payload.cnt_apply, Payload.zeros_cnt, zero_add, tile_count_eq, Finset.sum_range_one]
  | n + 1, hn => by
    rw [cnt_succ, Payload.cnt_apply, cnt_running c k n, tile_count_eq, Finset.sum_range_succ _ (n + 1)]

/-- After the last point the accumulators, and with them the output blocks, hold the class sums and counts. -/
theorem out_sums (c : Dev nD) (t : Fin cfg0.N) (ht : t.val = 31) (ch : Fin 256) (k : Fin 21) :
    ((outsAt0 m c t.val t.isLt).1 : Vec Ideal S256x21 .f32) (ix2 ch k) = classSum (feat m c) (lab m c) k ch := by
  have e : t.val + 1 = 32 := by omega
  rw [(outs_last m c t (by omega) (by omega)).1, acc_running, e, classSum_eq_tiles, sum_tiles_eq_range]

theorem out_counts (c : Dev nD) (t : Fin cfg0.N) (ht : t.val = 31) (k : Fin 21) :
    ((outsAt0 m c t.val t.isLt).2.1 : Vec Ideal S21 .f32) (ix1 k) = classCount (lab m c) k := by
  have e : t.val + 1 = 32 := by omega
  rw [(outs_last m c t (by omega) (by omega)).2, cnt_running, e, classCount_eq_tiles, sum_tiles_eq_range]

end Cert.KernelIdeal.Accum

end
-- ==== Proof.KernelFinal.lean ====
/-
  The kernel's two result arrays after the region.

  Each output window has one block, the whole array, and writes it back once, after the last grid point. What is
  written is the output block of that point: the class sums, laid out channel by class, and the class counts.
-/
import proofs.«426115_j19292993093657_1_alg».proof.Proof.KernelAccum
import Idealize.ShloMosaic.Lib.Pipeline.Value

set_option maxRecDepth 16384

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Accum Cert.ClassSums

variable (m : (ℓ : Loc nD τ sig) → Buf (Elt Ideal) ℓ)

/-- The class sums, channel by class. -/
abbrev sumsCK (c : Dev nD) : Vec Ideal S256x21 .f32 :=
  fun j => classSum (feat m c) (lab m c) ⟨(j 1).val, idx2_lt1 j⟩ ⟨(j 0).val, idx2_lt0 j⟩

/-- The class counts. -/
abbrev counts (c : Dev nD) : Vec Ideal S21 .f32 := fun j => classCount (lab m c) ⟨(j 0).val, (j 0).isLt⟩

/-- The same as contents of the two result arrays. -/
abbrev sumsRes (c : Dev nD) : Buf (Elt Ideal) ((c : Thread nD τ).loc main_v26_0) := sumsCK m c
abbrev countsRes (c : Dev nD) : Buf (Elt Ideal) ((c : Thread nD τ).loc main_v26_1) := counts m c

theorem h31 : 31 < cfg0.N := by rw [show cfg0.N = 32 from N_0]; decide

/-- The last grid point. -/
abbrev tLast : Fin cfg0.N := ⟨31, h31⟩

theorem last_sums (c : Dev nD) : (outsAt0 m c (tLast).val (tLast).isLt).1 = sumsCK m c := by
  funext j
  obtain ⟨a, b, rfl⟩ : ∃ (a : Fin 256) (b : Fin 21), j = ix2 a b := ⟨j 0, j 1, eq_ix2 j⟩
  exact out_sums m c tLast rfl a b

theorem last_counts (c : Dev nD) : (outsAt0 m c (tLast).val (tLast).isLt).2.1 = counts m c := by
  funext j
  obtain ⟨a, rfl⟩ : ∃ a : Fin 21, j = ix1 a := ⟨j 0, eq_ix1 j⟩
  exact out_counts m c tLast rfl a

theorem flushed_sums (c : Dev nD) (t : Fin cfg0.N) (hf : (cfg0.win 2).flush t = true) :
    (dats m 0 c).flushed 2 t = ((cfg0.win 2).blk t).view.read (Elt Ideal) (sumsRes m c) := by
  have hN : cfg0.N = 32 := N_0
  have ht : t.val = 31 := by have := (flush0_2 t).mp hf; have := t.isLt; omega
  obtain rfl : t = tLast := Fin.ext ht
  show (cfg0.win 2).cut (grid0.coords tLast) ((dats m 0 c).after 2 tLast) = _
  rw [after0_2, last_sums]
  have hz' : (fun a => win0_2.index tLast a * main_v26_0.ty.shape.size a) = fun _ => 0 :=
    funext fun a => by fin_cases a <;> decide
  exact (Memref.read_access_unit_zero (Elt Ideal) main_v26_0 hz' (fun a => by rw [congrFun hz' a]; simp) (sumsRes m c)).symm

theorem flushed_counts (c : Dev nD) (t : Fin cfg0.N) (hf : (cfg0.win 3).flush t = true) :
    (dats m 0 c).flushed 3 t = ((cfg0.win 3).blk t).view.read (Elt Ideal) (countsRes m c) := by
  have hN : cfg0.N = 32 := N_0
  have ht : t.val = 31 := by have := (flush0_3 t).mp hf; have := t.isLt; omega
  obtain rfl : t = tLast := Fin.ext ht
  show (cfg0.win 3).cut (grid0.coords tLast) ((dats m 0 c).after 3 tLast) = _
  rw [after0_3, last_counts]
  have hz' : (fun a => win0_3.index tLast a * main_v26_1.ty.shape.size a) = fun _ => 0 :=
    funext fun a => by fin_cases a <;> decide
  exact (Memref.read_access_unit_zero (Elt Ideal) main_v26_1 hz' (fun a => by rw [congrFun hz' a]; simp) (countsRes m c)).symm

/-- The [256, 21] result array ends holding the class sums. -/
theorem final_sums (c : Dev nD) : (dats m 0 c).arrAt 2 cfg0.N = sumsRes m c :=
  (dats m 0 c).arrAt_eq_of_cover 2 (sumsRes m c) (flushed_sums m c) fun i =>
    ⟨tLast, (flush0_2 tLast).mpr rfl, by
      show i ∈ ((View.whole main_v26_0).slice (win0_2.rect tLast)).set
      rw [View.set_slice_whole, Rect.mem_set_unit]
      intro a
      have h0 : (i 0 : Nat) < 256 := (i 0).isLt
      have h1 : (i 1 : Nat) < 21 := (i 1).isLt
      match a with
      | ⟨0, _⟩ =>
        show win0_2.index tLast 0 * win0_2.size 0 ≤ (i 0 : Nat)
          ∧ (i 0 : Nat) < win0_2.index tLast 0 * win0_2.size 0 + win0_2.xsize (grid0.coords tLast) 0
        rw [show win0_2.index tLast 0 * win0_2.size 0 = 0 from by decide +kernel,
          show win0_2.xsize (grid0.coords tLast) 0 = 256 from by decide +kernel]; omega
      | ⟨1, _⟩ =>
        show win0_2.index tLast 1 * win0_2.size 1 ≤ (i 1 : Nat)
          ∧ (i 1 : Nat) < win0_2.index tLast 1 * win0_2.size 1 + win0_2.xsize (grid0.coords tLast) 1
        rw [show win0_2.index tLast 1 * win0_2.size 1 = 0 from by decide +kernel,
          show win0_2.xsize (grid0.coords tLast) 1 = 21 from by decide +kernel]; omega⟩

/-- The [21] result array ends holding the class counts. -/
theorem final_counts (c : Dev nD) : (dats m 0 c).arrAt 3 cfg0.N = countsRes m c :=
  (dats m 0 c).arrAt_eq_of_cover 3 (countsRes m c) (flushed_counts m c) fun i =>
    ⟨tLast, (flush0_3 tLast).mpr rfl, by
      show i ∈ ((View.whole main_v26_1).slice (win0_3.rect tLast)).set
      rw [View.set_slice_whole, Rect.mem_set_unit]
      intro a
      have h0 : (i 0 : Nat) < 21 := (i 0).isLt
      match a with
      | ⟨0, _⟩ =>
        show win0_3.index tLast 0 * win0_3.size 0 ≤ (i 0 : Nat)
          ∧ (i 0 : Nat) < win0_3.index tLast 0 * win0_3.size 0 + win0_3.xsize (grid0.coords tLast) 0
        rw [show win0_3.index tLast 0 * win0_3.size 0 = 0 from by decide +kernel,
          show win0_3.xsize (grid0.coords tLast) 0 = 21 from by decide +kernel]; omega⟩

end Cert.KernelIdeal.Final

end
-- ==== Proof.HostParts.lean ====
/-
  The two stretches of array arithmetic that the kernel's program and the reference share word for word.

  `resize`: the nearest-neighbour resize of the [16, 512, 512] label map to [16, 128, 128]. The source row of
  destination row h is ⌊512·h / 128⌋ (a floor division written out with sign and remainder corrections), likewise
  the columns; a negative source index is wrapped by adding 512; the two index maps are laid side by side into a
  [128, 128, 2] table of (row, column) pairs, and one gather reads, for every pair, the labels of all 16 images.

  `protos`: the class prototypes from the class sums and counts: each class's row of sums divided by
  max(count, 1), and replaced by zeros where the count is not positive.

  Both are stated over hypotheses for the shape relations their operations take, so that either program's own
  stated facts instantiate them.
-/
import Idealize.ShloMosaic.PureOps

noncomputable section

namespace Cert.HostParts

open Idealize.ShloMosaic

abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x128x1 : Shape := ⟨3, ![128, 128, 1]⟩
abbrev S128x128x2 : Shape := ⟨3, ![128, 128, 2]⟩
abbrev S16x512x512 : Shape := ⟨3, ![16, 512, 512]⟩
abbrev S16x128x128 : Shape := ⟨3, ![16, 128, 128]⟩
abbrev S21 : Shape := ⟨1, ![21]⟩
abbrev S21x1 : Shape := ⟨2, ![21, 1]⟩
abbrev S21x256 : Shape := ⟨2, ![21, 256]⟩

/-- The shape relations the resize's operations take. -/
structure ResizeFacts : Prop where
  b_128 : S_.BroadcastsInDim S128 (![] : Fin 0 → Fin S128.rank)
  b_128_col : S128.BroadcastsInDim S128x1 (![0] : Fin 1 → Fin S128x1.rank)
  b_128_row : S128.BroadcastsInDim S1x128 (![1] : Fin 1 → Fin S1x128.rank)
  b_col : S_.BroadcastsInDim S128x1 (![] : Fin 0 → Fin S128x1.rank)
  b_row : S_.BroadcastsInDim S1x128 (![] : Fin 0 → Fin S1x128.rank)
  b_col_sq : S128x1.BroadcastsInDim S128x128 (![0, 1] : Fin 2 → Fin S128x128.rank)
  b_row_sq : S1x128.BroadcastsInDim S128x128 (![0, 1] : Fin 2 → Fin S128x128.rank)
  b_sq_unit : S128x128.BroadcastsInDim S128x128x1 (![0, 1] : Fin 2 → Fin S128x128x1.rank)
  cat : Shape.Concatenates [S128x128x1, S128x128x1] S128x128x2 2
  gat : GatherDims.WF S16x512x512 S128x128x2 S16x128x128 [0] [1, 2] [] [1, 2] [] 2 ![16, 1, 1]

/-- These relations hold of the literal shapes. -/
theorem resizeFacts : ResizeFacts :=
  ⟨by decide, by decide, by decide, by decide, by decide, by decide, by decide, by decide, by decide, by decide⟩

/-- The gather's dimension numbers: for each (row, column) pair, the labels of all 16 images there. -/
def pairGather (wf : GatherDims.WF S16x512x512 S128x128x2 S16x128x128 [0] [1, 2] [] [1, 2] [] 2 ![16, 1, 1]) :
    GatherDims S16x512x512 S128x128x2 S16x128x128 where
  offsetDims := [0]
  collapsedSliceDims := [1, 2]
  operandBatchingDims := []
  startIndicesBatchingDims := []
  startIndexMap := [1, 2]
  indexVectorDim := 2
  sliceSizes := ![16, 1, 1]
  wf := wf

/-- ⌊x / 128⌋ entry by entry: the truncated quotient, less one where the signs differ and the remainder is not zero. -/
def floorDiv128 (hb : S_.BroadcastsInDim S128 (![] : Fin 0 → Fin S128.rank)) (x : IVec S128 32) : IVec S128 32 :=
  select
    (andi
      (cmpi .ne (signi x) (broadcastInDim S128 ![] hb (signi (id (constantI S_ 32 128#32)))))
      (cmpi .ne (Host.remsi x (broadcastInDim S128 ![] hb (id (constantI S_ 32 128#32))))
        (broadcastInDim S128 ![] hb (constantI S_ 32 0#32))))
    (subi (Host.divsi x (broadcastInDim S128 ![] hb (id (constantI S_ 32 128#32))))
      (broadcastInDim S128 ![] hb (constantI S_ 32 1#32)))
    (Host.divsi x (broadcastInDim S128 ![] hb (id (constantI S_ 32 128#32))))

/-- The source index of each of the 128 destination indices: ⌊512·i / 128⌋. -/
def srcIdx (hb : S_.BroadcastsInDim S128 (![] : Fin 0 → Fin S128.rank)) : IVec S128 32 :=
  floorDiv128 hb (muli (iotaInDim S128 32 0) (broadcastInDim S128 ![] hb (constantI S_ 32 512#32)))

/-- The gather of the label map at the table of (row, column) pairs built from a vector of 128 source rows and a
    vector of 128 source columns, each wrapped by adding 512 where negative. -/
def resizeFrom (hf : ResizeFacts) (rows cols : IVec S128 32) (lab : IVec S16x512x512 32) : IVec S16x128x128 32 :=
  Host.gather (pairGather hf.gat) lab
    (concatenate S128x128x2 2
      [⟨S128x128x1, broadcastInDim S128x128x1 ![0, 1] hf.b_sq_unit
          (broadcastInDim S128x128 ![0, 1] hf.b_col_sq
            (select
              (cmpi .slt (broadcastInDim S128x1 ![0] hf.b_128_col rows)
                (broadcastInDim S128x1 ![] hf.b_col (constantI S_ 32 0#32)))
              (addi (broadcastInDim S128x1 ![0] hf.b_128_col rows)
                (broadcastInDim S128x1 ![] hf.b_col (constantI S_ 32 512#32)))
              (broadcastInDim S128x1 ![0] hf.b_128_col rows)))⟩,
       ⟨S128x128x1, broadcastInDim S128x128x1 ![0, 1] hf.b_sq_unit
          (broadcastInDim S128x128 ![0, 1] hf.b_row_sq
            (select
              (cmpi .slt (broadcastInDim S1x128 ![1] hf.b_128_row cols)
                (broadcastInDim S1x128 ![] hf.b_row (constantI S_ 32 0#32)))
              (addi (broadcastInDim S1x128 ![1] hf.b_128_row cols)
                (broadcastInDim S1x128 ![] hf.b_row (constantI S_ 32 512#32)))
              (broadcastInDim S1x128 ![1] hf.b_128_row cols)))⟩]
      hf.cat)

/-- The resized label map: rows and columns both read at ⌊512·i / 128⌋. -/
def resize (hf : ResizeFacts) (lab : IVec S16x512x512 32) : IVec S16x128x128 32 :=
  resizeFrom hf (srcIdx hf.b_128) (srcIdx hf.b_128) lab

/-- The shape relations the prototypes' operations take. -/
structure ProtoFacts : Prop where
  b_21 : S_.BroadcastsInDim S21 (![] : Fin 0 → Fin S21.rank)
  b_21_col : S21.BroadcastsInDim S21x1 (![0] : Fin 1 → Fin S21x1.rank)
  b_col_full : S21x1.BroadcastsInDim S21x256 (![0, 1] : Fin 2 → Fin S21x256.rank)
  b_col : S_.BroadcastsInDim S21x1 (![] : Fin 0 → Fin S21x1.rank)
  b_full : S_.BroadcastsInDim S21x256 (![] : Fin 0 → Fin S21x256.rank)

/-- These relations hold of the literal shapes. -/
theorem protoFacts : ProtoFacts := ⟨by decide, by decide, by decide, by decide, by decide⟩

variable {F : FTy → Type} [FloatOps F]

/-- The class prototypes: sums / max(counts, 1) row by row, zero where the count is not positive. -/
def protos (hf : ProtoFacts) (sums : FVec F S21x256 .f32) (counts : FVec F S21 .f32) : FVec F S21x256 .f32 :=
  select
    (broadcastInDim S21x256 ![0, 1] hf.b_col_full
      (cmpf .ogt (broadcastInDim S21x1 ![0] hf.b_21_col counts)
        (broadcastInDim S21x1 ![] hf.b_col (constant S_ .f32 0x00000000#32))))
    (Host.divf sums
      (broadcastInDim S21x256 ![0, 1] hf.b_col_full
        (broadcastInDim S21x1 ![0] hf.b_21_col
          (maximumf counts (broadcastInDim S21 ![] hf.b_21 (constant S_ .f32 0x3F800000#32))))))
    (broadcastInDim S21x256 ![] hf.b_full (constant S_ .f32 0x00000000#32))

end Cert.HostParts

end
-- ==== Proof.KernelHost.lean ====
/-
  What the kernel's program has in its arrays when the one region is entered: the feature map as launched, and the
  resized label map in the array the region's second window reads.

  The host operations before the region come in five stretches. The first two leave the 128 source indices
  ⌊512·i / 128⌋ in one array, the next two leave the same indices in another, and the last builds from those two
  arrays the table of (row, column) pairs and gathers the labels there.
-/
import proofs.«426115_j19292993093657_1_alg».proof.Proof.Gen.KernelIdeal.Frame.Runs
import proofs.«426115_j19292993093657_1_alg».proof.Proof.HostParts
import Idealize.ShloMosaic.Lib.StableHlo.Run
import Idealize.ShloMosaic.Lib.Tactic

set_option maxRecDepth 16384

noncomputable section

namespace Cert.KernelIdeal.HostRead

open Idealize.ShloMosaic Idealize.ShloMosaic.TcCoe Idealize.SL.Sem
open Cert.KernelIdeal Cert.KernelIdeal.Gen Idealize.ShloMosaic.StableHlo

variable {F : FTy → Type} [FloatOps F]

/-- Running one list of operations after another is running their concatenation. -/
theorem after_append (a b : List (HloOp τ sig (Elt F))) (V : Valuation τ sig (Elt F)) :
    after (a ++ b) V = after b (after a V) := by
  induction a generalizing V with
  | nil => rfl
  | cons op a ih => simp only [List.cons_append, after_cons]; exact ih _

/-- The first two stretches leave the source indices in `%3`. -/
theorem rows_eq (M : Valuation τ sig (Elt F)) :
    (after hostOps0_1 (after hostOps0 M) (main_v3 : DevRef τ sig) : IVec S128 32)
      = Cert.HostParts.srcIdx Cert.HostParts.resizeFacts.b_128 := by
  after_results_simp
  rfl

/-- The next two stretches leave them in `%7`, -/
theorem cols_eq (M : Valuation τ sig (Elt F)) :
    (after hostOps0_3 (after hostOps0_2 M) (main_v7 : DevRef τ sig) : IVec S128 32)
      = Cert.HostParts.srcIdx Cert.HostParts.resizeFacts.b_128 := by
  after_results_simp
  rfl

/-- and write neither `%3` nor the label map. -/
theorem rows_kept (M : Valuation τ sig (Elt F)) :
    after hostOps0_3 (after hostOps0_2 M) (main_v3 : DevRef τ sig) = M (main_v3 : DevRef τ sig) := by
  after_results_simp

theorem labels_kept01 (M : Valuation τ sig (Elt F)) :
    after hostOps0_1 (after hostOps0 M) (main_arg1 : DevRef τ sig) = M (main_arg1 : DevRef τ sig) := by
  after_results_simp

theorem labels_kept23 (M : Valuation τ sig (Elt F)) :
    after hostOps0_3 (after hostOps0_2 M) (main_arg1 : DevRef τ sig) = M (main_arg1 : DevRef τ sig) := by
  after_results_simp

/-- The last stretch, cut before its last two operations (the concatenation of the two index tables and the gather). -/
theorem last_cut : (hostOps0_4 : List (HloOp τ sig (Elt F))) = hostOps0_4.take 20 ++ hostOps0_4.drop 20 :=
  (List.take_append_drop 20 _).symm

/-- Its first twenty operations leave the wrapped source rows, spread over the [128, 128, 1] table, in `%22`, -/
theorem rowTable_eq (W : Valuation τ sig (Elt F)) :
    (after ((hostOps0_4 : List (HloOp τ sig (Elt F))).take 20) W (main_v22 : DevRef τ sig) : IVec S128x128x1 32)
      = broadcastInDim S128x128x1 ![0, 1] Cert.HostParts.resizeFacts.b_sq_unit
          (broadcastInDim S128x128 ![0, 1] Cert.HostParts.resizeFacts.b_col_sq
            (select
              (cmpi .slt (broadcastInDim S128x1 ![0] Cert.HostParts.resizeFacts.b_128_col (W (main_v3 : DevRef τ sig)))
                (broadcastInDim S128x1 ![] Cert.HostParts.resizeFacts.b_col (constantI S_ 32 0#32)))
              (addi (broadcastInDim S128x1 ![0] Cert.HostParts.resizeFacts.b_128_col (W (main_v3 : DevRef τ sig)))
                (broadcastInDim S128x1 ![] Cert.HostParts.resizeFacts.b_col (constantI S_ 32 512#32)))
              (broadcastInDim S128x1 ![0] Cert.HostParts.resizeFacts.b_128_col (W (main_v3 : DevRef τ sig))))) := by
  simp only [hostOps0_4, List.take_succ_cons, List.take_zero]
  after_results_simp

/-- the wrapped source columns in `%23`, -/
theorem colTable_eq (W : Valuation τ sig (Elt F)) :
    (after ((hostOps0_4 : List (HloOp τ sig (Elt F))).take 20) W (main_v23 : DevRef τ sig) : IVec S128x128x1 32)
      = broadcastInDim S128x128x1 ![0, 1] Cert.HostParts.resizeFacts.b_sq_unit
          (broadcastInDim S128x128 ![0, 1] Cert.HostParts.resizeFacts.b_row_sq
            (select
              (cmpi .slt (broadcastInDim S1x128 ![1] Cert.HostParts.resizeFacts.b_128_row (W (main_v7 : DevRef τ sig)))
                (broadcastInDim S1x128 ![] Cert.HostParts.resizeFacts.b_row (constantI S_ 32 0#32)))
              (addi (broadcastInDim S1x128 ![1] Cert.HostParts.resizeFacts.b_128_row (W (main_v7 : DevRef τ sig)))
                (broadcastInDim S1x128 ![] Cert.HostParts.resizeFacts.b_row (constantI S_ 32 512#32)))
              (broadcastInDim S1x128 ![1] Cert.HostParts.resizeFacts.b_128_row (W (main_v7 : DevRef τ sig))))) := by
  simp only [hostOps0_4, List.take_succ_cons, List.take_zero]
  after_results_simp

/-- and do not write the label map. -/
theorem labels_kept4 (W : Valuation τ sig (Elt F)) :
    after ((hostOps0_4 : List (HloOp τ sig (Elt F))).take 20) W (main_arg1 : DevRef τ sig) = W (main_arg1 : DevRef τ sig) := by
  simp only [hostOps0_4, List.take_succ_cons, List.take_zero]
  after_results_simp

/-- The last two operations gather the labels at the pair table of the two index tables. -/
theorem pairs_eq (W : Valuation τ sig (Elt F)) :
    (after ((hostOps0_4 : List (HloOp τ sig (Elt F))).drop 20) W (main_v25 : DevRef τ sig) : IVec S16x128x128 32)
      = Host.gather (Cert.HostParts.pairGather Cert.HostParts.resizeFacts.gat) (W (main_arg1 : DevRef τ sig))
          (concatenate S128x128x2 2 [⟨S128x128x1, W (main_v22 : DevRef τ sig)⟩, ⟨S128x128x1, W (main_v23 : DevRef τ sig)⟩]
            Cert.HostParts.resizeFacts.cat) := by
  simp only [hostOps0_4, List.drop_succ_cons, List.drop_zero]
  after_results
  rfl

/-- The last stretch gathers the labels at the pair table of the two index arrays. -/
theorem gather_eq (W : Valuation τ sig (Elt F)) :
    (after hostOps0_4 W (main_v25 : DevRef τ sig) : IVec S16x128x128 32)
      = Cert.HostParts.resizeFrom Cert.HostParts.resizeFacts (W (main_v3 : DevRef τ sig)) (W (main_v7 : DevRef τ sig))
          (W (main_arg1 : DevRef τ sig)) := by
  rw [last_cut, after_append, pairs_eq, rowTable_eq, colTable_eq, labels_kept4]
  rfl

variable (m : (ℓ : Loc nD τ sig) → Buf (Elt F) ℓ)

/-- The region finds the resized label map in `%25`. -/
theorem V_labels (c : Dev nD) :
    (V m c main_v25 : IVec S16x128x128 32)
      = Cert.HostParts.resize Cert.HostParts.resizeFacts (m ((c : Thread nD τ).loc main_arg1)) := by
  show after (List.flatten [hostOps0, hostOps0_1, hostOps0_2, hostOps0_3, hostOps0_4]) (fun b => m (c, b))
      (main_v25 : DevRef τ sig) = _
  simp only [List.flatten_cons, List.flatten_nil, List.append_nil]
  rw [after_append, after_append, after_append, after_append, gather_eq, cols_eq, rows_kept, rows_eq,
    labels_kept23, labels_kept01]
  rfl

end Cert.KernelIdeal.HostRead

end
-- ==== Proof.KernelRun.lean ====
/-
  The kernel's program, run: its two results as the class prototypes and the class counts of its arguments.

  After the region the two result arrays hold the class sums (channel by class) and the class counts of the feature
  map over the resized label map. The lines after the region transpose the sums to class by channel and form the
  prototypes from them and the counts.
-/
import proofs.«426115_j19292993093657_1_alg».proof.Proof.KernelFinal
import proofs.«426115_j19292993093657_1_alg».proof.Proof.KernelHost
import Idealize.ShloMosaic.Lib.ValueLayout
import Idealize.ShloMosaic.Lib.StableHlo.Run
import Idealize.ShloMosaic.Lib.Tactic

set_option maxRecDepth 16384

noncomputable section

namespace Cert.KernelIdeal.RunValue

open Idealize.ShloMosaic Idealize.ShloMosaic.TcCoe Idealize.SL.Sem Idealize.ShloMosaic.ValueIdx
open Idealize.ShloMosaic.StableHlo
open Idealize.ShloMosaic.Pipeline (Dat)
open Cert.KernelIdeal Cert.KernelIdeal.Gen Cert.KernelIdeal.Blocks Cert.KernelIdeal.Accum Cert.KernelIdeal.Final
open Cert.ClassSums

/-- The lines after the region: the prototypes of the transposed first result and the second. -/
theorem tail_eq {F : FTy → Type} [FloatOps F] (W : Valuation τ sig (Elt F)) :
    (after (List.flatten [hostOps1, hostOps1_1]) W (main_v37 : DevRef τ sig) : FVec F S21x256 .f32)
      = Cert.HostParts.protos Cert.HostParts.protoFacts
          (transpose S21x256 [1, 0] (W (main_v26_0 : DevRef τ sig)) transposes_S256x21_S21x256_1_0)
          (W (main_v26_1 : DevRef τ sig)) := by
  simp only [hostOps1, hostOps1_1, List.flatten_cons, List.flatten_nil, List.append_nil, List.cons_append, List.nil_append]
  after_results_simp
  rfl

variable (m : (ℓ : Loc nD τ sig) → Buf (Elt Ideal) ℓ) (ρ : Dev nD → PrngReg)

/-- The feature map the region finds is the first argument, -/
theorem feat_eq (c : Dev nD) : feat m c = m ((c : Thread nD τ).loc main_arg0) := V_main_arg0 m c

/-- and the label map it finds is the resized second argument. -/
theorem lab_eq (c : Dev nD) :
    lab m c = Cert.HostParts.resize Cert.HostParts.resizeFacts (m ((c : Thread nD τ).loc main_arg1)) :=
  HostRead.V_labels m c

/-- The class sums, channel by class, transposed are the class sums, class by channel. -/
theorem transpose_sums (c : Dev nD) :
    transpose S21x256 [1, 0] (sumsCK m c) transposes_S256x21_S21x256_1_0 = sumArr (feat m c) (lab m c) := by
  funext j
  obtain ⟨k, ch, rfl⟩ : ∃ (k : Fin 21) (ch : Fin 256), j = ix2 k ch := ⟨j 0, j 1, eq_ix2 j⟩
  rw [transpose_ix2_apply]
  rfl

theorem counts_eq (c : Dev nD) : counts m c = countArr (lab m c) := rfl

/-- What the lines after the region leave in the first result. -/
theorem protos_eq (c : Dev nD) :
    (Pipeline.afterTail₀ cfgs (dats m) 0 (V0 m) [hostOps1, hostOps1_1] c main_v37 : FVec Ideal S21x256 .f32)
      = Cert.HostParts.protos (F := Ideal) Cert.HostParts.protoFacts (sumArr (feat m c) (lab m c)) (countArr (lab m c)) := by
  unfold Pipeline.afterTail₀
  rw [tail_eq]
  have e2 : Pipeline.withArrays (cfgs 0).spec c (V0 m c) (fun w => (dats m 0 c).arrAt w (cfgs 0).N)
      (main_v26_0 : DevRef τ sig) = sumsRes m c :=
    (Pipeline.withArrays_arr spec0 launch0.win.arr_inj c (V0 m c) (fun w => (dats m 0 c).arrAt w cfg0.N) 2).trans (final_sums m c)
  have e3 : Pipeline.withArrays (cfgs 0).spec c (V0 m c) (fun w => (dats m 0 c).arrAt w (cfgs 0).N)
      (main_v26_1 : DevRef τ sig) = countsRes m c :=
    (Pipeline.withArrays_arr spec0 launch0.win.arr_inj c (V0 m c) (fun w => (dats m 0 c).arrAt w cfg0.N) 3).trans (final_counts m c)
  rw [e2, e3]
  show Cert.HostParts.protos (F := Ideal) Cert.HostParts.protoFacts
      (transpose S21x256 [1, 0] (sumsCK m c) transposes_S256x21_S21x256_1_0) (counts m c) = _
  rw [transpose_sums, counts_eq]

/-- Every weakly fair execution of the kernel's program ends with the prototypes and the counts of its arguments'
    class sums in its two results, and its arguments unchanged. -/
theorem run :
    θ_run (defs (F := Ideal)) (onTc (τ := τ) (main (F := Ideal))) ⟨m, fun _ => 0, ρ⟩ fun r => ∀ c : Dev nD,
      (r.2.mem ((c.tc : Thread nD τ).loc main_v37) : FVec Ideal Cert.HostParts.S21x256 .f32)
          = Cert.HostParts.protos (F := Ideal) Cert.HostParts.protoFacts
              (sumArr (m ((c.tc : Thread nD τ).loc main_arg0))
                (Cert.HostParts.resize Cert.HostParts.resizeFacts (m ((c.tc : Thread nD τ).loc main_arg1))))
              (countArr (Cert.HostParts.resize Cert.HostParts.resizeFacts (m ((c.tc : Thread nD τ).loc main_arg1))))
      ∧ (r.2.mem ((c.tc : Thread nD τ).loc main_v26_1) : FVec Ideal Cert.HostParts.S21 .f32)
          = countArr (Cert.HostParts.resize Cert.HostParts.resizeFacts (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨?_, ?_, ?_, ?_⟩) (run_main m ρ)
  · refine ((h c).2 main_v37 (Pipeline.mem_restRefs_of main_v37 (by decide) (by decide))).trans ?_
    rw [protos_eq, feat_eq, lab_eq]
  · refine ((h c).1 3).trans ((final_counts m c).trans ?_)
    show counts m c = _
    rw [counts_eq, lab_eq]
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)

end Cert.KernelIdeal.RunValue

end
-- ==== Proof.RefRun.lean ====
/-
  The reference's run: @main as one straight line of its operations, each callee's operations in place of its
  call, and what every execution leaves in each buffer as the fold of those operations over the launch contents.
-/
import proofs.«426115_j19292993093657_1_alg».proof.ReferenceIdeal
import proofs.«426115_j19292993093657_1_alg».proof.Proof.Gen.ReferenceIdeal
import Idealize.ShloMosaic.Lib.StableHlo.Run
import Idealize.ShloMosaic.Lib.Tactic

noncomputable section

namespace Cert.ReferenceIdeal.Hand

open Idealize.ShloMosaic Idealize.ShloMosaic.TcCoe Idealize.SL.Sem
open Cert.ReferenceIdeal Cert.ReferenceIdeal.Gen Idealize.ShloMosaic.StableHlo

variable {F : FTy → Type} [FloatOps F]

/-- The source rows: the 128 destination rows times 512, floor-divided by 128 (the division's sixteen operations and its select in place of the call), left in `%3`. -/
abbrev opsA : List (HloOp τ sig (Elt F)) :=
  [ StableHlo.nullary main_v0 (iotaInDim S128 32 0),
    StableHlo.nullary main_c (constantI S_ 32 512#32),
    StableHlo.unary main_c main_v1 (broadcastInDim S128 ![] bcast_S_S128 : (⟨S_, .i32⟩ : BufTy).Contents (Elt F) → (⟨S128, .i32⟩ : BufTy).Contents (Elt F)),
    StableHlo.binary main_v0 main_v1 main_v2 (muli : (⟨S128, .i32⟩ : BufTy).Contents (Elt F) → (⟨S128, .i32⟩ : BufTy).Contents (Elt F) → (⟨S128, .i32⟩ : BufTy).Contents (Elt F)),
    StableHlo.nullary main_c_0 (constantI S_ 32 128#32),
    StableHlo.TRef.unary (.of main_c_0 : StableHlo.TRef sig ⟨S_, .i32⟩) main_call0.v0 id,
    StableHlo.TRef.unary main_call0.v0 main_call0.v1 (broadcastInDim S128 ![] bcast_S_S128),
    StableHlo.TRef.binary (.of main_v2 : StableHlo.TRef sig ⟨S128, .i32⟩) main_call0.v1 main_call0.v2 Host.divsi,
    StableHlo.TRef.unary (.of main_v2 : StableHlo.TRef sig ⟨S128, .i32⟩) main_call0.v3 signi,
    StableHlo.TRef.unary main_call0.v0 main_call0.v4 signi,
    StableHlo.TRef.unary main_call0.v4 main_call0.v5 (broadcastInDim S128 ![] bcast_S_S128),
    StableHlo.TRef.binary main_call0.v3 main_call0.v5 main_call0.v6 (cmpi .ne),
    StableHlo.TRef.unary main_call0.v0 main_call0.v7 (broadcastInDim S128 ![] bcast_S_S128),
    StableHlo.TRef.binary (.of main_v2 : StableHlo.TRef sig ⟨S128, .i32⟩) main_call0.v7 main_call0.v8 Host.remsi,
    StableHlo.TRef.nullary main_call0.c (constantI S_ 32 0#32),
    StableHlo.TRef.unary main_call0.c main_call0.v9 (broadcastInDim S128 ![] bcast_S_S128),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S128 ![] bcast_S_S128),
    StableHlo.TRef.binary main_call0.v2 main_call0.v12 main_call0.v13 subi,
    StableHlo.TRef.ternary main_call0.v11 main_call0.v13 main_call0.v2 main_call0.call0.v0 select ]

/-- The source columns, by the same operations, left in `%7`. -/
abbrev opsB : List (HloOp τ sig (Elt F)) :=
  [ StableHlo.nullary main_v4 (iotaInDim S128 32 0),
    StableHlo.nullary main_c_1 (constantI S_ 32 512#32),
    StableHlo.unary main_c_1 main_v5 (broadcastInDim S128 ![] bcast_S_S128 : (⟨S_, .i32⟩ : BufTy).Contents (Elt F) → (⟨S128, .i32⟩ : BufTy).Contents (Elt F)),
    StableHlo.binary main_v4 main_v5 main_v6 (muli : (⟨S128, .i32⟩ : BufTy).Contents (Elt F) → (⟨S128, .i32⟩ : BufTy).Contents (Elt F) → (⟨S128, .i32⟩ : BufTy).Contents (Elt F)),
    StableHlo.nullary main_c_2 (constantI S_ 32 128#32),
    StableHlo.TRef.unary (.of main_c_2 : StableHlo.TRef sig ⟨S_, .i32⟩) main_call1.v0 id,
    StableHlo.TRef.unary main_call1.v0 main_call1.v1 (broadcastInDim S128 ![] bcast_S_S128),
    StableHlo.TRef.binary (.of main_v6 : StableHlo.TRef sig ⟨S128, .i32⟩) main_call1.v1 main_call1.v2 Host.divsi,
    StableHlo.TRef.unary (.of main_v6 : StableHlo.TRef sig ⟨S128, .i32⟩) main_call1.v3 signi,
    StableHlo.TRef.unary main_call1.v0 main_call1.v4 signi,
    StableHlo.TRef.unary main_call1.v4 main_call1.v5 (broadcastInDim S128 ![] bcast_S_S128),
    StableHlo.TRef.binary main_call1.v3 main_call1.v5 main_call1.v6 (cmpi .ne),
    StableHlo.TRef.unary main_call1.v0 main_call1.v7 (broadcastInDim S128 ![] bcast_S_S128),
    StableHlo.TRef.binary (.of main_v6 : StableHlo.TRef sig ⟨S128, .i32⟩) main_call1.v7 main_call1.v8 Host.remsi,
    StableHlo.TRef.nullary main_call1.c (constantI S_ 32 0#32),
    StableHlo.TRef.unary main_call1.c main_call1.v9 (broadcastInDim S128 ![] bcast_S_S128),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S128 ![] bcast_S_S128),
    StableHlo.TRef.binary main_call1.v2 main_call1.v12 main_call1.v13 subi,
    StableHlo.TRef.ternary main_call1.v11 main_call1.v13 main_call1.v2 main_call1.call0.v0 select ]

/-- The two index vectors wrapped where negative, spread over the 128 × 128 grid, laid side by side into the table of (row, column) pairs, and the gather of the labels there: `%8` … `%25`. -/
abbrev opsC : List (HloOp τ sig (Elt F)) :=
  [ StableHlo.unary main_v3 main_v8 (broadcastInDim S128x1 ![0] bcast_S128_S128x1_0 : (⟨S128, .i32⟩ : BufTy).Contents (Elt F) → (⟨S128x1, .i32⟩ : BufTy).Contents (Elt F)),
    StableHlo.unary main_v7 main_v9 (broadcastInDim S1x128 ![1] bcast_S128_S1x128_1 : (⟨S128, .i32⟩ : BufTy).Contents (Elt F) → (⟨S1x128, .i32⟩ : BufTy).Contents (Elt F)),
    StableHlo.nullary main_c_3 (constantI S_ 32 0#32),
    StableHlo.unary main_c_3 main_v10 (broadcastInDim S128x1 ![] bcast_S_S128x1 : (⟨S_, .i32⟩ : BufTy).Contents (Elt F) → (⟨S128x1, .i32⟩ : BufTy).Contents (Elt F)),
    StableHlo.binary main_v8 main_v10 main_v11 (cmpi .slt : (⟨S128x1, .i32⟩ : BufTy).Contents (Elt F) → (⟨S128x1, .i32⟩ : BufTy).Contents (Elt F) → (⟨S128x1, .i1⟩ : BufTy).Contents (Elt F)),
    StableHlo.nullary main_c_4 (constantI S_ 32 512#32),
    StableHlo.unary main_c_4 main_v12 (broadcastInDim S128x1 ![] bcast_S_S128x1 : (⟨S_, .i32⟩ : BufTy).Contents (Elt F) → (⟨S128x1, .i32⟩ : BufTy).Contents (Elt F)),
    StableHlo.binary main_v8 main_v12 main_v13 (addi : (⟨S128x1, .i32⟩ : BufTy).Contents (Elt F) → (⟨S128x1, .i32⟩ : BufTy).Contents (Elt F) → (⟨S128x1, .i32⟩ : BufTy).Contents (Elt F)),
    StableHlo.ternary main_v11 main_v13 main_v8 main_v14 (select : (⟨S128x1, .i1⟩ : BufTy).Contents (Elt F) → (⟨S128x1, .i32⟩ : BufTy).Contents (Elt F) → (⟨S128x1, .i32⟩ : BufTy).Contents (Elt F) → (⟨S128x1, .i32⟩ : BufTy).Contents (Elt F)),
    StableHlo.nullary main_c_5 (constantI S_ 32 0#32),
    StableHlo.unary main_c_5 main_v15 (broadcastInDim S1x128 ![] bcast_S_S1x128 : (⟨S_, .i32⟩ : BufTy).Contents (Elt F) → (⟨S1x128, .i32⟩ : BufTy).Contents (Elt F)),
    StableHlo.binary main_v9 main_v15 main_v16 (cmpi .slt : (⟨S1x128, .i32⟩ : BufTy).Contents (Elt F) → (⟨S1x128, .i32⟩ : BufTy).Contents (Elt F) → (⟨S1x128, .i1⟩ : BufTy).Contents (Elt F)),
    StableHlo.nullary main_c_6 (constantI S_ 32 512#32),
    StableHlo.unary main_c_6 main_v17 (broadcastInDim S1x128 ![] bcast_S_S1x128 : (⟨S_, .i32⟩ : BufTy).Contents (Elt F) → (⟨S1x128, .i32⟩ : BufTy).Contents (Elt F)),
    StableHlo.binary main_v9 main_v17 main_v18 (addi : (⟨S1x128, .i32⟩ : BufTy).Contents (Elt F) → (⟨S1x128, .i32⟩ : BufTy).Contents (Elt F) → (⟨S1x128, .i32⟩ : BufTy).Contents (Elt F)),
    StableHlo.ternary main_v16 main_v18 main_v9 main_v19 (select : (⟨S1x128, .i1⟩ : BufTy).Contents (Elt F) → (⟨S1x128, .i32⟩ : BufTy).Contents (Elt F) → (⟨S1x128, .i32⟩ : BufTy).Contents (Elt F) → (⟨S1x128, .i32⟩ : BufTy).Contents (Elt F)),
    StableHlo.unary main_v14 main_v20 (broadcastInDim S128x128 ![0, 1] bcast_S128x1_S128x128_0_1 : (⟨S128x1, .i32⟩ : BufTy).Contents (Elt F) → (⟨S128x128, .i32⟩ : BufTy).Contents (Elt F)),
    StableHlo.unary main_v19 main_v21 (broadcastInDim S128x128 ![0, 1] bcast_S1x128_S128x128_0_1 : (⟨S1x128, .i32⟩ : BufTy).Contents (Elt F) → (⟨S128x128, .i32⟩ : BufTy).Contents (Elt F)),
    StableHlo.unary main_v20 main_v22 (broadcastInDim S128x128x1 ![0, 1] bcast_S128x128_S128x128x1_0_1 : (⟨S128x128, .i32⟩ : BufTy).Contents (Elt F) → (⟨S128x128x1, .i32⟩ : BufTy).Contents (Elt F)),
    StableHlo.unary main_v21 main_v23 (broadcastInDim S128x128x1 ![0, 1] bcast_S128x128_S128x128x1_0_1 : (⟨S128x128, .i32⟩ : BufTy).Contents (Elt F) → (⟨S128x128x1, .i32⟩ : BufTy).Contents (Elt F)),
    StableHlo.binary main_v22 main_v23 main_v24 ((fun a b => concatenate S128x128x2 2 [⟨S128x128x1, a⟩, ⟨S128x128x1, b⟩] concatenates_S128x128x1_S128x128x1_S128x128x2_d2) : (⟨S128x128x1, .i32⟩ : BufTy).Contents (Elt F) → (⟨S128x128x1, .i32⟩ : BufTy).Contents (Elt F) → (⟨S128x128x2, .i32⟩ : BufTy).Contents (Elt F)),
    StableHlo.binary main_arg1 main_v24 main_v25 ((fun x i => Host.gather gather_S16x512x512_S128x128x2_S16x128x128_0_12_n_n_12_2_1611 x i) : (⟨S16x512x512, .i32⟩ : BufTy).Contents (Elt F) → (⟨S128x128x2, .i32⟩ : BufTy).Contents (Elt F) → (⟨S16x128x128, .i32⟩ : BufTy).Contents (Elt F)) ]

/-- The labels flattened to one per pixel, the features with the channel last flattened to one row per pixel, and the two accumulating scatters from zeros: `%26` … `%35`. -/
abbrev opsD : List (HloOp τ sig (Elt F)) :=
  [ StableHlo.reshape main_v25 main_v26 rfl shapeCasts_S16x128x128_S262144,
    StableHlo.unary main_arg0 main_v27 ((transpose S16x128x128x256 [0, 2, 3, 1] · transposes_S16x256x128x128_S16x128x128x256_0_2_3_1) : (⟨S16x256x128x128, .f32⟩ : BufTy).Contents (Elt F) → (⟨S16x128x128x256, .f32⟩ : BufTy).Contents (Elt F)),
    StableHlo.reshape main_v27 main_v28 rfl shapeCasts_S16x128x128x256_S262144x256,
    StableHlo.nullary main_cst (constant S_ .f32 0x00000000#32),
    StableHlo.unary main_cst main_v29 (broadcastInDim S21x256 ![] bcast_S_S21x256 : (⟨S_, .f32⟩ : BufTy).Contents (Elt F) → (⟨S21x256, .f32⟩ : BufTy).Contents (Elt F)),
    StableHlo.unary main_v26 main_v30 (broadcastInDim S262144x1 ![0] bcast_S262144_S262144x1_0 : (⟨S262144, .i32⟩ : BufTy).Contents (Elt F) → (⟨S262144x1, .i32⟩ : BufTy).Contents (Elt F)),
    StableHlo.ternary main_v29 main_v30 main_v28 main_v31 ((fun x i u => Host.scatterAdd scatter_S21x256_S262144x1_S262144x256_1_0_0_1 x i u) : (⟨S21x256, .f32⟩ : BufTy).Contents (Elt F) → (⟨S262144x1, .i32⟩ : BufTy).Contents (Elt F) → (⟨S262144x256, .f32⟩ : BufTy).Contents (Elt F) → (⟨S21x256, .f32⟩ : BufTy).Contents (Elt F)),
    StableHlo.nullary main_cst_7 (constant S_ .f32 0x3F800000#32),
    StableHlo.unary main_cst_7 main_v32 (broadcastInDim S262144 ![] bcast_S_S262144 : (⟨S_, .f32⟩ : BufTy).Contents (Elt F) → (⟨S262144, .f32⟩ : BufTy).Contents (Elt F)),
    StableHlo.nullary main_cst_8 (constant S_ .f32 0x00000000#32),
    StableHlo.unary main_cst_8 main_v33 (broadcastInDim S21 ![] bcast_S_S21 : (⟨S_, .f32⟩ : BufTy).Contents (Elt F) → (⟨S21, .f32⟩ : BufTy).Contents (Elt F)),
    StableHlo.unary main_v26 main_v34 (broadcastInDim S262144x1 ![0] bcast_S262144_S262144x1_0 : (⟨S262144, .i32⟩ : BufTy).Contents (Elt F) → (⟨S262144x1, .i32⟩ : BufTy).Contents (Elt F)),
    StableHlo.ternary main_v33 main_v34 main_v32 main_v35 ((fun x i u => Host.scatterAdd scatter_S21_S262144x1_S262144_n_0_0_1 x i u) : (⟨S21, .f32⟩ : BufTy).Contents (Elt F) → (⟨S262144x1, .i32⟩ : BufTy).Contents (Elt F) → (⟨S262144, .f32⟩ : BufTy).Contents (Elt F) → (⟨S21, .f32⟩ : BufTy).Contents (Elt F)) ]

/-- The sums divided by the counts raised to at least one, and zeros where the count is not positive (the selecting function's two operations in place of its call): `%36` … `%45`. -/
abbrev opsE : List (HloOp τ sig (Elt F)) :=
  [ StableHlo.nullary main_cst_9 (constant S_ .f32 0x3F800000#32),
    StableHlo.unary main_cst_9 main_v36 (broadcastInDim S21 ![] bcast_S_S21 : (⟨S_, .f32⟩ : BufTy).Contents (Elt F) → (⟨S21, .f32⟩ : BufTy).Contents (Elt F)),
    StableHlo.binary main_v35 main_v36 main_v37 (maximumf : (⟨S21, .f32⟩ : BufTy).Contents (Elt F) → (⟨S21, .f32⟩ : BufTy).Contents (Elt F) → (⟨S21, .f32⟩ : BufTy).Contents (Elt F)),
    StableHlo.unary main_v37 main_v38 (broadcastInDim S21x1 ![0] bcast_S21_S21x1_0 : (⟨S21, .f32⟩ : BufTy).Contents (Elt F) → (⟨S21x1, .f32⟩ : BufTy).Contents (Elt F)),
    StableHlo.unary main_v38 main_v39 (broadcastInDim S21x256 ![0, 1] bcast_S21x1_S21x256_0_1 : (⟨S21x1, .f32⟩ : BufTy).Contents (Elt F) → (⟨S21x256, .f32⟩ : BufTy).Contents (Elt F)),
    StableHlo.binary main_v31 main_v39 main_v40 (Host.divf : (⟨S21x256, .f32⟩ : BufTy).Contents (Elt F) → (⟨S21x256, .f32⟩ : BufTy).Contents (Elt F) → (⟨S21x256, .f32⟩ : BufTy).Contents (Elt F)),
    StableHlo.unary main_v35 main_v41 (broadcastInDim S21x1 ![0] bcast_S21_S21x1_0 : (⟨S21, .f32⟩ : BufTy).Contents (Elt F) → (⟨S21x1, .f32⟩ : BufTy).Contents (Elt F)),
    StableHlo.nullary main_cst_10 (constant S_ .f32 0x00000000#32),
    StableHlo.unary main_cst_10 main_v42 (broadcastInDim S21x1 ![] bcast_S_S21x1 : (⟨S_, .f32⟩ : BufTy).Contents (Elt F) → (⟨S21x1, .f32⟩ : BufTy).Contents (Elt F)),
    StableHlo.binary main_v41 main_v42 main_v43 (cmpf .ogt : (⟨S21x1, .f32⟩ : BufTy).Contents (Elt F) → (⟨S21x1, .f32⟩ : BufTy).Contents (Elt F) → (⟨S21x1, .i1⟩ : BufTy).Contents (Elt F)),
    StableHlo.nullary main_cst_11 (constant S_ .f32 0x00000000#32),
    StableHlo.unary main_cst_11 main_v44 (broadcastInDim S21x256 ![] bcast_S_S21x256 : (⟨S_, .f32⟩ : BufTy).Contents (Elt F) → (⟨S21x256, .f32⟩ : BufTy).Contents (Elt F)),
    StableHlo.TRef.unary (.of main_v43 : StableHlo.TRef sig ⟨S21x1, .i1⟩) main_call2.v0 (broadcastInDim S21x256 ![0, 1] bcast_S21x1_S21x256_0_1),
    StableHlo.TRef.ternary main_call2.v0 (.of main_v40 : StableHlo.TRef sig ⟨S21x256, .f32⟩) (.of main_v44 : StableHlo.TRef sig ⟨S21x256, .f32⟩) main_call2.v1 select ]

/-- @main's ninety-three operations in order, the calls unfolded: each floor division is its callee's sixteen operations over the call's buffers and then the select of the function it calls; the last call is a broadcast and a select. -/
abbrev ops : List (HloOp τ sig (Elt F)) :=
  [ StableHlo.nullary main_v0 (iotaInDim S128 32 0),
    StableHlo.nullary main_c (constantI S_ 32 512#32),
    StableHlo.unary main_c main_v1 (broadcastInDim S128 ![] bcast_S_S128 : (⟨S_, .i32⟩ : BufTy).Contents (Elt F) → (⟨S128, .i32⟩ : BufTy).Contents (Elt F)),
    StableHlo.binary main_v0 main_v1 main_v2 (muli : (⟨S128, .i32⟩ : BufTy).Contents (Elt F) → (⟨S128, .i32⟩ : BufTy).Contents (Elt F) → (⟨S128, .i32⟩ : BufTy).Contents (Elt F)),
    StableHlo.nullary main_c_0 (constantI S_ 32 128#32),
    StableHlo.TRef.unary (.of main_c_0 : StableHlo.TRef sig ⟨S_, .i32⟩) main_call0.v0 id,
    StableHlo.TRef.unary main_call0.v0 main_call0.v1 (broadcastInDim S128 ![] bcast_S_S128),
    StableHlo.TRef.binary (.of main_v2 : StableHlo.TRef sig ⟨S128, .i32⟩) main_call0.v1 main_call0.v2 Host.divsi,
    StableHlo.TRef.unary (.of main_v2 : StableHlo.TRef sig ⟨S128, .i32⟩) main_call0.v3 signi,
    StableHlo.TRef.unary main_call0.v0 main_call0.v4 signi,
    StableHlo.TRef.unary main_call0.v4 main_call0.v5 (broadcastInDim S128 ![] bcast_S_S128),
    StableHlo.TRef.binary main_call0.v3 main_call0.v5 main_call0.v6 (cmpi .ne),
    StableHlo.TRef.unary main_call0.v0 main_call0.v7 (broadcastInDim S128 ![] bcast_S_S128),
    StableHlo.TRef.binary (.of main_v2 : StableHlo.TRef sig ⟨S128, .i32⟩) main_call0.v7 main_call0.v8 Host.remsi,
    StableHlo.TRef.nullary main_call0.c (constantI S_ 32 0#32),
    StableHlo.TRef.unary main_call0.c main_call0.v9 (broadcastInDim S128 ![] bcast_S_S128),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S128 ![] bcast_S_S128),
    StableHlo.TRef.binary main_call0.v2 main_call0.v12 main_call0.v13 subi,
    StableHlo.TRef.ternary main_call0.v11 main_call0.v13 main_call0.v2 main_call0.call0.v0 select,
    StableHlo.nullary main_v4 (iotaInDim S128 32 0),
    StableHlo.nullary main_c_1 (constantI S_ 32 512#32),
    StableHlo.unary main_c_1 main_v5 (broadcastInDim S128 ![] bcast_S_S128 : (⟨S_, .i32⟩ : BufTy).Contents (Elt F) → (⟨S128, .i32⟩ : BufTy).Contents (Elt F)),
    StableHlo.binary main_v4 main_v5 main_v6 (muli : (⟨S128, .i32⟩ : BufTy).Contents (Elt F) → (⟨S128, .i32⟩ : BufTy).Contents (Elt F) → (⟨S128, .i32⟩ : BufTy).Contents (Elt F)),
    StableHlo.nullary main_c_2 (constantI S_ 32 128#32),
    StableHlo.TRef.unary (.of main_c_2 : StableHlo.TRef sig ⟨S_, .i32⟩) main_call1.v0 id,
    StableHlo.TRef.unary main_call1.v0 main_call1.v1 (broadcastInDim S128 ![] bcast_S_S128),
    StableHlo.TRef.binary (.of main_v6 : StableHlo.TRef sig ⟨S128, .i32⟩) main_call1.v1 main_call1.v2 Host.divsi,
    StableHlo.TRef.unary (.of main_v6 : StableHlo.TRef sig ⟨S128, .i32⟩) main_call1.v3 signi,
    StableHlo.TRef.unary main_call1.v0 main_call1.v4 signi,
    StableHlo.TRef.unary main_call1.v4 main_call1.v5 (broadcastInDim S128 ![] bcast_S_S128),
    StableHlo.TRef.binary main_call1.v3 main_call1.v5 main_call1.v6 (cmpi .ne),
    StableHlo.TRef.unary main_call1.v0 main_call1.v7 (broadcastInDim S128 ![] bcast_S_S128),
    StableHlo.TRef.binary (.of main_v6 : StableHlo.TRef sig ⟨S128, .i32⟩) main_call1.v7 main_call1.v8 Host.remsi,
    StableHlo.TRef.nullary main_call1.c (constantI S_ 32 0#32),
    StableHlo.TRef.unary main_call1.c main_call1.v9 (broadcastInDim S128 ![] bcast_S_S128),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S128 ![] bcast_S_S128),
    StableHlo.TRef.binary main_call1.v2 main_call1.v12 main_call1.v13 subi,
    StableHlo.TRef.ternary main_call1.v11 main_call1.v13 main_call1.v2 main_call1.call0.v0 select,
    StableHlo.unary main_v3 main_v8 (broadcastInDim S128x1 ![0] bcast_S128_S128x1_0 : (⟨S128, .i32⟩ : BufTy).Contents (Elt F) → (⟨S128x1, .i32⟩ : BufTy).Contents (Elt F)),
    StableHlo.unary main_v7 main_v9 (broadcastInDim S1x128 ![1] bcast_S128_S1x128_1 : (⟨S128, .i32⟩ : BufTy).Contents (Elt F) → (⟨S1x128, .i32⟩ : BufTy).Contents (Elt F)),
    StableHlo.nullary main_c_3 (constantI S_ 32 0#32),
    StableHlo.unary main_c_3 main_v10 (broadcastInDim S128x1 ![] bcast_S_S128x1 : (⟨S_, .i32⟩ : BufTy).Contents (Elt F) → (⟨S128x1, .i32⟩ : BufTy).Contents (Elt F)),
    StableHlo.binary main_v8 main_v10 main_v11 (cmpi .slt : (⟨S128x1, .i32⟩ : BufTy).Contents (Elt F) → (⟨S128x1, .i32⟩ : BufTy).Contents (Elt F) → (⟨S128x1, .i1⟩ : BufTy).Contents (Elt F)),
    StableHlo.nullary main_c_4 (constantI S_ 32 512#32),
    StableHlo.unary main_c_4 main_v12 (broadcastInDim S128x1 ![] bcast_S_S128x1 : (⟨S_, .i32⟩ : BufTy).Contents (Elt F) → (⟨S128x1, .i32⟩ : BufTy).Contents (Elt F)),
    StableHlo.binary main_v8 main_v12 main_v13 (addi : (⟨S128x1, .i32⟩ : BufTy).Contents (Elt F) → (⟨S128x1, .i32⟩ : BufTy).Contents (Elt F) → (⟨S128x1, .i32⟩ : BufTy).Contents (Elt F)),
    StableHlo.ternary main_v11 main_v13 main_v8 main_v14 (select : (⟨S128x1, .i1⟩ : BufTy).Contents (Elt F) → (⟨S128x1, .i32⟩ : BufTy).Contents (Elt F) → (⟨S128x1, .i32⟩ : BufTy).Contents (Elt F) → (⟨S128x1, .i32⟩ : BufTy).Contents (Elt F)),
    StableHlo.nullary main_c_5 (constantI S_ 32 0#32),
    StableHlo.unary main_c_5 main_v15 (broadcastInDim S1x128 ![] bcast_S_S1x128 : (⟨S_, .i32⟩ : BufTy).Contents (Elt F) → (⟨S1x128, .i32⟩ : BufTy).Contents (Elt F)),
    StableHlo.binary main_v9 main_v15 main_v16 (cmpi .slt : (⟨S1x128, .i32⟩ : BufTy).Contents (Elt F) → (⟨S1x128, .i32⟩ : BufTy).Contents (Elt F) → (⟨S1x128, .i1⟩ : BufTy).Contents (Elt F)),
    StableHlo.nullary main_c_6 (constantI S_ 32 512#32),
    StableHlo.unary main_c_6 main_v17 (broadcastInDim S1x128 ![] bcast_S_S1x128 : (⟨S_, .i32⟩ : BufTy).Contents (Elt F) → (⟨S1x128, .i32⟩ : BufTy).Contents (Elt F)),
    StableHlo.binary main_v9 main_v17 main_v18 (addi : (⟨S1x128, .i32⟩ : BufTy).Contents (Elt F) → (⟨S1x128, .i32⟩ : BufTy).Contents (Elt F) → (⟨S1x128, .i32⟩ : BufTy).Contents (Elt F)),
    StableHlo.ternary main_v16 main_v18 main_v9 main_v19 (select : (⟨S1x128, .i1⟩ : BufTy).Contents (Elt F) → (⟨S1x128, .i32⟩ : BufTy).Contents (Elt F) → (⟨S1x128, .i32⟩ : BufTy).Contents (Elt F) → (⟨S1x128, .i32⟩ : BufTy).Contents (Elt F)),
    StableHlo.unary main_v14 main_v20 (broadcastInDim S128x128 ![0, 1] bcast_S128x1_S128x128_0_1 : (⟨S128x1, .i32⟩ : BufTy).Contents (Elt F) → (⟨S128x128, .i32⟩ : BufTy).Contents (Elt F)),
    StableHlo.unary main_v19 main_v21 (broadcastInDim S128x128 ![0, 1] bcast_S1x128_S128x128_0_1 : (⟨S1x128, .i32⟩ : BufTy).Contents (Elt F) → (⟨S128x128, .i32⟩ : BufTy).Contents (Elt F)),
    StableHlo.unary main_v20 main_v22 (broadcastInDim S128x128x1 ![0, 1] bcast_S128x128_S128x128x1_0_1 : (⟨S128x128, .i32⟩ : BufTy).Contents (Elt F) → (⟨S128x128x1, .i32⟩ : BufTy).Contents (Elt F)),
    StableHlo.unary main_v21 main_v23 (broadcastInDim S128x128x1 ![0, 1] bcast_S128x128_S128x128x1_0_1 : (⟨S128x128, .i32⟩ : BufTy).Contents (Elt F) → (⟨S128x128x1, .i32⟩ : BufTy).Contents (Elt F)),
    StableHlo.binary main_v22 main_v23 main_v24 ((fun a b => concatenate S128x128x2 2 [⟨S128x128x1, a⟩, ⟨S128x128x1, b⟩] concatenates_S128x128x1_S128x128x1_S128x128x2_d2) : (⟨S128x128x1, .i32⟩ : BufTy).Contents (Elt F) → (⟨S128x128x1, .i32⟩ : BufTy).Contents (Elt F) → (⟨S128x128x2, .i32⟩ : BufTy).Contents (Elt F)),
    StableHlo.binary main_arg1 main_v24 main_v25 ((fun x i => Host.gather gather_S16x512x512_S128x128x2_S16x128x128_0_12_n_n_12_2_1611 x i) : (⟨S16x512x512, .i32⟩ : BufTy).Contents (Elt F) → (⟨S128x128x2, .i32⟩ : BufTy).Contents (Elt F) → (⟨S16x128x128, .i32⟩ : BufTy).Contents (Elt F)),
    StableHlo.reshape main_v25 main_v26 rfl shapeCasts_S16x128x128_S262144,
    StableHlo.unary main_arg0 main_v27 ((transpose S16x128x128x256 [0, 2, 3, 1] · transposes_S16x256x128x128_S16x128x128x256_0_2_3_1) : (⟨S16x256x128x128, .f32⟩ : BufTy).Contents (Elt F) → (⟨S16x128x128x256, .f32⟩ : BufTy).Contents (Elt F)),
    StableHlo.reshape main_v27 main_v28 rfl shapeCasts_S16x128x128x256_S262144x256,
    StableHlo.nullary main_cst (constant S_ .f32 0x00000000#32),
    StableHlo.unary main_cst main_v29 (broadcastInDim S21x256 ![] bcast_S_S21x256 : (⟨S_, .f32⟩ : BufTy).Contents (Elt F) → (⟨S21x256, .f32⟩ : BufTy).Contents (Elt F)),
    StableHlo.unary main_v26 main_v30 (broadcastInDim S262144x1 ![0] bcast_S262144_S262144x1_0 : (⟨S262144, .i32⟩ : BufTy).Contents (Elt F) → (⟨S262144x1, .i32⟩ : BufTy).Contents (Elt F)),
    StableHlo.ternary main_v29 main_v30 main_v28 main_v31 ((fun x i u => Host.scatterAdd scatter_S21x256_S262144x1_S262144x256_1_0_0_1 x i u) : (⟨S21x256, .f32⟩ : BufTy).Contents (Elt F) → (⟨S262144x1, .i32⟩ : BufTy).Contents (Elt F) → (⟨S262144x256, .f32⟩ : BufTy).Contents (Elt F) → (⟨S21x256, .f32⟩ : BufTy).Contents (Elt F)),
    StableHlo.nullary main_cst_7 (constant S_ .f32 0x3F800000#32),
    StableHlo.unary main_cst_7 main_v32 (broadcastInDim S262144 ![] bcast_S_S262144 : (⟨S_, .f32⟩ : BufTy).Contents (Elt F) → (⟨S262144, .f32⟩ : BufTy).Contents (Elt F)),
    StableHlo.nullary main_cst_8 (constant S_ .f32 0x00000000#32),
    StableHlo.unary main_cst_8 main_v33 (broadcastInDim S21 ![] bcast_S_S21 : (⟨S_, .f32⟩ : BufTy).Contents (Elt F) → (⟨S21, .f32⟩ : BufTy).Contents (Elt F)),
    StableHlo.unary main_v26 main_v34 (broadcastInDim S262144x1 ![0] bcast_S262144_S262144x1_0 : (⟨S262144, .i32⟩ : BufTy).Contents (Elt F) → (⟨S262144x1, .i32⟩ : BufTy).Contents (Elt F)),
    StableHlo.ternary main_v33 main_v34 main_v32 main_v35 ((fun x i u => Host.scatterAdd scatter_S21_S262144x1_S262144_n_0_0_1 x i u) : (⟨S21, .f32⟩ : BufTy).Contents (Elt F) → (⟨S262144x1, .i32⟩ : BufTy).Contents (Elt F) → (⟨S262144, .f32⟩ : BufTy).Contents (Elt F) → (⟨S21, .f32⟩ : BufTy).Contents (Elt F)),
    StableHlo.nullary main_cst_9 (constant S_ .f32 0x3F800000#32),
    StableHlo.unary main_cst_9 main_v36 (broadcastInDim S21 ![] bcast_S_S21 : (⟨S_, .f32⟩ : BufTy).Contents (Elt F) → (⟨S21, .f32⟩ : BufTy).Contents (Elt F)),
    StableHlo.binary main_v35 main_v36 main_v37 (maximumf : (⟨S21, .f32⟩ : BufTy).Contents (Elt F) → (⟨S21, .f32⟩ : BufTy).Contents (Elt F) → (⟨S21, .f32⟩ : BufTy).Contents (Elt F)),
    StableHlo.unary main_v37 main_v38 (broadcastInDim S21x1 ![0] bcast_S21_S21x1_0 : (⟨S21, .f32⟩ : BufTy).Contents (Elt F) → (⟨S21x1, .f32⟩ : BufTy).Contents (Elt F)),
    StableHlo.unary main_v38 main_v39 (broadcastInDim S21x256 ![0, 1] bcast_S21x1_S21x256_0_1 : (⟨S21x1, .f32⟩ : BufTy).Contents (Elt F) → (⟨S21x256, .f32⟩ : BufTy).Contents (Elt F)),
    StableHlo.binary main_v31 main_v39 main_v40 (Host.divf : (⟨S21x256, .f32⟩ : BufTy).Contents (Elt F) → (⟨S21x256, .f32⟩ : BufTy).Contents (Elt F) → (⟨S21x256, .f32⟩ : BufTy).Contents (Elt F)),
    StableHlo.unary main_v35 main_v41 (broadcastInDim S21x1 ![0] bcast_S21_S21x1_0 : (⟨S21, .f32⟩ : BufTy).Contents (Elt F) → (⟨S21x1, .f32⟩ : BufTy).Contents (Elt F)),
    StableHlo.nullary main_cst_10 (constant S_ .f32 0x00000000#32),
    StableHlo.unary main_cst_10 main_v42 (broadcastInDim S21x1 ![] bcast_S_S21x1 : (⟨S_, .f32⟩ : BufTy).Contents (Elt F) → (⟨S21x1, .f32⟩ : BufTy).Contents (Elt F)),
    StableHlo.binary main_v41 main_v42 main_v43 (cmpf .ogt : (⟨S21x1, .f32⟩ : BufTy).Contents (Elt F) → (⟨S21x1, .f32⟩ : BufTy).Contents (Elt F) → (⟨S21x1, .i1⟩ : BufTy).Contents (Elt F)),
    StableHlo.nullary main_cst_11 (constant S_ .f32 0x00000000#32),
    StableHlo.unary main_cst_11 main_v44 (broadcastInDim S21x256 ![] bcast_S_S21x256 : (⟨S_, .f32⟩ : BufTy).Contents (Elt F) → (⟨S21x256, .f32⟩ : BufTy).Contents (Elt F)),
    StableHlo.TRef.unary (.of main_v43 : StableHlo.TRef sig ⟨S21x1, .i1⟩) main_call2.v0 (broadcastInDim S21x256 ![0, 1] bcast_S21x1_S21x256_0_1),
    StableHlo.TRef.ternary main_call2.v0 (.of main_v40 : StableHlo.TRef sig ⟨S21x256, .f32⟩) (.of main_v44 : StableHlo.TRef sig ⟨S21x256, .f32⟩) main_call2.v1 select ]

/-- The line is its five stretches one after the other. -/
theorem ops_eq : (ops : List (HloOp τ sig (Elt F))) = opsA ++ (opsB ++ (opsC ++ (opsD ++ opsE))) := rfl

-- ninety-three binds re-associated: the rewrite under the chain recurses once per statement
set_option maxRecDepth 2048 in
set_option maxHeartbeats 1600000 in
/-- @main is that straight line: the functions' definitions unfolded at their calls, both sides are one chain of
    steps once sequencing is reassociated. -/
theorem main_eq (c : Dev nD) : main (F := F) c = seq ops := by
  simp only [main, main_part0, main_part1, fn_floor_divide.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub ..,
    nullary_bufs_sub ..,
    unary_bufs_sub ..,
    binary_bufs_sub ..,
    nullary_bufs_sub ..,
    unary_bufs_sub ..,
    unary_bufs_sub ..,
    binary_bufs_sub ..,
    unary_bufs_sub ..,
    unary_bufs_sub ..,
    unary_bufs_sub ..,
    binary_bufs_sub ..,
    unary_bufs_sub ..,
    binary_bufs_sub ..,
    nullary_bufs_sub ..,
    unary_bufs_sub ..,
    binary_bufs_sub ..,
    binary_bufs_sub ..,
    nullary_bufs_sub ..,
    unary_bufs_sub ..,
    binary_bufs_sub ..,
    ternary_bufs_sub ..,
    nullary_bufs_sub ..,
    nullary_bufs_sub ..,
    unary_bufs_sub ..,
    binary_bufs_sub ..,
    nullary_bufs_sub ..,
    unary_bufs_sub ..,
    unary_bufs_sub ..,
    binary_bufs_sub ..,
    unary_bufs_sub ..,
    unary_bufs_sub ..,
    unary_bufs_sub ..,
    binary_bufs_sub ..,
    unary_bufs_sub ..,
    binary_bufs_sub ..,
    nullary_bufs_sub ..,
    unary_bufs_sub ..,
    binary_bufs_sub ..,
    binary_bufs_sub ..,
    nullary_bufs_sub ..,
    unary_bufs_sub ..,
    binary_bufs_sub ..,
    ternary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    ternary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    unary_bufs_sub ..,
    unary_bufs_sub ..,
    unary_bufs_sub ..,
    binary_bufs_sub ..,
    binary_bufs_sub ..,
    reshape_bufs_sub ..,
    unary_bufs_sub ..,
    reshape_bufs_sub ..,
    nullary_bufs_sub ..,
    unary_bufs_sub ..,
    unary_bufs_sub ..,
    ternary_bufs_sub ..,
    nullary_bufs_sub ..,
    unary_bufs_sub ..,
    nullary_bufs_sub ..,
    unary_bufs_sub ..,
    unary_bufs_sub ..,
    ternary_bufs_sub ..,
    nullary_bufs_sub ..,
    unary_bufs_sub ..,
    binary_bufs_sub ..,
    unary_bufs_sub ..,
    unary_bufs_sub ..,
    binary_bufs_sub ..,
    unary_bufs_sub ..,
    nullary_bufs_sub ..,
    unary_bufs_sub ..,
    binary_bufs_sub ..,
    nullary_bufs_sub ..,
    unary_bufs_sub ..,
    unary_bufs_sub ..,
    ternary_bufs_sub ..⟩

set_option maxRecDepth 4096 in
/-- From any memory with zero counters, every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- Running one list of operations after another is running their concatenation. -/
theorem after_append (a b : List (HloOp τ sig (Elt F))) (V : Valuation τ sig (Elt F)) :
    after (a ++ b) V = after b (after a V) := by
  induction a generalizing V with
  | nil => rfl
  | cons op a ih => simp only [List.cons_append, after_cons]; exact ih _

end Cert.ReferenceIdeal.Hand

end
-- ==== Proof.LibSegmentSum.lean ====
/-
  A segment sum read at one of its entries, and a batched row gather read at one of its entries.

  A scatter with an additive body whose scatter indices are an [n × 1] column of words adds update `i` to the
  operand entry that word `i` names (read signed, not clamped; an entry the word does not name receives
  nothing). At the exact instance each operand entry therefore ends at its own value plus the sum of the updates
  whose word names it. Three layouts of the same operation are read here: a vector of `P` segments; `B` rows of
  `P` segments fed by `B` rows of updates; and `P` segments of `C` columns fed by `n` rows of `C` columns.

  A gather that reads, for each of `n` words, one column of a [B × N] table (all `B` rows of it) returns at
  (b, i) the table's entry in row `b` at the column word `i` names, read signed and clamped into `[0, N − 1]`.
-/
import Idealize.ShloMosaic.PureOps.Ideal
import Idealize.ShloMosaic.PureOps.Contract
import Idealize.ShloMosaic.Lib.ValueIdx

noncomputable section

namespace Idealize.ShloMosaic.SegmentSum

open Idealize.ShloMosaic.ValueIdx

/-- Row `i` of an [n × 1] column of words. -/
abbrev colIx {n : Nat} (i : Fin n) : (⟨2, ![n, 1]⟩ : Shape).Idx := ix2 i (0 : Fin 1)

/-! ## A vector of segments -/

/-- The dimension numbers of `segment_sum` over a vector: operand [P], words [n × 1], updates [n]. -/
abbrev dimsVec (P n : Nat) (wf : ScatterDims.WF ⟨1, ![P]⟩ ⟨2, ![n, 1]⟩ ⟨1, ![n]⟩ [] [0] [0] 1) :
    ScatterDims ⟨1, ![P]⟩ ⟨2, ![n, 1]⟩ ⟨1, ![n]⟩ where
  updateWindowDims := []
  insertedWindowDims := [0]
  scatterDimsToOperandDims := [0]
  indexVectorDim := 1
  wf := wf

section Vec
variable {P n w : Nat} (wf : ScatterDims.WF ⟨1, ![P]⟩ ⟨2, ![n, 1]⟩ ⟨1, ![n]⟩ [] [0] [0] 1)

/-- The operand's one axis starts at the word the update's coordinate names. -/
private theorem vec_start0 (j : (⟨1, ![n]⟩ : Shape).Idx) (idx : IVec ⟨2, ![n, 1]⟩ w) :
    (dimsVec P n wf).start j idx 0 = (idx (colIx (j 0))).toInt := by
  unfold ScatterDims.start
  rw [dif_pos (show (0 : Fin 1) ∈ (dimsVec P n wf).scatterDimsToOperandDims from List.mem_singleton.mpr rfl)]
  congr 2
  funext b; refine Fin.ext ?_
  match b with
  | ⟨0, _⟩ => rfl
  | ⟨1, _⟩ => rfl

/-- The operand's one axis is inserted: no window coordinate. -/
private theorem vec_window0 (j : (⟨1, ![n]⟩ : Shape).Idx) :
    (dimsVec P n wf).window j 0 = 0 := by
  unfold ScatterDims.window
  have h : (0 : Fin 1) ∉ (dimsVec P n wf).sKept :=
    show (0 : Fin 1) ∉ (List.finRange 1).filter (· ∉ ([0] : List (Fin 1))) by decide
  rw [dif_neg h]

/-- An update lands on segment `p` exactly when its word is `p`. -/
private theorem vec_resultIdx_iff (j : (⟨1, ![n]⟩ : Shape).Idx) (idx : IVec ⟨2, ![n, 1]⟩ w) (p : Fin P) :
    (dimsVec P n wf).resultIdx? j idx = some (ix1 p) ↔ (idx (colIx (j 0))).toInt = (p.val : Int) := by
  have hs0 : (⟨1, ![P]⟩ : Shape).size 0 = P := rfl
  unfold ScatterDims.resultIdx?
  split
  · rename_i h
    rw [Option.some.injEq]
    constructor
    · intro he
      have h0 := congrArg Fin.val (congrFun he 0)
      have g0 := h 0
      simp only [vec_start0, vec_window0] at h0 g0
      change _ = p.val at h0
      omega
    · intro h0
      funext a
      refine Fin.ext ?_
      match a with
      | ⟨0, _⟩ =>
        show ((dimsVec P n wf).start j idx 0 + ((dimsVec P n wf).window j 0 : Int)).toNat = p.val
        rw [vec_start0, vec_window0, h0]; omega
  · rename_i h
    constructor
    · intro he; exact absurd he (by simp)
    · intro h0
      exfalso; apply h
      intro a
      match a with
      | ⟨0, _⟩ =>
        show 0 ≤ (dimsVec P n wf).start j idx 0 + ((dimsVec P n wf).window j 0 : Int)
          ∧ (dimsVec P n wf).start j idx 0 + ((dimsVec P n wf).window j 0 : Int) < ((⟨1, ![P]⟩ : Shape).size 0 : Nat)
        have := p.isLt
        rw [vec_start0, vec_window0, h0, hs0]; omega
end Vec

/-- Segment `p` ends at its own value plus the sum of the updates whose word is `p`. -/
theorem scatterAdd_vec_apply {P n w : Nat} (wf : ScatterDims.WF ⟨1, ![P]⟩ ⟨2, ![n, 1]⟩ ⟨1, ![n]⟩ [] [0] [0] 1)
    (x : (⟨1, ![P]⟩ : Shape).Idx → EReal) (idx : IVec ⟨2, ![n, 1]⟩ w) (upd : (⟨1, ![n]⟩ : Shape).Idx → EReal) (p : Fin P) :
    Ideal.hostScatterAdd (dimsVec P n wf) x idx upd (ix1 p)
      = x (ix1 p) + ∑ i ∈ Finset.univ.filter (fun i : Fin n => (idx (colIx i)).toInt = (p.val : Int)), upd (ix1 i) := by
  unfold Ideal.hostScatterAdd
  congr 1
  refine Finset.sum_nbij' (fun j => (j 0 : Fin n)) (fun i => ix1 i) ?_ ?_ ?_ ?_ ?_
  · intro j hj
    have hj' := (Finset.mem_filter.mp hj).2
    exact Finset.mem_filter.mpr ⟨Finset.mem_univ _, (vec_resultIdx_iff wf j idx p).mp hj'⟩
  · intro i hi
    have hi' := (Finset.mem_filter.mp hi).2
    exact Finset.mem_filter.mpr ⟨Finset.mem_univ _, (vec_resultIdx_iff wf (ix1 i) idx p).mpr hi'⟩
  · intro j _
    exact (eq_ix1 j).symm
  · intro i _
    rfl
  · intro j _
    exact congrArg upd (eq_ix1 j)

/-! ## Rows of segments -/

/-- Operand [B × P], words [n × 1], updates [B × n]: update column `i` goes, whole, to operand column word `i` names. -/
abbrev dimsRows (B P n : Nat) (wf : ScatterDims.WF ⟨2, ![B, P]⟩ ⟨2, ![n, 1]⟩ ⟨2, ![B, n]⟩ [0] [1] [1] 1) :
    ScatterDims ⟨2, ![B, P]⟩ ⟨2, ![n, 1]⟩ ⟨2, ![B, n]⟩ where
  updateWindowDims := [0]
  insertedWindowDims := [1]
  scatterDimsToOperandDims := [1]
  indexVectorDim := 1
  wf := wf

section Rows
variable {B P n w : Nat} (wf : ScatterDims.WF ⟨2, ![B, P]⟩ ⟨2, ![n, 1]⟩ ⟨2, ![B, n]⟩ [0] [1] [1] 1)

/-- Axis 0 of the operand is not named by the map: its start is 0. -/
private theorem rows_start0 (j : (⟨2, ![B, n]⟩ : Shape).Idx) (idx : IVec ⟨2, ![n, 1]⟩ w) :
    (dimsRows B P n wf).start j idx 0 = 0 := by
  unfold ScatterDims.start
  rw [dif_neg (show (0 : Fin 2) ∉ ([1] : List (Fin 2)) by decide)]

/-- Axis 1 of the operand starts at the word the update's second coordinate names. -/
private theorem rows_start1 (j : (⟨2, ![B, n]⟩ : Shape).Idx) (idx : IVec ⟨2, ![n, 1]⟩ w) :
    (dimsRows B P n wf).start j idx 1 = (idx (colIx (j 1))).toInt := by
  unfold ScatterDims.start
  rw [dif_pos (show (1 : Fin 2) ∈ (dimsRows B P n wf).scatterDimsToOperandDims from List.mem_singleton.mpr rfl)]
  congr 2
  funext b; refine Fin.ext ?_
  match b with
  | ⟨0, _⟩ => rfl
  | ⟨1, _⟩ => rfl

/-- Axis 0 of the operand is the window axis: its window coordinate is the update's first coordinate. -/
private theorem rows_window0 (j : (⟨2, ![B, n]⟩ : Shape).Idx) :
    (dimsRows B P n wf).window j 0 = (j 0).val := by
  unfold ScatterDims.window
  have h : (0 : Fin 2) ∈ (dimsRows B P n wf).sKept :=
    show (0 : Fin 2) ∈ (List.finRange 2).filter (· ∉ ([1] : List (Fin 2))) by decide
  rw [dif_pos h]
  rfl

/-- Axis 1 of the operand is inserted: no window coordinate. -/
private theorem rows_window1 (j : (⟨2, ![B, n]⟩ : Shape).Idx) :
    (dimsRows B P n wf).window j 1 = 0 := by
  unfold ScatterDims.window
  have h : (1 : Fin 2) ∉ (dimsRows B P n wf).sKept :=
    show (1 : Fin 2) ∉ (List.finRange 2).filter (· ∉ ([1] : List (Fin 2))) by decide
  rw [dif_neg h]

/-- An update lands on entry (b, p) exactly when it sits in row `b` and its word is `p`. -/
private theorem rows_resultIdx_iff (j : (⟨2, ![B, n]⟩ : Shape).Idx) (idx : IVec ⟨2, ![n, 1]⟩ w) (b : Fin B) (p : Fin P) :
    (dimsRows B P n wf).resultIdx? j idx = some (ix2 b p)
      ↔ j 0 = b ∧ (idx (colIx (j 1))).toInt = (p.val : Int) := by
  have hb := (j 0).isLt
  have hB : (⟨2, ![B, n]⟩ : Shape).size 0 = B := rfl
  have hs0 : (⟨2, ![B, P]⟩ : Shape).size 0 = B := rfl
  have hs1 : (⟨2, ![B, P]⟩ : Shape).size 1 = P := rfl
  unfold ScatterDims.resultIdx?
  split
  · rename_i h
    rw [Option.some.injEq]
    constructor
    · intro he
      have h0 := congrArg Fin.val (congrFun he 0)
      have h1 := congrArg Fin.val (congrFun he 1)
      have g1 := h 1
      simp only [rows_start0, rows_start1, rows_window0, rows_window1] at h0 h1 g1
      change _ = b.val at h0
      change _ = p.val at h1
      refine ⟨Fin.ext ?_, ?_⟩ <;> omega
    · rintro ⟨h0, h1⟩
      funext a
      refine Fin.ext ?_
      match a with
      | ⟨0, _⟩ =>
        show ((dimsRows B P n wf).start j idx 0 + ((dimsRows B P n wf).window j 0 : Int)).toNat = b.val
        rw [rows_start0, rows_window0, ← h0]; omega
      | ⟨1, _⟩ =>
        show ((dimsRows B P n wf).start j idx 1 + ((dimsRows B P n wf).window j 1 : Int)).toNat = p.val
        rw [rows_start1, rows_window1, h1]; omega
  · rename_i h
    constructor
    · intro he; exact absurd he (by simp)
    · rintro ⟨h0, h1⟩
      exfalso; apply h
      intro a
      match a with
      | ⟨0, _⟩ =>
        show 0 ≤ (dimsRows B P n wf).start j idx 0 + ((dimsRows B P n wf).window j 0 : Int)
          ∧ (dimsRows B P n wf).start j idx 0 + ((dimsRows B P n wf).window j 0 : Int) < ((⟨2, ![B, P]⟩ : Shape).size 0 : Nat)
        rw [rows_start0, rows_window0, hs0]; omega
      | ⟨1, _⟩ =>
        show 0 ≤ (dimsRows B P n wf).start j idx 1 + ((dimsRows B P n wf).window j 1 : Int)
          ∧ (dimsRows B P n wf).start j idx 1 + ((dimsRows B P n wf).window j 1 : Int) < ((⟨2, ![B, P]⟩ : Shape).size 1 : Nat)
        have := p.isLt
        rw [rows_start1, rows_window1, h1, hs1]; omega
end Rows

/-- Entry (b, p) ends at its own value plus the sum over the words equal to `p` of row `b` of the updates. -/
theorem scatterAdd_rows_apply {B P n w : Nat} (wf : ScatterDims.WF ⟨2, ![B, P]⟩ ⟨2, ![n, 1]⟩ ⟨2, ![B, n]⟩ [0] [1] [1] 1)
    (x : (⟨2, ![B, P]⟩ : Shape).Idx → EReal) (idx : IVec ⟨2, ![n, 1]⟩ w) (upd : (⟨2, ![B, n]⟩ : Shape).Idx → EReal)
    (b : Fin B) (p : Fin P) :
    Ideal.hostScatterAdd (dimsRows B P n wf) x idx upd (ix2 b p)
      = x (ix2 b p) + ∑ i ∈ Finset.univ.filter (fun i : Fin n => (idx (colIx i)).toInt = (p.val : Int)), upd (ix2 b i) := by
  unfold Ideal.hostScatterAdd
  congr 1
  refine Finset.sum_nbij' (fun j => (j 1 : Fin n)) (fun i => ix2 b i) ?_ ?_ ?_ ?_ ?_
  · intro j hj
    have hj' := (Finset.mem_filter.mp hj).2
    exact Finset.mem_filter.mpr ⟨Finset.mem_univ _, ((rows_resultIdx_iff wf j idx b p).mp hj').2⟩
  · intro i hi
    have hi' := (Finset.mem_filter.mp hi).2
    exact Finset.mem_filter.mpr ⟨Finset.mem_univ _, (rows_resultIdx_iff wf (ix2 b i) idx b p).mpr ⟨rfl, hi'⟩⟩
  · intro j hj
    have h0 := ((rows_resultIdx_iff wf j idx b p).mp (Finset.mem_filter.mp hj).2).1
    show ix2 b (j 1) = j
    rw [← h0]; exact (eq_ix2 j).symm
  · intro i _
    rfl
  · intro j hj
    have h0 := ((rows_resultIdx_iff wf j idx b p).mp (Finset.mem_filter.mp hj).2).1
    show upd j = upd (ix2 b (j 1))
    rw [← h0]; exact congrArg upd (eq_ix2 j)

/-! ## Segments of columns -/

/-- Operand [P × C], words [n × 1], updates [n × C]: update row `i` goes, whole, to operand row word `i` names. -/
abbrev dimsCols (P C n : Nat) (wf : ScatterDims.WF ⟨2, ![P, C]⟩ ⟨2, ![n, 1]⟩ ⟨2, ![n, C]⟩ [1] [0] [0] 1) :
    ScatterDims ⟨2, ![P, C]⟩ ⟨2, ![n, 1]⟩ ⟨2, ![n, C]⟩ where
  updateWindowDims := [1]
  insertedWindowDims := [0]
  scatterDimsToOperandDims := [0]
  indexVectorDim := 1
  wf := wf

section Cols
variable {P C n w : Nat} (wf : ScatterDims.WF ⟨2, ![P, C]⟩ ⟨2, ![n, 1]⟩ ⟨2, ![n, C]⟩ [1] [0] [0] 1)

/-- Axis 0 of the operand starts at the word the update's first coordinate names. -/
private theorem cols_start0 (j : (⟨2, ![n, C]⟩ : Shape).Idx) (idx : IVec ⟨2, ![n, 1]⟩ w) :
    (dimsCols P C n wf).start j idx 0 = (idx (colIx (j 0))).toInt := by
  unfold ScatterDims.start
  rw [dif_pos (show (0 : Fin 2) ∈ (dimsCols P C n wf).scatterDimsToOperandDims from List.mem_singleton.mpr rfl)]
  congr 2
  funext b; refine Fin.ext ?_
  match b with
  | ⟨0, _⟩ => rfl
  | ⟨1, _⟩ => rfl

/-- Axis 1 of the operand is not named by the map: its start is 0. -/
private theorem cols_start1 (j : (⟨2, ![n, C]⟩ : Shape).Idx) (idx : IVec ⟨2, ![n, 1]⟩ w) :
    (dimsCols P C n wf).start j idx 1 = 0 := by
  unfold ScatterDims.start
  rw [dif_neg (show (1 : Fin 2) ∉ ([0] : List (Fin 2)) by decide)]

/-- Axis 0 of the operand is inserted: no window coordinate. -/
private theorem cols_window0 (j : (⟨2, ![n, C]⟩ : Shape).Idx) :
    (dimsCols P C n wf).window j 0 = 0 := by
  unfold ScatterDims.window
  have h : (0 : Fin 2) ∉ (dimsCols P C n wf).sKept :=
    show (0 : Fin 2) ∉ (List.finRange 2).filter (· ∉ ([0] : List (Fin 2))) by decide
  rw [dif_neg h]

/-- Axis 1 of the operand is the window axis: its window coordinate is the update's second coordinate. -/
private theorem cols_window1 (j : (⟨2, ![n, C]⟩ : Shape).Idx) :
    (dimsCols P C n wf).window j 1 = (j 1).val := by
  unfold ScatterDims.window
  have h : (1 : Fin 2) ∈ (dimsCols P C n wf).sKept :=
    show (1 : Fin 2) ∈ (List.finRange 2).filter (· ∉ ([0] : List (Fin 2))) by decide
  rw [dif_pos h]
  rfl

/-- An update lands on entry (p, c) exactly when its word is `p` and it sits in column `c`. -/
private theorem cols_resultIdx_iff (j : (⟨2, ![n, C]⟩ : Shape).Idx) (idx : IVec ⟨2, ![n, 1]⟩ w) (p : Fin P) (c : Fin C) :
    (dimsCols P C n wf).resultIdx? j idx = some (ix2 p c)
      ↔ (idx (colIx (j 0))).toInt = (p.val : Int) ∧ j 1 = c := by
  have hc := (j 1).isLt
  have hC : (⟨2, ![n, C]⟩ : Shape).size 1 = C := rfl
  have hs0 : (⟨2, ![P, C]⟩ : Shape).size 0 = P := rfl
  have hs1 : (⟨2, ![P, C]⟩ : Shape).size 1 = C := rfl
  unfold ScatterDims.resultIdx?
  split
  · rename_i h
    rw [Option.some.injEq]
    constructor
    · intro he
      have h0 := congrArg Fin.val (congrFun he 0)
      have h1 := congrArg Fin.val (congrFun he 1)
      have g0 := h 0
      simp only [cols_start0, cols_start1, cols_window0, cols_window1] at h0 h1 g0
      change _ = p.val at h0
      change _ = c.val at h1
      refine ⟨?_, Fin.ext ?_⟩ <;> omega
    · rintro ⟨h0, h1⟩
      funext a
      refine Fin.ext ?_
      match a with
      | ⟨0, _⟩ =>
        show ((dimsCols P C n wf).start j idx 0 + ((dimsCols P C n wf).window j 0 : Int)).toNat = p.val
        rw [cols_start0, cols_window0, h0]; omega
      | ⟨1, _⟩ =>
        show ((dimsCols P C n wf).start j idx 1 + ((dimsCols P C n wf).window j 1 : Int)).toNat = c.val
        rw [cols_start1, cols_window1, ← h1]; omega
  · rename_i h
    constructor
    · intro he; exact absurd he (by simp)
    · rintro ⟨h0, h1⟩
      exfalso; apply h
      intro a
      match a with
      | ⟨0, _⟩ =>
        show 0 ≤ (dimsCols P C n wf).start j idx 0 + ((dimsCols P C n wf).window j 0 : Int)
          ∧ (dimsCols P C n wf).start j idx 0 + ((dimsCols P C n wf).window j 0 : Int) < ((⟨2, ![P, C]⟩ : Shape).size 0 : Nat)
        have := p.isLt
        rw [cols_start0, cols_window0, h0, hs0]; omega
      | ⟨1, _⟩ =>
        show 0 ≤ (dimsCols P C n wf).start j idx 1 + ((dimsCols P C n wf).window j 1 : Int)
          ∧ (dimsCols P C n wf).start j idx 1 + ((dimsCols P C n wf).window j 1 : Int) < ((⟨2, ![P, C]⟩ : Shape).size 1 : Nat)
        rw [cols_start1, cols_window1, hs1]; omega
end Cols

/-- Entry (p, c) ends at its own value plus the sum over the words equal to `p` of column `c` of the updates. -/
theorem scatterAdd_cols_apply {P C n w : Nat} (wf : ScatterDims.WF ⟨2, ![P, C]⟩ ⟨2, ![n, 1]⟩ ⟨2, ![n, C]⟩ [1] [0] [0] 1)
    (x : (⟨2, ![P, C]⟩ : Shape).Idx → EReal) (idx : IVec ⟨2, ![n, 1]⟩ w) (upd : (⟨2, ![n, C]⟩ : Shape).Idx → EReal)
    (p : Fin P) (c : Fin C) :
    Ideal.hostScatterAdd (dimsCols P C n wf) x idx upd (ix2 p c)
      = x (ix2 p c) + ∑ i ∈ Finset.univ.filter (fun i : Fin n => (idx (colIx i)).toInt = (p.val : Int)), upd (ix2 i c) := by
  unfold Ideal.hostScatterAdd
  congr 1
  refine Finset.sum_nbij' (fun j => (j 0 : Fin n)) (fun i => ix2 i c) ?_ ?_ ?_ ?_ ?_
  · intro j hj
    have hj' := (Finset.mem_filter.mp hj).2
    exact Finset.mem_filter.mpr ⟨Finset.mem_univ _, ((cols_resultIdx_iff wf j idx p c).mp hj').1⟩
  · intro i hi
    have hi' := (Finset.mem_filter.mp hi).2
    exact Finset.mem_filter.mpr ⟨Finset.mem_univ _, (cols_resultIdx_iff wf (ix2 i c) idx p c).mpr ⟨hi', rfl⟩⟩
  · intro j hj
    have h1 := ((cols_resultIdx_iff wf j idx p c).mp (Finset.mem_filter.mp hj).2).2
    show ix2 (j 0) c = j
    rw [← h1]; exact (eq_ix2 j).symm
  · intro i _
    rfl
  · intro j hj
    have h1 := ((cols_resultIdx_iff wf j idx p c).mp (Finset.mem_filter.mp hj).2).2
    show upd j = upd (ix2 (j 0) c)
    rw [← h1]; exact congrArg upd (eq_ix2 j)

/-! ## A gather of whole columns of a table -/

/-- Operand [B × N], words [n × 1], result [B × n]: for each word one column of the table, all `B` rows of it. -/
abbrev dimsTakeCols (B N n : Nat)
    (wf : GatherDims.WF ⟨2, ![B, N]⟩ ⟨2, ![n, 1]⟩ ⟨2, ![B, n]⟩ [0] [1] [] [1] [] 1 ![B, 1]) :
    GatherDims ⟨2, ![B, N]⟩ ⟨2, ![n, 1]⟩ ⟨2, ![B, n]⟩ where
  offsetDims := [0]
  collapsedSliceDims := [1]
  operandBatchingDims := []
  startIndicesBatchingDims := []
  startIndexMap := [1]
  indexVectorDim := 1
  sliceSizes := ![B, 1]
  wf := wf

/-- Entry (b, i) of the result is the table's row `b` at the column word `i` names, signed and clamped. -/
theorem gather_cols_apply {α : Type} {B N n w : Nat} (hN : 0 < N)
    (wf : GatherDims.WF ⟨2, ![B, N]⟩ ⟨2, ![n, 1]⟩ ⟨2, ![B, n]⟩ [0] [1] [] [1] [] 1 ![B, 1])
    (x : (⟨2, ![B, N]⟩ : Shape).Idx → α) (idx : IVec ⟨2, ![n, 1]⟩ w) (b : Fin B) (i : Fin n) :
    Host.gather (dimsTakeCols B N n wf) x idx (ix2 b i)
      = x (ix2 b ⟨min (idx (colIx i)).toInt.toNat (N - 1), by omega⟩) := by
  unfold Host.gather
  congr 1
  funext a
  refine Fin.ext ?_
  have hob : ∀ a : Fin 2, a ∉ (dimsTakeCols B N n wf).operandBatchingDims := fun _ => List.not_mem_nil
  match a with
  | ⟨0, _⟩ =>
    -- the row axis: not start-indexed, an offset axis read off the result's first coordinate
    show (dimsTakeCols B N n wf).start (ix2 b i) idx 0 + (dimsTakeCols B N n wf).batchCoord (ix2 b i) 0
      + (dimsTakeCols B N n wf).offCoord (ix2 b i) 0 = b.val
    rw [GatherDims.batchCoord_eq_zero _ _ _ (hob 0)]
    unfold GatherDims.start GatherDims.offCoord
    have hk : (0 : Fin 2) ∈ (dimsTakeCols B N n wf).sKept :=
      show (0 : Fin 2) ∈ (List.finRange 2).filter (· ∉ (([1] : List (Fin 2)) ++ [])) by decide
    rw [dif_neg (show (0 : Fin 2) ∉ ([1] : List (Fin 2)) by decide), dif_pos hk]
    simp only [Nat.zero_add, Nat.add_zero]
    rfl
  | ⟨1, _⟩ =>
    -- the column axis: start-indexed and collapsed, the word clamped into the table
    show (dimsTakeCols B N n wf).start (ix2 b i) idx 1 + (dimsTakeCols B N n wf).batchCoord (ix2 b i) 1
      + (dimsTakeCols B N n wf).offCoord (ix2 b i) 1 = min (idx (colIx i)).toInt.toNat (N - 1)
    have hk : (1 : Fin 2) ∉ (dimsTakeCols B N n wf).sKept :=
      show (1 : Fin 2) ∉ (List.finRange 2).filter (· ∉ (([1] : List (Fin 2)) ++ [])) by decide
    rw [GatherDims.batchCoord_eq_zero _ _ _ (hob 1), GatherDims.offCoord_eq_zero _ _ _ hk]
    simp only [Nat.add_zero]
    unfold GatherDims.start
    rw [dif_pos (show (1 : Fin 2) ∈ (dimsTakeCols B N n wf).startIndexMap from List.mem_singleton.mpr rfl)]
    have hsi : (dimsTakeCols B N n wf).siIdx (ix2 b i) ⟨List.idxOf (1 : Fin 2) (dimsTakeCols B N n wf).startIndexMap,
        List.idxOf_lt_length_iff.2 (List.mem_singleton.mpr rfl)⟩ = colIx i := by
      funext c; refine Fin.ext ?_
      match c with
      | ⟨0, _⟩ => rfl
      | ⟨1, _⟩ => rfl
    rw [hsi]
    rfl

end Idealize.ShloMosaic.SegmentSum

end
-- ==== Proof.LibSegmentSumHost.lean ====
/-
  The segment-sum reads, stated for the host's accumulating scatter at the exact instance.

  At the exact instance the host's scatter with an additive body is, by definition, the operand plus the sum of the
  updates landing on each entry. With the sizes left as variables that identification is immediate; stated once
  here, a program at concrete sizes rewrites with these forms and never opens the scatter itself.
-/
import proofs.«426115_j19292993093657_1_alg».proof.Proof.LibSegmentSum

noncomputable section

namespace Idealize.ShloMosaic.SegmentSum

open Idealize.ShloMosaic.ValueIdx

/-- A vector of segments: segment `p` ends at its own value plus the sum of the updates whose word is `p`. -/
theorem scatterAdd_vec_host {P n w : Nat} {φ : FTy}
    (wf : ScatterDims.WF ⟨1, ![P]⟩ ⟨2, ![n, 1]⟩ ⟨1, ![n]⟩ [] [0] [0] 1)
    (x : FVec Ideal ⟨1, ![P]⟩ φ) (idx : IVec ⟨2, ![n, 1]⟩ w) (upd : FVec Ideal ⟨1, ![n]⟩ φ) (p : Fin P) :
    Host.scatterAdd (dimsVec P n wf) x idx upd (ix1 p)
      = x (ix1 p) + ∑ i ∈ Finset.univ.filter (fun i : Fin n => (idx (colIx i)).toInt = (p.val : Int)), upd (ix1 i) :=
  scatterAdd_vec_apply wf x idx upd p

/-- Rows of segments: entry (b, p) ends at its own value plus the sum, over the words equal to `p`, of row `b` of the updates. -/
theorem scatterAdd_rows_host {B P n w : Nat} {φ : FTy}
    (wf : ScatterDims.WF ⟨2, ![B, P]⟩ ⟨2, ![n, 1]⟩ ⟨2, ![B, n]⟩ [0] [1] [1] 1)
    (x : FVec Ideal ⟨2, ![B, P]⟩ φ) (idx : IVec ⟨2, ![n, 1]⟩ w) (upd : FVec Ideal ⟨2, ![B, n]⟩ φ)
    (b : Fin B) (p : Fin P) :
    Host.scatterAdd (dimsRows B P n wf) x idx upd (ix2 b p)
      = x (ix2 b p) + ∑ i ∈ Finset.univ.filter (fun i : Fin n => (idx (colIx i)).toInt = (p.val : Int)), upd (ix2 b i) :=
  scatterAdd_rows_apply wf x idx upd b p

/-- Segments of columns: entry (p, c) ends at its own value plus the sum, over the words equal to `p`, of column `c` of the updates. -/
theorem scatterAdd_cols_host {P C n w : Nat} {φ : FTy}
    (wf : ScatterDims.WF ⟨2, ![P, C]⟩ ⟨2, ![n, 1]⟩ ⟨2, ![n, C]⟩ [1] [0] [0] 1)
    (x : FVec Ideal ⟨2, ![P, C]⟩ φ) (idx : IVec ⟨2, ![n, 1]⟩ w) (upd : FVec Ideal ⟨2, ![n, C]⟩ φ)
    (p : Fin P) (c : Fin C) :
    Host.scatterAdd (dimsCols P C n wf) x idx upd (ix2 p c)
      = x (ix2 p c) + ∑ i ∈ Finset.univ.filter (fun i : Fin n => (idx (colIx i)).toInt = (p.val : Int)), upd (ix2 i c) :=
  scatterAdd_cols_apply wf x idx upd p c

end Idealize.ShloMosaic.SegmentSum

end
-- ==== Proof.RefRead.lean ====
/-
  The reference's two accumulating scatters, read entry by entry over the extended reals.

  The resized label map is flattened to one word per pixel (pixel n of the row-major numbering
  n = 16384·b + 128·h + w) and stood up as a column; the feature map is transposed to put the channel last and
  flattened to one row of 256 channels per pixel. Scattering the rows into a [21, 256] array of zeros by the words,
  with addition, leaves at (k, c) the sum of channel c over the pixels whose word is k; scattering ones into a [21]
  array of zeros leaves at k the number of those pixels.
-/
import proofs.«426115_j19292993093657_1_alg».proof.ReferenceIdeal
import proofs.«426115_j19292993093657_1_alg».proof.Proof.Gen.ReferenceIdeal
import proofs.«426115_j19292993093657_1_alg».proof.Proof.ClassSums
import proofs.«426115_j19292993093657_1_alg».proof.Proof.LibSegmentSumHost
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Hand

open Idealize.ShloMosaic Idealize.ShloMosaic.ValueIdx Idealize.ShloMosaic.SegmentSum
open Cert.ReferenceIdeal Cert.ReferenceIdeal.Gen
open Cert.ClassSums (pixB pixH pixW labelAt featAt classSum classCount sumArr countArr)

section Terms

variable {F : FTy → Type} [FloatOps F]

/-- One label word per pixel, as a column. -/
def pixLabels (lab : IVec S16x128x128 32) : IVec S262144x1 32 :=
  broadcastInDim S262144x1 ![0] bcast_S262144_S262144x1_0 (shapeCast S262144 lab shapeCasts_S16x128x128_S262144)

/-- One row of 256 channels per pixel. -/
def pixFeats (feat : FVec F S16x256x128x128 .f32) : FVec F S262144x256 .f32 :=
  shapeCast S262144x256
    (transpose S16x128x128x256 [0, 2, 3, 1] feat transposes_S16x256x128x128_S16x128x128x256_0_2_3_1)
    shapeCasts_S16x128x128x256_S262144x256

/-- The pixels' rows scattered, with addition, into a [21, 256] array of zeros by the pixels' words. -/
def sumsOf (feat : FVec F S16x256x128x128 .f32) (lab : IVec S16x128x128 32) : FVec F S21x256 .f32 :=
  Host.scatterAdd scatter_S21x256_S262144x1_S262144x256_1_0_0_1
    (broadcastInDim S21x256 ![] bcast_S_S21x256 (constant S_ .f32 0x00000000#32)) (pixLabels lab) (pixFeats feat)

/-- A one per pixel scattered, with addition, into a [21] array of zeros by the pixels' words. -/
def countsOf (lab : IVec S16x128x128 32) : FVec F S21 .f32 :=
  Host.scatterAdd scatter_S21_S262144x1_S262144_n_0_0_1
    (broadcastInDim S21 ![] bcast_S_S21 (constant S_ .f32 0x00000000#32)) (pixLabels lab)
    (broadcastInDim S262144 ![] bcast_S_S262144 (constant S_ .f32 0x3F800000#32))

end Terms

/-- Row n of the column of words is pixel n's label word. -/
theorem pixLabels_apply (lab : IVec S16x128x128 32) (n : Fin 262144) :
    pixLabels lab (colIx n) = labelAt lab n := by
  unfold pixLabels labelAt
  refine (broadcastInDim_apply _ _ _ (colIx n) (ix1 n) fun a => ?_).trans ?_
  · match a with
    | ⟨0, _⟩ => rfl
  · refine shapeCast_apply lab _ (ix1 n) (ix3 (pixB n) (pixH n) (pixW n)) ?_
    rw [Shape.rowMajor_val_three, Shape.rowMajor_val_one]
    show (n.val / 16384 * 128 + n.val / 128 % 128) * 128 + n.val % 128 = n.val
    omega

/-- Entry (n, c) of the pixels' rows is channel c of the feature map at pixel n. -/
theorem pixFeats_apply (feat : FVec Ideal S16x256x128x128 .f32) (n : Fin 262144) (c : Fin 256) :
    pixFeats feat (ix2 n c) = featAt feat c n := by
  unfold pixFeats featAt
  refine (shapeCast_apply _ _ (ix2 n c) (ix4 (pixB n) (pixH n) (pixW n) c) ?_).trans ?_
  · rw [Shape.rowMajor_val_four, Shape.rowMajor_val_two]
    show ((n.val / 16384 * 128 + n.val / 128 % 128) * 128 + n.val % 128) * 256 + c.val = n.val * 256 + c.val
    omega
  · refine transpose_apply _ feat _ (ix4 (pixB n) (pixH n) (pixW n) c) (ix4 (pixB n) c (pixH n) (pixW n)) fun b => ?_
    match b with
    | ⟨0, _⟩ => rfl
    | ⟨1, _⟩ => rfl
    | ⟨2, _⟩ => rfl
    | ⟨3, _⟩ => rfl

/-- The constant 1.0 is one. -/
theorem one_f32 : Ideal.ofBits .f32 0x3F800000#32 = 1 := by
  simp [Ideal.ofBits, Ideal.ieee, -EReal.coe_mul]; norm_num

/-- The scattered rows are the class sums. -/
theorem sumsOf_eq (feat : FVec Ideal S16x256x128x128 .f32) (lab : IVec S16x128x128 32) :
    sumsOf (F := Ideal) feat lab = sumArr feat lab := by
  funext j
  obtain ⟨k, c, rfl⟩ : ∃ k c, j = ix2 k c := ⟨j 0, j 1, eq_ix2 j⟩
  show Host.scatterAdd (dimsCols 21 256 262144 scatter_S21x256_S262144x1_S262144x256_1_0_0_1_wf)
      (broadcastInDim S21x256 ![] bcast_S_S21x256 (constant (F := Ideal) S_ .f32 0x00000000#32)) (pixLabels lab)
      (pixFeats feat) (ix2 k c) = classSum feat lab k c
  rw [scatterAdd_cols_host]
  have h0 : broadcastInDim S21x256 ![] bcast_S_S21x256 (constant (F := Ideal) S_ .f32 0x00000000#32) (ix2 k c) = 0 :=
    Ideal.ofBits_zero_f32
  rw [h0, zero_add]
  unfold classSum
  simp only [pixLabels_apply, pixFeats_apply]

/-- The scattered ones are the class counts. -/
theorem countsOf_eq (lab : IVec S16x128x128 32) : countsOf (F := Ideal) lab = countArr lab := by
  funext j
  obtain ⟨k, rfl⟩ : ∃ k, j = ix1 k := ⟨j 0, eq_ix1 j⟩
  show Host.scatterAdd (dimsVec 21 262144 scatter_S21_S262144x1_S262144_n_0_0_1_wf)
      (broadcastInDim S21 ![] bcast_S_S21 (constant (F := Ideal) S_ .f32 0x00000000#32)) (pixLabels lab)
      (broadcastInDim S262144 ![] bcast_S_S262144 (constant (F := Ideal) S_ .f32 0x3F800000#32)) (ix1 k) = classCount lab k
  rw [scatterAdd_vec_host]
  have h0 : broadcastInDim S21 ![] bcast_S_S21 (constant (F := Ideal) S_ .f32 0x00000000#32) (ix1 k) = 0 :=
    Ideal.ofBits_zero_f32
  have h1 : ∀ n : Fin 262144,
      broadcastInDim S262144 ![] bcast_S_S262144 (constant (F := Ideal) S_ .f32 0x3F800000#32) (ix1 n) = 1 :=
    fun _ => one_f32
  rw [h0, zero_add]
  unfold classCount
  simp only [pixLabels_apply, h1]

end Cert.ReferenceIdeal.Hand

end
-- ==== Proof.RefVals.lean ====
/-
  What the reference's operations leave in its buffers, as closed terms over the launch contents.

  The line is read in five stretches. The first two leave the 128 source indices ⌊512·i / 128⌋ in one array and
  in another; the third builds from those two arrays the table of (row, column) pairs and gathers the labels
  there; the fourth flattens labels and features to one entry per pixel and scatters them, with addition, into
  zeros; the fifth divides the sums by the counts.
-/
import proofs.«426115_j19292993093657_1_alg».proof.Proof.RefRun
import proofs.«426115_j19292993093657_1_alg».proof.Proof.RefRead
import proofs.«426115_j19292993093657_1_alg».proof.Proof.HostParts

set_option maxRecDepth 16384

noncomputable section

namespace Cert.ReferenceIdeal.Hand

open Idealize.ShloMosaic Idealize.ShloMosaic.TcCoe Idealize.SL.Sem
open Cert.ReferenceIdeal Cert.ReferenceIdeal.Gen Idealize.ShloMosaic.StableHlo

variable {F : FTy → Type} [FloatOps F]

/-! ## The source indices -/

/-- The first stretch leaves the source indices in `%3`, -/
theorem rows_eq (M : Valuation τ sig (Elt F)) :
    (after opsA M (main_v3 : DevRef τ sig) : IVec S128 32)
      = Cert.HostParts.srcIdx Cert.HostParts.resizeFacts.b_128 := by
  after_results_simp
  rfl

/-- and writes neither argument. -/
theorem A_arg0 (M : Valuation τ sig (Elt F)) :
    after opsA M (main_arg0 : DevRef τ sig) = M (main_arg0 : DevRef τ sig) := by
  after_results_simp

theorem A_arg1 (M : Valuation τ sig (Elt F)) :
    after opsA M (main_arg1 : DevRef τ sig) = M (main_arg1 : DevRef τ sig) := by
  after_results_simp

/-- The second stretch leaves them in `%7`, -/
theorem cols_eq (M : Valuation τ sig (Elt F)) :
    (after opsB M (main_v7 : DevRef τ sig) : IVec S128 32)
      = Cert.HostParts.srcIdx Cert.HostParts.resizeFacts.b_128 := by
  after_results_simp
  rfl

/-- and writes neither `%3` nor an argument. -/
theorem B_v3 (M : Valuation τ sig (Elt F)) :
    after opsB M (main_v3 : DevRef τ sig) = M (main_v3 : DevRef τ sig) := by
  after_results_simp

theorem B_arg0 (M : Valuation τ sig (Elt F)) :
    after opsB M (main_arg0 : DevRef τ sig) = M (main_arg0 : DevRef τ sig) := by
  after_results_simp

theorem B_arg1 (M : Valuation τ sig (Elt F)) :
    after opsB M (main_arg1 : DevRef τ sig) = M (main_arg1 : DevRef τ sig) := by
  after_results_simp

/-! ## The gather -/

/-- The two index vectors wrapped where negative and spread over the 128 × 128 grid: `%8` … `%21`. -/
abbrev opsC1 : List (HloOp τ sig (Elt F)) :=
  [ StableHlo.unary main_v3 main_v8 (broadcastInDim S128x1 ![0] bcast_S128_S128x1_0 : (⟨S128, .i32⟩ : BufTy).Contents (Elt F) → (⟨S128x1, .i32⟩ : BufTy).Contents (Elt F)),
    StableHlo.unary main_v7 main_v9 (broadcastInDim S1x128 ![1] bcast_S128_S1x128_1 : (⟨S128, .i32⟩ : BufTy).Contents (Elt F) → (⟨S1x128, .i32⟩ : BufTy).Contents (Elt F)),
    StableHlo.nullary main_c_3 (constantI S_ 32 0#32),
    StableHlo.unary main_c_3 main_v10 (broadcastInDim S128x1 ![] bcast_S_S128x1 : (⟨S_, .i32⟩ : BufTy).Contents (Elt F) → (⟨S128x1, .i32⟩ : BufTy).Contents (Elt F)),
    StableHlo.binary main_v8 main_v10 main_v11 (cmpi .slt : (⟨S128x1, .i32⟩ : BufTy).Contents (Elt F) → (⟨S128x1, .i32⟩ : BufTy).Contents (Elt F) → (⟨S128x1, .i1⟩ : BufTy).Contents (Elt F)),
    StableHlo.nullary main_c_4 (constantI S_ 32 512#32),
    StableHlo.unary main_c_4 main_v12 (broadcastInDim S128x1 ![] bcast_S_S128x1 : (⟨S_, .i32⟩ : BufTy).Contents (Elt F) → (⟨S128x1, .i32⟩ : BufTy).Contents (Elt F)),
    StableHlo.binary main_v8 main_v12 main_v13 (addi : (⟨S128x1, .i32⟩ : BufTy).Contents (Elt F) → (⟨S128x1, .i32⟩ : BufTy).Contents (Elt F) → (⟨S128x1, .i32⟩ : BufTy).Contents (Elt F)),
    StableHlo.ternary main_v11 main_v13 main_v8 main_v14 (select : (⟨S128x1, .i1⟩ : BufTy).Contents (Elt F) → (⟨S128x1, .i32⟩ : BufTy).Contents (Elt F) → (⟨S128x1, .i32⟩ : BufTy).Contents (Elt F) → (⟨S128x1, .i32⟩ : BufTy).Contents (Elt F)),
    StableHlo.nullary main_c_5 (constantI S_ 32 0#32),
    StableHlo.unary main_c_5 main_v15 (broadcastInDim S1x128 ![] bcast_S_S1x128 : (⟨S_, .i32⟩ : BufTy).Contents (Elt F) → (⟨S1x128, .i32⟩ : BufTy).Contents (Elt F)),
    StableHlo.binary main_v9 main_v15 main_v16 (cmpi .slt : (⟨S1x128, .i32⟩ : BufTy).Contents (Elt F) → (⟨S1x128, .i32⟩ : BufTy).Contents (Elt F) → (⟨S1x128, .i1⟩ : BufTy).Contents (Elt F)),
    StableHlo.nullary main_c_6 (constantI S_ 32 512#32),
    StableHlo.unary main_c_6 main_v17 (broadcastInDim S1x128 ![] bcast_S_S1x128 : (⟨S_, .i32⟩ : BufTy).Contents (Elt F) → (⟨S1x128, .i32⟩ : BufTy).Contents (Elt F)),
    StableHlo.binary main_v9 main_v17 main_v18 (addi : (⟨S1x128, .i32⟩ : BufTy).Contents (Elt F) → (⟨S1x128, .i32⟩ : BufTy).Contents (Elt F) → (⟨S1x128, .i32⟩ : BufTy).Contents (Elt F)),
    StableHlo.ternary main_v16 main_v18 main_v9 main_v19 (select : (⟨S1x128, .i1⟩ : BufTy).Contents (Elt F) → (⟨S1x128, .i32⟩ : BufTy).Contents (Elt F) → (⟨S1x128, .i32⟩ : BufTy).Contents (Elt F) → (⟨S1x128, .i32⟩ : BufTy).Contents (Elt F)),
    StableHlo.unary main_v14 main_v20 (broadcastInDim S128x128 ![0, 1] bcast_S128x1_S128x128_0_1 : (⟨S128x1, .i32⟩ : BufTy).Contents (Elt F) → (⟨S128x128, .i32⟩ : BufTy).Contents (Elt F)),
    StableHlo.unary main_v19 main_v21 (broadcastInDim S128x128 ![0, 1] bcast_S1x128_S128x128_0_1 : (⟨S1x128, .i32⟩ : BufTy).Contents (Elt F) → (⟨S128x128, .i32⟩ : BufTy).Contents (Elt F)) ]

/-- The table of (row, column) pairs and the gather: `%22` … `%25`. -/
abbrev opsC2 : List (HloOp τ sig (Elt F)) :=
  [ StableHlo.unary main_v20 main_v22 (broadcastInDim S128x128x1 ![0, 1] bcast_S128x128_S128x128x1_0_1 : (⟨S128x128, .i32⟩ : BufTy).Contents (Elt F) → (⟨S128x128x1, .i32⟩ : BufTy).Contents (Elt F)),
    StableHlo.unary main_v21 main_v23 (broadcastInDim S128x128x1 ![0, 1] bcast_S128x128_S128x128x1_0_1 : (⟨S128x128, .i32⟩ : BufTy).Contents (Elt F) → (⟨S128x128x1, .i32⟩ : BufTy).Contents (Elt F)),
    StableHlo.binary main_v22 main_v23 main_v24 ((fun a b => concatenate S128x128x2 2 [⟨S128x128x1, a⟩, ⟨S128x128x1, b⟩] concatenates_S128x128x1_S128x128x1_S128x128x2_d2) : (⟨S128x128x1, .i32⟩ : BufTy).Contents (Elt F) → (⟨S128x128x1, .i32⟩ : BufTy).Contents (Elt F) → (⟨S128x128x2, .i32⟩ : BufTy).Contents (Elt F)),
    StableHlo.binary main_arg1 main_v24 main_v25 ((fun x i => Host.gather gather_S16x512x512_S128x128x2_S16x128x128_0_12_n_n_12_2_1611 x i) : (⟨S16x512x512, .i32⟩ : BufTy).Contents (Elt F) → (⟨S128x128x2, .i32⟩ : BufTy).Contents (Elt F) → (⟨S16x128x128, .i32⟩ : BufTy).Contents (Elt F)) ]

/-- The third stretch is those two one after the other. -/
theorem opsC_eq : (opsC : List (HloOp τ sig (Elt F))) = opsC1 ++ opsC2 := rfl

/-- A vector of 128 source rows, wrapped by adding 512 where negative, constant along each row of the grid. -/
def gridRows (hf : Cert.HostParts.ResizeFacts) (rows : IVec S128 32) : IVec S128x128 32 :=
  broadcastInDim S128x128 ![0, 1] hf.b_col_sq
    (select
      (cmpi .slt (broadcastInDim S128x1 ![0] hf.b_128_col rows) (broadcastInDim S128x1 ![] hf.b_col (constantI S_ 32 0#32)))
      (addi (broadcastInDim S128x1 ![0] hf.b_128_col rows) (broadcastInDim S128x1 ![] hf.b_col (constantI S_ 32 512#32)))
      (broadcastInDim S128x1 ![0] hf.b_128_col rows))

/-- A vector of 128 source columns, wrapped likewise, constant along each column of the grid. -/
def gridCols (hf : Cert.HostParts.ResizeFacts) (cols : IVec S128 32) : IVec S128x128 32 :=
  broadcastInDim S128x128 ![0, 1] hf.b_row_sq
    (select
      (cmpi .slt (broadcastInDim S1x128 ![1] hf.b_128_row cols) (broadcastInDim S1x128 ![] hf.b_row (constantI S_ 32 0#32)))
      (addi (broadcastInDim S1x128 ![1] hf.b_128_row cols) (broadcastInDim S1x128 ![] hf.b_row (constantI S_ 32 512#32)))
      (broadcastInDim S1x128 ![1] hf.b_128_row cols))

/-- The grid of wrapped source rows is in `%20`, -/
theorem C1_v20 (W : Valuation τ sig (Elt F)) :
    (after opsC1 W (main_v20 : DevRef τ sig) : IVec S128x128 32)
      = gridRows Cert.HostParts.resizeFacts (W (main_v3 : DevRef τ sig)) := by
  after_results_simp
  rfl

/-- the grid of wrapped source columns in `%21`, -/
theorem C1_v21 (W : Valuation τ sig (Elt F)) :
    (after opsC1 W (main_v21 : DevRef τ sig) : IVec S128x128 32)
      = gridCols Cert.HostParts.resizeFacts (W (main_v7 : DevRef τ sig)) := by
  after_results_simp
  rfl

/-- and the labels are not written. -/
theorem C1_arg1 (W : Valuation τ sig (Elt F)) :
    after opsC1 W (main_arg1 : DevRef τ sig) = W (main_arg1 : DevRef τ sig) := by
  after_results_simp

/-- The last four operations gather the labels at the table of pairs of the two grids. -/
theorem C2_v25 (W : Valuation τ sig (Elt F)) :
    (after opsC2 W (main_v25 : DevRef τ sig) : IVec S16x128x128 32)
      = Host.gather (Cert.HostParts.pairGather Cert.HostParts.resizeFacts.gat) (W (main_arg1 : DevRef τ sig))
          (concatenate S128x128x2 2
            [⟨S128x128x1, broadcastInDim S128x128x1 ![0, 1] Cert.HostParts.resizeFacts.b_sq_unit (W (main_v20 : DevRef τ sig))⟩,
             ⟨S128x128x1, broadcastInDim S128x128x1 ![0, 1] Cert.HostParts.resizeFacts.b_sq_unit (W (main_v21 : DevRef τ sig))⟩]
            Cert.HostParts.resizeFacts.cat) := by
  after_results
  rfl

/-- The third stretch gathers the labels at the pair table of the two index arrays, -/
theorem gather_eq (W : Valuation τ sig (Elt F)) :
    (after opsC W (main_v25 : DevRef τ sig) : IVec S16x128x128 32)
      = Cert.HostParts.resizeFrom Cert.HostParts.resizeFacts (W (main_v3 : DevRef τ sig)) (W (main_v7 : DevRef τ sig))
          (W (main_arg1 : DevRef τ sig)) := by
  rw [opsC_eq, after_append, C2_v25, C1_v20, C1_v21, C1_arg1]
  rfl

/-- and writes neither argument. -/
theorem C_arg0 (W : Valuation τ sig (Elt F)) :
    after opsC W (main_arg0 : DevRef τ sig) = W (main_arg0 : DevRef τ sig) := by
  after_results_simp

theorem C_arg1 (W : Valuation τ sig (Elt F)) :
    after opsC W (main_arg1 : DevRef τ sig) = W (main_arg1 : DevRef τ sig) := by
  after_results_simp

/-! ## The scatters -/

/-- The fourth stretch leaves the scattered rows in `%31` -/
theorem sums_eq (W : Valuation τ sig (Elt F)) :
    (after opsD W (main_v31 : DevRef τ sig) : FVec F S21x256 .f32)
      = sumsOf (W (main_arg0 : DevRef τ sig)) (W (main_v25 : DevRef τ sig)) := by
  after_results
  rfl

/-- and the scattered ones in `%35`, -/
theorem counts_eq (W : Valuation τ sig (Elt F)) :
    (after opsD W (main_v35 : DevRef τ sig) : FVec F S21 .f32)
      = countsOf (W (main_v25 : DevRef τ sig)) := by
  after_results
  rfl

/-- and writes neither argument. -/
theorem D_arg0 (W : Valuation τ sig (Elt F)) :
    after opsD W (main_arg0 : DevRef τ sig) = W (main_arg0 : DevRef τ sig) := by
  after_results_simp

theorem D_arg1 (W : Valuation τ sig (Elt F)) :
    after opsD W (main_arg1 : DevRef τ sig) = W (main_arg1 : DevRef τ sig) := by
  after_results_simp

/-! ## The prototypes -/

/-- The fifth stretch leaves the prototypes of `%31` and `%35` in `%45`, -/
theorem protos_eq (W : Valuation τ sig (Elt F)) :
    (after opsE W (main_v45 : DevRef τ sig) : FVec F S21x256 .f32)
      = Cert.HostParts.protos Cert.HostParts.protoFacts (W (main_v31 : DevRef τ sig)) (W (main_v35 : DevRef τ sig)) := by
  after_results
  rfl

/-- and writes neither `%35` nor an argument. -/
theorem E_v35 (W : Valuation τ sig (Elt F)) :
    after opsE W (main_v35 : DevRef τ sig) = W (main_v35 : DevRef τ sig) := by
  after_results_simp

theorem E_arg0 (W : Valuation τ sig (Elt F)) :
    after opsE W (main_arg0 : DevRef τ sig) = W (main_arg0 : DevRef τ sig) := by
  after_results_simp

theorem E_arg1 (W : Valuation τ sig (Elt F)) :
    after opsE W (main_arg1 : DevRef τ sig) = W (main_arg1 : DevRef τ sig) := by
  after_results_simp

/-! ## The whole line -/

/-- The resized label map is in `%25` when the scatters read it. -/
theorem labels_eq (V : Valuation τ sig (Elt F)) :
    (after opsC (after opsB (after opsA V)) (main_v25 : DevRef τ sig) : IVec S16x128x128 32)
      = Cert.HostParts.resize Cert.HostParts.resizeFacts (V (main_arg1 : DevRef τ sig)) := by
  rw [gather_eq, cols_eq, B_v3, rows_eq, B_arg1, A_arg1]
  rfl

/-- The counts: the ones scattered by the resized labels. -/
theorem v35_eq (V : Valuation τ sig (Elt F)) :
    (after ops V (main_v35 : DevRef τ sig) : FVec F S21 .f32)
      = countsOf (Cert.HostParts.resize Cert.HostParts.resizeFacts (V (main_arg1 : DevRef τ sig))) := by
  rw [ops_eq, after_append, after_append, after_append, after_append, E_v35, counts_eq, labels_eq]

/-- The prototypes: of the features' rows scattered by the resized labels, and of those counts. -/
theorem v45_eq (V : Valuation τ sig (Elt F)) :
    (after ops V (main_v45 : DevRef τ sig) : FVec F S21x256 .f32)
      = Cert.HostParts.protos Cert.HostParts.protoFacts
          (sumsOf (V (main_arg0 : DevRef τ sig))
            (Cert.HostParts.resize Cert.HostParts.resizeFacts (V (main_arg1 : DevRef τ sig))))
          (countsOf (Cert.HostParts.resize Cert.HostParts.resizeFacts (V (main_arg1 : DevRef τ sig)))) := by
  rw [ops_eq, after_append, after_append, after_append, after_append, protos_eq, sums_eq, counts_eq, labels_eq,
    C_arg0, B_arg0, A_arg0]

/-- The arguments are as launched. -/
theorem arg0_eq (V : Valuation τ sig (Elt F)) :
    after ops V (main_arg0 : DevRef τ sig) = V (main_arg0 : DevRef τ sig) := by
  rw [ops_eq, after_append, after_append, after_append, after_append, E_arg0, D_arg0, C_arg0, B_arg0, A_arg0]

theorem arg1_eq (V : Valuation τ sig (Elt F)) :
    after ops V (main_arg1 : DevRef τ sig) = V (main_arg1 : DevRef τ sig) := by
  rw [ops_eq, after_append, after_append, after_append, after_append, E_arg1, D_arg1, C_arg1, B_arg1, A_arg1]

end Cert.ReferenceIdeal.Hand

end
-- ==== Proof.RefValue.lean ====
/-
  The reference's run, read: its two results as the class prototypes and the class counts of its arguments.
-/
import proofs.«426115_j19292993093657_1_alg».proof.ReferenceIdeal
import proofs.«426115_j19292993093657_1_alg».proof.Proof.Gen.ReferenceIdeal
import proofs.«426115_j19292993093657_1_alg».proof.Proof.HostParts
import proofs.«426115_j19292993093657_1_alg».proof.Proof.ClassSums
import proofs.«426115_j19292993093657_1_alg».proof.Proof.RefVals
import Idealize.ShloMosaic.Lib.StableHlo.Run
import Idealize.ShloMosaic.Lib.Tactic

noncomputable section

namespace Cert.ReferenceIdeal.Hand

open Idealize.ShloMosaic Idealize.ShloMosaic.TcCoe Idealize.SL.Sem
open Cert.ReferenceIdeal Cert.ReferenceIdeal.Gen

/-- Every weakly fair execution of the reference ends with the prototypes and the counts of its arguments' class
    sums in its two results, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (r.2.mem ((c.tc : Thread nD τ).loc main_v45) : FVec Ideal Cert.HostParts.S21x256 .f32)
          = Cert.HostParts.protos (F := Ideal) Cert.HostParts.protoFacts
              (Cert.ClassSums.sumArr (m ((c.tc : Thread nD τ).loc main_arg0))
                (Cert.HostParts.resize Cert.HostParts.resizeFacts (m ((c.tc : Thread nD τ).loc main_arg1))))
              (Cert.ClassSums.countArr
                (Cert.HostParts.resize Cert.HostParts.resizeFacts (m ((c.tc : Thread nD τ).loc main_arg1))))
      ∧ (r.2.mem ((c.tc : Thread nD τ).loc main_v35) : FVec Ideal Cert.HostParts.S21 .f32)
          = Cert.ClassSums.countArr
              (Cert.HostParts.resize Cert.HostParts.resizeFacts (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨?_, ?_, ?_, ?_⟩) (run_main m ρ)
  · refine (h c main_v45).trans ((v45_eq _).trans ?_)
    rw [sumsOf_eq, countsOf_eq]
  · refine (h c main_v35).trans ((v35_eq _).trans ?_)
    rw [countsOf_eq]
  · exact (h c main_arg0).trans (arg0_eq _)
  · exact (h c main_arg1).trans (arg1_eq _)

end Cert.ReferenceIdeal.Hand

end
-- ==== Proof.lean ====
/-
  Class prototypes by a one-hot matrix product, against a segment sum.

  Both programs first resize the [16, 512, 512] label map to [16, 128, 128] by the same nearest-neighbour gather.
  The kernel then walks the 32 half-image tiles: for each it forms the tile's [8192, 21] one-hot class matrix,
  multiplies the tile's [256, 8192] features by it, and adds the product and the one-hot column sums to two
  accumulators, which it copies out after the last tile. The reference scatters every pixel's 256 channels, and a 1,
  into the row of the pixel's class. Over the extended reals a product with a 0/1 factor keeps or drops its other
  factor, and a finite sum may be regrouped freely, so both end with, for each class, the sum of each channel over
  the class's pixels and the number of those pixels (a label outside 0 … 20 matches no one-hot column and no scatter
  row). The same closing lines then divide each class's sums by max(count, 1) and zero the classes with no pixel.

  The frames of the two kernel programs are the generated ones; the reference's frame is its run with the results
  dropped; the idealization rewrote nothing.
-/
import proofs.«426115_j19292993093657_1_alg».proof.Defs
import proofs.«426115_j19292993093657_1_alg».proof.Proof.Gen.Kernel
import proofs.«426115_j19292993093657_1_alg».proof.Proof.Gen.Kernel.Skeleton
import proofs.«426115_j19292993093657_1_alg».proof.Proof.Gen.Kernel.Launch
import proofs.«426115_j19292993093657_1_alg».proof.Proof.Gen.Kernel.Points
import proofs.«426115_j19292993093657_1_alg».proof.Proof.Gen.Kernel.Frame
import proofs.«426115_j19292993093657_1_alg».proof.Proof.Gen.KernelIdeal
import proofs.«426115_j19292993093657_1_alg».proof.Proof.Gen.KernelIdeal.Skeleton
import proofs.«426115_j19292993093657_1_alg».proof.Proof.Gen.KernelIdeal.Launch
import proofs.«426115_j19292993093657_1_alg».proof.Proof.Gen.KernelIdeal.Points
import proofs.«426115_j19292993093657_1_alg».proof.Proof.Gen.KernelIdeal.Frame
import proofs.«426115_j19292993093657_1_alg».proof.Proof.Gen.ReferenceIdeal
import proofs.«426115_j19292993093657_1_alg».proof.Proof.Gen.Pre_finite_inputs
import proofs.«426115_j19292993093657_1_alg».proof.Proof.KernelRun
import proofs.«426115_j19292993093657_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its results dropped. -/
theorem frame_referenceIdeal : Cert.frame_ReferenceIdeal := fun m ρ _ =>
  (θ_run Cert.ReferenceIdeal.defs _ _).mono (fun _ h c => ⟨(h c).2.2.1, (h c).2.2.2⟩) (Cert.ReferenceIdeal.Hand.run m ρ)

theorem preserves : Cert.preserves_Kernel_KernelIdeal := trivial

/-- Both programs end with the prototypes and the counts of the same class sums of arguments that agree. -/
theorem algebraic : Cert.algebraic_KernelIdeal_ReferenceIdeal := by
  intro m ρ m' ρ' _ hagree
  refine ⟨_, _, Cert.KernelIdeal.RunValue.run m ρ, ?_⟩
  refine (θ_run Cert.ReferenceIdeal.defs _ _).mono (fun _ h c => ?_) (Cert.ReferenceIdeal.Hand.run m' ρ')
  obtain ⟨h1, h2, h3, h4⟩ := h c
  refine ⟨h1.trans ?_, h2.trans ?_, h3, h4⟩
  · rw [(hagree c).1, (hagree c).2]
  · rw [(hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
